-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S16x32 : Shape := ⟨2, ![16, 32]⟩
abbrev S8x32 : Shape := ⟨2, ![8, 32]⟩
abbrev S20x16 : Shape := ⟨2, ![20, 16]⟩
abbrev S80x64 : Shape := ⟨2, ![80, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩
abbrev S100000x1 : Shape := ⟨2, ![100000, 1]⟩

class Facts : Prop where
  bcast_S_S16x32 : S_.BroadcastsInDim S16x32 (![] : Fin 0 → Fin S16x32.rank)
  reducesTo_S16x32_S_d0_1 : S16x32.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S20x16 : S_.BroadcastsInDim S20x16 (![] : Fin 0 → Fin S20x16.rank)
  reducesTo_S20x16_S_d0_1 : S20x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  slices_S100000x3_S100000x1_0_0 : S100000x3.Slices ![0, 0] S100000x1
  shapeCasts_S100000x1_S100000 : S100000x1.ShapeCasts S100000
  bcast_S_S100000 : S_.BroadcastsInDim S100000 (![] : Fin 0 → Fin S100000.rank)
  reducesTo_S100000_S_d0 : S100000.ReducesTo [0] S_
  slices_S100000x3_S100000x1_0_1 : S100000x3.Slices ![0, 1] S100000x1
  slices_S100000x3_S100000x1_0_2 : S100000x3.Slices ![0, 2] S100000x1

variable [Facts]

def fn_part4 {F : FTy → Type} [FloatOps F] (main_arg0 : IVec S100000x3 32) (main_v64 : IVec S_ 1) (main_v68 : IVec S100000 1) (main_v69 : IVec S100000x1 32) : IVec S_ 1 :=
  let main_v70 : IVec S100000 32 := shapeCast S100000 main_v69 shapeCasts_S100000x1_S100000
  let main_c_24 : IVec S_ 32 := constantI S_ 32 8#32
  let main_v71 : IVec S100000 32 := broadcastInDim S100000 ![] bcast_S_S100000 main_c_24
  let main_v72 : IVec S100000 1 := cmpi .slt main_v70 main_v71
  let main_v73 : IVec S100000 1 := andi main_v68 main_v72
  let main_c_25 : IVec S_ 1 := constantI S_ 1 1#1
  let main_v74 : IVec S_ 1 := (fun x v => Host.reduce IntOp.andi x v reducesTo_S100000_S_d0 h_S_) main_v73 main_c_25
  let main_v75 : IVec S_ 1 := andi main_v64 main_v74
  let main_v76 : IVec S100000x1 32 := (extractStridedSlice S100000x1 ![0, 2] · slices_S100000x3_S100000x1_0_2) main_arg0
  let main_v77 : IVec S100000 32 := shapeCast S100000 main_v76 shapeCasts_S100000x1_S100000
  let main_c_26 : IVec S_ 32 := constantI S_ 32 0#32
  let main_v78 : IVec S100000 32 := broadcastInDim S100000 ![] bcast_S_S100000 main_c_26
  let main_v79 : IVec S100000 1 := cmpi .sge main_v77 main_v78
  let main_v80 : IVec S100000x1 32 := (extractStridedSlice S100000x1 ![0, 2] · slices_S100000x3_S100000x1_0_2) main_arg0
  let main_v81 : IVec S100000 32 := shapeCast S100000 main_v80 shapeCasts_S100000x1_S100000
  let main_c_27 : IVec S_ 32 := constantI S_ 32 20#32
  let main_v82 : IVec S100000 32 := broadcastInDim S100000 ![] bcast_S_S100000 main_c_27
  let main_v83 : IVec S100000 1 := cmpi .slt main_v81 main_v82
  let main_v84 : IVec S100000 1 := andi main_v79 main_v83
  let main_c_28 : IVec S_ 1 := constantI S_ 1 1#1
  let main_v85 : IVec S_ 1 := (fun x v => Host.reduce IntOp.andi x v reducesTo_S100000_S_d0 h_S_) main_v84 main_c_28
  let main_v86 : IVec S_ 1 := andi main_v75 main_v85
  main_v86

def fn_part3 {F : FTy → Type} [FloatOps F] (main_arg0 : IVec S100000x3 32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : IVec S100000x1 32 := (extractStridedSlice S100000x1 ![0, 0] · slices_S100000x3_S100000x1_0_0) main_arg0
  let main_v55 : IVec S100000 32 := shapeCast S100000 main_v54 shapeCasts_S100000x1_S100000
  let main_c_20 : IVec S_ 32 := constantI S_ 32 0#32
  let main_v56 : IVec S100000 32 := broadcastInDim S100000 ![] bcast_S_S100000 main_c_20
  let main_v57 : IVec S100000 1 := cmpi .sge main_v55 main_v56
  let main_v58 : IVec S100000x1 32 := (extractStridedSlice S100000x1 ![0, 0] · slices_S100000x3_S100000x1_0_0) main_arg0
  let main_v59 : IVec S100000 32 := shapeCast S100000 main_v58 shapeCasts_S100000x1_S100000
  let main_c_21 : IVec S_ 32 := constantI S_ 32 16#32
  let main_v60 : IVec S100000 32 := broadcastInDim S100000 ![] bcast_S_S100000 main_c_21
  let main_v61 : IVec S100000 1 := cmpi .slt main_v59 main_v60
  let main_v62 : IVec S100000 1 := andi main_v57 main_v61
  let main_c_22 : IVec S_ 1 := constantI S_ 1 1#1
  let main_v63 : IVec S_ 1 := (fun x v => Host.reduce IntOp.andi x v reducesTo_S100000_S_d0 h_S_) main_v62 main_c_22
  let main_v64 : IVec S_ 1 := andi main_v53 main_v63
  let main_v65 : IVec S100000x1 32 := (extractStridedSlice S100000x1 ![0, 1] · slices_S100000x3_S100000x1_0_1) main_arg0
  let main_v66 : IVec S100000 32 := shapeCast S100000 main_v65 shapeCasts_S100000x1_S100000
  let main_c_23 : IVec S_ 32 := constantI S_ 32 0#32
  let main_v67 : IVec S100000 32 := broadcastInDim S100000 ![] bcast_S_S100000 main_c_23
  let main_v68 : IVec S100000 1 := cmpi .sge main_v66 main_v67
  let main_v69 : IVec S100000x1 32 := (extractStridedSlice S100000x1 ![0, 1] · slices_S100000x3_S100000x1_0_1) main_arg0
  fn_part4 (F := F) main_arg0 main_v64 main_v68 main_v69

def fn_part2 {F : FTy → Type} [FloatOps F] (main_arg0 : IVec S100000x3 32) (main_arg10 : FVec F S64 .f32) (main_arg11 : FVec F S64x64 .f32) (main_arg12 : FVec F S64x10 .f32) (main_arg13 : FVec F S10 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg11
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x10 .f32 := Host.absf main_arg12
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_arg0 main_v48 main_v49 main_v50

def fn_part1 {F : FTy → Type} [FloatOps F] (main_arg0 : IVec S100000x3 32) (main_arg7 : FVec F S64 .f32) (main_arg8 : FVec F S80x64 .f32) (main_arg9 : FVec F S64x64 .f32) (main_arg10 : FVec F S64 .f32) (main_arg11 : FVec F S64x64 .f32) (main_arg12 : FVec F S64x10 .f32) (main_arg13 : FVec F S10 .f32) (main_v13 : IVec S_ 1) (main_v16 : IVec S80x64 1) : IVec S_ 1 :=
  let main_c_5 : IVec S_ 1 := constantI S_ 1 1#1
  let main_v17 : IVec S_ 1 := (fun x v => Host.reduce IntOp.andi x v reducesTo_S80x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S80x64 .f32 := Host.absf main_arg8
  let main_cst_8 : FVec F S_ .f32 := constant S_ .f32 0x7F800000#32
  let main_v25 : FVec F S80x64 .f32 := broadcastInDim S80x64 ![] bcast_S_S80x64 main_cst_8
  let main_v26 : IVec S80x64 1 := cmpf .olt main_v24 main_v25
  let main_c_9 : IVec S_ 1 := constantI S_ 1 1#1
  let main_v27 : IVec S_ 1 := (fun x v => Host.reduce IntOp.andi x v reducesTo_S80x64_S_d0_1 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg10 main_arg11 main_arg12 main_arg13 main_v33

def fn {F : FTy → Type} [FloatOps F] (main_arg0 : IVec S100000x3 32) (main_arg1 : IVec S2x1600000 32) (main_arg2 : IVec S100000 32) (main_arg3 : FVec F S16x32 .f32) (main_arg4 : FVec F S8x32 .f32) (main_arg5 : FVec F S20x16 .f32) (main_arg6 : FVec F S80x64 .f32) (main_arg7 : FVec F S64 .f32) (main_arg8 : FVec F S80x64 .f32) (main_arg9 : FVec F S64x64 .f32) (main_arg10 : FVec F S64 .f32) (main_arg11 : FVec F S64x64 .f32) (main_arg12 : FVec F S64x10 .f32) (main_arg13 : FVec F S10 .f32) : IVec S_ 1 :=
  let main_v0 : FVec F S16x32 .f32 := Host.absf main_arg3
  let main_cst : FVec F S_ .f32 := constant S_ .f32 0x7F800000#32
  let main_v1 : FVec F S16x32 .f32 := broadcastInDim S16x32 ![] bcast_S_S16x32 main_cst
  let main_v2 : IVec S16x32 1 := cmpf .olt main_v0 main_v1
  let main_c : IVec S_ 1 := constantI S_ 1 1#1
  let main_v3 : IVec S_ 1 := (fun x v => Host.reduce IntOp.andi x v reducesTo_S16x32_S_d0_1 h_S_) main_v2 main_c
  let main_v4 : FVec F S8x32 .f32 := Host.absf main_arg4
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S20x16 .f32 := Host.absf main_arg5
  let main_cst_2 : FVec F S_ .f32 := constant S_ .f32 0x7F800000#32
  let main_v10 : FVec F S20x16 .f32 := broadcastInDim S20x16 ![] bcast_S_S20x16 main_cst_2
  let main_v11 : IVec S20x16 1 := cmpf .olt main_v9 main_v10
  let main_c_3 : IVec S_ 1 := constantI S_ 1 1#1
  let main_v12 : IVec S_ 1 := (fun x v => Host.reduce IntOp.andi x v reducesTo_S20x16_S_d0_1 h_S_) main_v11 main_c_3
  let main_v13 : IVec S_ 1 := andi main_v8 main_v12
  let main_v14 : FVec F S80x64 .f32 := Host.absf main_arg6
  let main_cst_4 : FVec F S_ .f32 := constant S_ .f32 0x7F800000#32
  let main_v15 : FVec F S80x64 .f32 := broadcastInDim S80x64 ![] bcast_S_S80x64 main_cst_4
  let main_v16 : IVec S80x64 1 := cmpf .olt main_v14 main_v15
  fn_part1 (F := F) main_arg0 main_arg7 main_arg8 main_arg9 main_arg10 main_arg11 main_arg12 main_arg13 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S16x32 : Shape := ⟨2, ![16, 32]⟩
abbrev S8x32 : Shape := ⟨2, ![8, 32]⟩
abbrev S20x16 : Shape := ⟨2, ![20, 16]⟩
abbrev S80x64 : Shape := ⟨2, ![80, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S16x80 : Shape := ⟨2, ![16, 80]⟩
abbrev S8x80 : Shape := ⟨2, ![8, 80]⟩
abbrev S20x80 : Shape := ⟨2, ![20, 80]⟩
abbrev S100000x80 : Shape := ⟨2, ![100000, 80]⟩
abbrev S2000x1 : Shape := ⟨2, ![2000, 1]⟩
abbrev S2000x80 : Shape := ⟨2, ![2000, 80]⟩
abbrev S2000x16 : Shape := ⟨2, ![2000, 16]⟩
abbrev S2000x8 : Shape := ⟨2, ![2000, 8]⟩
abbrev S2000x20 : Shape := ⟨2, ![2000, 20]⟩
abbrev S1600000x1 : Shape := ⟨2, ![1600000, 1]⟩
abbrev S1600000x80 : Shape := ⟨2, ![1600000, 80]⟩
abbrev S1x64 : Shape := ⟨2, ![1, 64]⟩
abbrev S100000x64 : Shape := ⟨2, ![100000, 64]⟩
abbrev S4000x80 : Shape := ⟨2, ![4000, 80]⟩
abbrev S4000x64 : Shape := ⟨2, ![4000, 64]⟩
abbrev S1600000x64 : Shape := ⟨2, ![1600000, 64]⟩
abbrev S5000 : Shape := ⟨1, ![5000]⟩
abbrev S5000x64 : Shape := ⟨2, ![5000, 64]⟩
abbrev S5000x1 : Shape := ⟨2, ![5000, 1]⟩
abbrev S1x10 : Shape := ⟨2, ![1, 10]⟩
abbrev S5000x10 : Shape := ⟨2, ![5000, 10]⟩

abbrev nBuf : Space → Nat
  | .hbm => 96
  | .vmem => 33
  | .smem => 0
  | _ => 0

abbrev bufTy : (tb : Table) → Fin (tcTables nBuf tb) → BufTy
  | .hbm, ⟨0, _⟩ => ⟨S100000x3, .i32⟩
  | .hbm, ⟨1, _⟩ => ⟨S2x1600000, .i32⟩
  | .hbm, ⟨2, _⟩ => ⟨S100000, .i32⟩
  | .hbm, ⟨3, _⟩ => ⟨S16x32, .f32⟩
  | .hbm, ⟨4, _⟩ => ⟨S8x32, .f32⟩
  | .hbm, ⟨5, _⟩ => ⟨S20x16, .f32⟩
  | .hbm, ⟨6, _⟩ => ⟨S80x64, .f32⟩
  | .hbm, ⟨7, _⟩ => ⟨S64, .f32⟩
  | .hbm, ⟨8, _⟩ => ⟨S80x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x10, .f32⟩
  | .hbm, ⟨13, _⟩ => ⟨S10, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000x1, .i32⟩
  | .hbm, ⟨19, _⟩ => ⟨S100000x1, .i32⟩
  | .hbm, ⟨20, _⟩ => ⟨S100000x1, .i32⟩
  | .hbm, ⟨21, _⟩ => ⟨S_, .i32⟩
  | .hbm, ⟨22, _⟩ => ⟨S_, .f32⟩
  | .hbm, ⟨23, _⟩ => ⟨S16x80, .f32⟩
  | .hbm, ⟨24, _⟩ => ⟨S_, .i32⟩
  | .hbm, ⟨25, _⟩ => ⟨S_, .f32⟩
  | .hbm, ⟨26, _⟩ => ⟨S8x80, .f32⟩
  | .hbm, ⟨27, _⟩ => ⟨S_, .i32⟩
  | .hbm, ⟨28, _⟩ => ⟨S_, .f32⟩
  | .hbm, ⟨29, _⟩ => ⟨S20x80, .f32⟩
  | .hbm, ⟨30, _⟩ => ⟨S100000x80, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x80, .f32⟩
  | .hbm, ⟨53, _⟩ => ⟨S_, .f32⟩
  | .hbm, ⟨54, _⟩ => ⟨S100000x80, .f32⟩
  | .hbm, ⟨55, _⟩ => ⟨S1600000x1, .i32⟩
  | .hbm, ⟨56, _⟩ => ⟨S100000x80, .f32⟩
  | .hbm, ⟨57, _⟩ => ⟨S100000x80, .f32⟩
  | .hbm, ⟨58, _⟩ => ⟨S100000x80, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S_, .f32⟩
  | .hbm, ⟨79, _⟩ => ⟨S100000, .f32⟩
  | .hbm, ⟨80, _⟩ => ⟨S_, .f32⟩
  | .hbm, ⟨81, _⟩ => ⟨S5000, .f32⟩
  | .hbm, ⟨82, _⟩ => ⟨S100000x1, .i32⟩
  | .hbm, ⟨83, _⟩ => ⟨S5000, .f32⟩
  | .hbm, ⟨84, _⟩ => ⟨S_, .f32⟩
  | .hbm, ⟨85, _⟩ => ⟨S5000x64, .f32⟩
  | .hbm, ⟨86, _⟩ => ⟨S100000x1, .i32⟩
  | .hbm, ⟨87, _⟩ => ⟨S5000x64, .f32⟩
  | .hbm, ⟨88, _⟩ => ⟨S_, .f32⟩
  | .hbm, ⟨89, _⟩ => ⟨S5000, .f32⟩
  | .hbm, ⟨90, _⟩ => ⟨S5000, .f32⟩
  | .hbm, ⟨91, _⟩ => ⟨S5000x1, .f32⟩
  | .hbm, ⟨92, _⟩ => ⟨S5000x64, .f32⟩
  | .hbm, ⟨93, _⟩ => ⟨S5000x64, .f32⟩
  | .hbm, ⟨94, _⟩ => ⟨S1x10, .f32⟩
  | .hbm, ⟨95, _⟩ => ⟨S5000x10, .f32⟩
  | .local _ .vmem, ⟨0, _⟩ => ⟨S2000x1, .i32⟩
  | .local _ .vmem, ⟨1, _⟩ => ⟨S2000x1, .i32⟩
  | .local _ .vmem, ⟨2, _⟩ => ⟨S2000x1, .i32⟩
  | .local _ .vmem, ⟨3, _⟩ => ⟨S2000x1, .i32⟩
  | .local _ .vmem, ⟨4, _⟩ => ⟨S2000x1, .i32⟩
  | .local _ .vmem, ⟨5, _⟩ => ⟨S2000x1, .i32⟩
  | .local _ .vmem, ⟨6, _⟩ => ⟨S16x80, .f32⟩
  | .local _ .vmem, ⟨7, _⟩ => ⟨S8x80, .f32⟩
  | .local _ .vmem, ⟨8, _⟩ => ⟨S20x80, .f32⟩
  | .local _ .vmem, ⟨9, _⟩ => ⟨S2000x80, .f32⟩
  | .local _ .vmem, ⟨10, _⟩ => ⟨S2000x80, .f32⟩
  | .local _ .vmem, ⟨11, _⟩ => ⟨S4000x80, .f32⟩
  | .local _ .vmem, ⟨12, _⟩ => ⟨S4000x80, .f32⟩
  | .local _ .vmem, ⟨13, _⟩ => ⟨S4000x80, .f32⟩
  | .local _ .vmem, ⟨14, _⟩ => ⟨S4000x80, .f32⟩
  | .local _ .vmem, ⟨15, _⟩ => ⟨S80x64, .f32⟩
  | .local _ .vmem, ⟨16, _⟩ => ⟨S1x64, .f32⟩
  | .local _ .vmem, ⟨17, _⟩ => ⟨S80x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S4000x64, .f32⟩
  | .local _ .vmem, ⟨28, _⟩ => ⟨S4000x64, .f32⟩
  | .local _ .vmem, ⟨29, _⟩ => ⟨S5000x64, .f32⟩
  | .local _ .vmem, ⟨30, _⟩ => ⟨S64x10, .f32⟩
  | .local _ .vmem, ⟨31, _⟩ => ⟨S1x10, .f32⟩
  | .local _ .vmem, ⟨32, _⟩ => ⟨S5000x10, .f32⟩
  | _, _ => ⟨S100000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_call0_v0 : Ref sig .tc := ⟨.hbm, 22, rfl⟩
abbrev main_v7 : Ref sig .tc := ⟨.hbm, 23, rfl⟩
abbrev main_c_0 : Ref sig .tc := ⟨.hbm, 24, rfl⟩
abbrev main_call1_v0 : Ref sig .tc := ⟨.hbm, 25, rfl⟩
abbrev main_v8 : Ref sig .tc := ⟨.hbm, 26, rfl⟩
abbrev main_c_1 : Ref sig .tc := ⟨.hbm, 27, rfl⟩
abbrev main_call2_v0 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_7 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem1_0 : DmaSem sig := 30
abbrev cc3_sem2_0 : DmaSem sig := 31
abbrev cc3_sem3_0 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S80x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S80x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S5000x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S5000x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S100000x3_S100000x1_0_0 : S100000x3.Slices ![0, 0] S100000x1
  slices_S100000x3_S100000x1_0_1 : S100000x3.Slices ![0, 1] S100000x1
  slices_S100000x3_S100000x1_0_2 : S100000x3.Slices ![0, 2] S100000x1
  pads_S16x32_S16x80_000_0480 : S16x32.Pads (![0, 0] : Fin 2 → Nat) ![0, 48] ![0, 0] S16x80
  h_S_ : 0 < S_.numel
  pads_S8x32_S8x80_000_32160 : S8x32.Pads (![0, 32] : Fin 2 → Nat) ![0, 16] ![0, 0] S8x80
  pads_S20x16_S20x80_000_6400 : S20x16.Pads (![0, 64] : Fin 2 → Nat) ![0, 0] ![0, 0] S20x80
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x16_d1_w32 : S2000x16.Iotas .tc 32 [1]
  iota_S2000x8_d1_w32 : S2000x8.Iotas .tc 32 [1]
  iota_S2000x20_d1_w32 : S2000x20.Iotas .tc 32 [1]
  broadcasts_S2000x1_S2000x16 : S2000x1.Broadcasts S2000x16
  natLt_1_32 : 1 < 32
  bitsLt_bf16_f32 : FTy.bits .bf16 < FTy.bits .f32
  broadcasts_S2000x1_S2000x8 : S2000x1.Broadcasts S2000x8
  broadcasts_S2000x1_S2000x20 : S2000x1.Broadcasts S2000x20
  inb_S16x80_S16x80_0_0 : ∀ a, (![0, 0] : Fin 2 → Nat) a + S16x80.size a ≤ S16x80.size a
  h_S16x80 : 0 < S16x80.numel
  shapeCasts_S16x80_S16x80 : S16x80.ShapeCasts S16x80
  inb_S8x80_S8x80_0_0 : ∀ a, (![0, 0] : Fin 2 → Nat) a + S8x80.size a ≤ S8x80.size a
  h_S8x80 : 0 < S8x80.numel
  shapeCasts_S8x80_S8x80 : S8x80.ShapeCasts S8x80
  inb_S20x80_S20x80_0_0 : ∀ a, (![0, 0] : Fin 2 → Nat) a + S20x80.size a ≤ S20x80.size a
  h_S20x80 : 0 < S20x80.numel
  shapeCasts_S20x80_S20x80 : S20x80.ShapeCasts S20x80
  inb_S2000x80_S2000x80_0_0 : ∀ a, (![0, 0] : Fin 2 → Nat) a + S2000x80.size a ≤ S2000x80.size a
  h_S2000x80 : 0 < S2000x80.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x80 : S_.BroadcastsInDim S100000x80 (![] : Fin 0 → Fin S100000x80.rank)
  bcast_S100000x1_S100000x80_0_1 : S100000x1.BroadcastsInDim S100000x80 (![0, 1] : Fin 2 → Fin S100000x80.rank)
  shapeCasts_S64_S1x64 : S64.ShapeCasts S1x64
  inb_S4000x80_S4000x80_0_0 : ∀ a, (![0, 0] : Fin 2 → Nat) a + S4000x80.size a ≤ S4000x80.size a
  h_S4000x80 : 0 < S4000x80.numel
  shapeCasts_S4000x80_S4000x80 : S4000x80.ShapeCasts S4000x80
  inb_S80x64_S80x64_0_0 : ∀ a, (![0, 0] : Fin 2 → Nat) a + S80x64.size a ≤ S80x64.size a
  h_S80x64 : 0 < S80x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bcast_S_S5000 : S_.BroadcastsInDim S5000 (![] : Fin 0 → Fin S5000.rank)
  bcast_S_S5000x64 : S_.BroadcastsInDim S5000x64 (![] : Fin 0 → Fin S5000x64.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  shapeCasts_S10_S1x10 : S10.ShapeCasts S1x10
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  dot_S2000x16_S16x80_S2000x80_1_0_0_1_n_n_wf : DotDims.WF S2000x16 S16x80 S2000x80 [1] [0] [0] [1] [] []
  dot_S2000x8_S8x80_S2000x80_1_0_0_1_n_n_wf : DotDims.WF S2000x8 S8x80 S2000x80 [1] [0] [0] [1] [] []
  dot_S2000x20_S20x80_S2000x80_1_0_0_1_n_n_wf : DotDims.WF S2000x20 S20x80 S2000x80 [1] [0] [0] [1] [] []
  scatter_S100000_S1600000x1_S1600000_n_0_0_1_wf : ScatterDims.WF S100000 S1600000x1 S1600000 [] [0] [0] 1
  gather_S100000x80_S1600000x1_S1600000x80_1_0_n_n_0_1_180_wf : GatherDims.WF S100000x80 S1600000x1 S1600000x80 [1] [0] [] [0] [] 1 ![1, 80]
  scatter_S100000x80_S1600000x1_S1600000x80_1_0_0_1_wf : ScatterDims.WF S100000x80 S1600000x1 S1600000x80 [1] [0] [0] 1
  dot_S4000x80_S80x64_S4000x64_1_0_0_1_n_n_wf : DotDims.WF S4000x80 S80x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  scatter_S5000_S100000x1_S100000_n_0_0_1_wf : ScatterDims.WF S5000 S100000x1 S100000 [] [0] [0] 1
  scatter_S5000x64_S100000x1_S100000x64_1_0_0_1_wf : ScatterDims.WF S5000x64 S100000x1 S100000x64 [1] [0] [0] 1
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .i32 = 32 ∨ (Rect.block (s := S100000x1) S2000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x80.size a ≤ S16x80.size a
  hwx0_3 : ∀ i : grid0.Coords, EltTy.bits .f32 = 32 ∨ (Rect.block (s := S16x80) S16x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x80.size a ≤ S8x80.size a
  hwx0_4 : ∀ i : grid0.Coords, EltTy.bits .f32 = 32 ∨ (Rect.block (s := S8x80) S8x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x80.size a ≤ S20x80.size a
  hwx0_5 : ∀ i : grid0.Coords, EltTy.bits .f32 = 32 ∨ (Rect.block (s := S20x80) S20x80.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x80.size a ≤ S100000x80.size a
  hwx0_6 : ∀ i : grid0.Coords, EltTy.bits .f32 = 32 ∨ (Rect.block (s := S100000x80) S2000x80.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x80.size a ≤ S100000x80.size a
  hwx1_0 : ∀ i : grid1.Coords, EltTy.bits .f32 = 32 ∨ (Rect.block (s := S100000x80) S4000x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x80.size a ≤ S100000x80.size a
  hwx1_1 : ∀ i : grid1.Coords, EltTy.bits .f32 = 32 ∨ (Rect.block (s := S100000x80) S4000x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S80x64.size a ≤ S80x64.size a
  hwx1_2 : ∀ i : grid1.Coords, EltTy.bits .f32 = 32 ∨ (Rect.block (s := S80x64) S80x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S80x64.size a ≤ S80x64.size a
  hwx1_4 : ∀ i : grid1.Coords, EltTy.bits .f32 = 32 ∨ (Rect.block (s := S80x64) S80x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S5000x64.size a
  hwx3_0 : ∀ i : grid3.Coords, EltTy.bits .f32 = 32 ∨ (Rect.block (s := S5000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x10.size a ≤ S64x10.size a
  hwx3_1 : ∀ i : grid3.Coords, EltTy.bits .f32 = 32 ∨ (Rect.block (s := S64x10) S64x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S5000x10.size a ≤ S5000x10.size a
  hwx3_3 : ∀ i : grid3.Coords, EltTy.bits .f32 = 32 ∨ (Rect.block (s := S5000x10) S5000x10.size (cc3_transform_3 i) (hinb3_3 i)).WholeWords (EltTy.packing .f32)

variable [Facts₀]

def dot_S2000x16_S16x80_S2000x80_1_0_0_1_n_n : DotDims S2000x16 S16x80 S2000x80 where
  lhsContracting := [1]
  rhsContracting := [0]
  lhsNonContracting := [0]
  rhsNonContracting := [1]
  lhsBatch := []
  rhsBatch := []
  wf := dot_S2000x16_S16x80_S2000x80_1_0_0_1_n_n_wf
def dot_S2000x8_S8x80_S2000x80_1_0_0_1_n_n : DotDims S2000x8 S8x80 S2000x80 where
  lhsContracting := [1]
  rhsContracting := [0]
  lhsNonContracting := [0]
  rhsNonContracting := [1]
  lhsBatch := []
  rhsBatch := []
  wf := dot_S2000x8_S8x80_S2000x80_1_0_0_1_n_n_wf
def dot_S2000x20_S20x80_S2000x80_1_0_0_1_n_n : DotDims S2000x20 S20x80 S2000x80 where
  lhsContracting := [1]
  rhsContracting := [0]
  lhsNonContracting := [0]
  rhsNonContracting := [1]
  lhsBatch := []
  rhsBatch := []
  wf := dot_S2000x20_S20x80_S2000x80_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x80_S1600000x1_S1600000x80_1_0_n_n_0_1_180 : GatherDims S100000x80 S1600000x1 S1600000x80 where
  offsetDims := [1]
  collapsedSliceDims := [0]
  operandBatchingDims := []
  startIndicesBatchingDims := []
  startIndexMap := [0]
  indexVectorDim := 1
  sliceSizes := ![1, 80]
  wf := gather_S100000x80_S1600000x1_S1600000x80_1_0_n_n_0_1_180_wf
def scatter_S100000x80_S1600000x1_S1600000x80_1_0_0_1 : ScatterDims S100000x80 S1600000x1 S1600000x80 where
  updateWindowDims := [1]
  insertedWindowDims := [0]
  scatterDimsToOperandDims := [0]
  indexVectorDim := 1
  wf := scatter_S100000x80_S1600000x1_S1600000x80_1_0_0_1_wf
def dot_S4000x80_S80x64_S4000x64_1_0_0_1_n_n : DotDims S4000x80 S80x64 S4000x64 where
  lhsContracting := [1]
  rhsContracting := [0]
  lhsNonContracting := [0]
  rhsNonContracting := [1]
  lhsBatch := []
  rhsBatch := []
  wf := dot_S4000x80_S80x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def scatter_S5000x64_S100000x1_S100000x64_1_0_0_1 : ScatterDims S5000x64 S100000x1 S100000x64 where
  updateWindowDims := [1]
  insertedWindowDims := [0]
  scatterDimsToOperandDims := [0]
  indexVectorDim := 1
  wf := scatter_S5000x64_S100000x1_S100000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v4) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S16x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S20x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S2000x80.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S4000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4000x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S80x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S80x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S5000x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S16x32 : Shape := ⟨2, ![16, 32]⟩
abbrev S8x32 : Shape := ⟨2, ![8, 32]⟩
abbrev S20x16 : Shape := ⟨2, ![20, 16]⟩
abbrev S80x64 : Shape := ⟨2, ![80, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S100000x32 : Shape := ⟨2, ![100000, 32]⟩
abbrev S100000x16 : Shape := ⟨2, ![100000, 16]⟩
abbrev S100000x80 : Shape := ⟨2, ![100000, 80]⟩
abbrev S1600000x1 : Shape := ⟨2, ![1600000, 1]⟩
abbrev S1600000x80 : Shape := ⟨2, ![1600000, 80]⟩
abbrev S100000x64 : Shape := ⟨2, ![100000, 64]⟩
abbrev S1x64 : Shape := ⟨2, ![1, 64]⟩
abbrev S1600000x64 : Shape := ⟨2, ![1600000, 64]⟩
abbrev S5000 : Shape := ⟨1, ![5000]⟩
abbrev S5000x64 : Shape := ⟨2, ![5000, 64]⟩
abbrev S5000x1 : Shape := ⟨2, ![5000, 1]⟩
abbrev S5000x10 : Shape := ⟨2, ![5000, 10]⟩
abbrev S1x10 : Shape := ⟨2, ![1, 10]⟩

abbrev nBuf : Space → Nat
  | .hbm => 133
  | .vmem => 0
  | .smem => 0
  | _ => 0

abbrev hbmTy0_0 (i : Nat) : BufTy := match i % 128 with
  | 0 => ⟨S100000x3, .i32⟩
  | 1 => ⟨S2x1600000, .i32⟩
  | 2 => ⟨S100000, .i32⟩
  | 3 => ⟨S16x32, .f32⟩
  | 4 => ⟨S8x32, .f32⟩
  | 5 => ⟨S20x16, .f32⟩
  | 6 => ⟨S80x64, .f32⟩
  | 7 => ⟨S64, .f32⟩
  | 8 => ⟨S80x64, .f32⟩
  | 9 => ⟨S64x64, .f32⟩
  | 10 => ⟨S64, .f32⟩
  | 11 => ⟨S64x64, .f32⟩
  | 12 => ⟨S64x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S100000x1, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x32, .f32⟩
  | 29 => ⟨S100000x1, .i32⟩
  | 30 => ⟨S100000, .i32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x32, .f32⟩
  | 40 => ⟨S100000x1, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x16, .f32⟩
  | 51 => ⟨S100000x80, .f32⟩
  | 52 => ⟨S_, .f32⟩
  | 53 => ⟨S1600000, .f32⟩
  | 54 => ⟨S_, .f32⟩
  | 55 => ⟨S100000, .f32⟩
  | 56 => ⟨S1600000x1, .i32⟩
  | 57 => ⟨S100000, .f32⟩
  | 58 => ⟨S_, .f32⟩
  | 59 => ⟨S100000, .f32⟩
  | 60 => ⟨S100000, .f32⟩
  | 61 => ⟨S_, .f32⟩
  | 62 => ⟨S100000, .f32⟩
  | 63 => ⟨S100000, .f32⟩
  | 64 => ⟨S100000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x80, .f32⟩
  | 74 => ⟨S_, .f32⟩
  | 75 => ⟨S100000x80, .f32⟩
  | 76 => ⟨S1600000x1, .i32⟩
  | 77 => ⟨S100000x80, .f32⟩
  | 78 => ⟨S100000x80, .f32⟩
  | 79 => ⟨S100000x80, .f32⟩
  | 80 => ⟨S100000x64, .f32⟩
  | 81 => ⟨S1x64, .f32⟩
  | 82 => ⟨S100000x64, .f32⟩
  | 83 => ⟨S100000x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S_, .f32⟩
  | 114 => ⟨S100000, .f32⟩
  | 115 => ⟨S_, .f32⟩
  | 116 => ⟨S5000, .f32⟩
  | 117 => ⟨S100000x1, .i32⟩
  | 118 => ⟨S5000, .f32⟩
  | 119 => ⟨S_, .f32⟩
  | 120 => ⟨S5000x64, .f32⟩
  | 121 => ⟨S100000x1, .i32⟩
  | 122 => ⟨S5000x64, .f32⟩
  | 123 => ⟨S_, .f32⟩
  | 124 => ⟨S5000, .f32⟩
  | 125 => ⟨S5000, .f32⟩
  | 126 => ⟨S5000x1, .f32⟩
  | 127 => ⟨S5000x64, .f32⟩
  | _ => ⟨S100000x3, .i32⟩

abbrev hbmTy0_1 (i : Nat) : BufTy := match i % 128 with
  | 0 => ⟨S5000x64, .f32⟩
  | 1 => ⟨S5000x10, .f32⟩
  | 2 => ⟨S1x10, .f32⟩
  | 3 => ⟨S5000x10, .f32⟩
  | 4 => ⟨S5000x10, .f32⟩
  | _ => ⟨S100000x3, .i32⟩

abbrev hbmTy (i : Nat) : BufTy := match i / 128 with
  | 0 => hbmTy0_0 i
  | 1 => hbmTy0_1 i
  | _ => ⟨S100000x3, .i32⟩

abbrev bufTy : (tb : Table) → Fin (tcTables nBuf tb) → BufTy
  | .hbm, ⟨i, _⟩ => hbmTy i
  | _, _ => ⟨S100000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call0_cst : Ref sig .tc := ⟨.hbm, 86, rfl⟩
abbrev main_call0_v0 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call1_cst : Ref sig .tc := ⟨.hbm, 110, rfl⟩
abbrev main_call1_v0 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S100000x3_S100000x1_0_0 : S100000x3.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x3_S100000x1_0_1 : S100000x3.Slices ![0, 1] S100000x1
  slices_S100000x3_S100000x1_0_2 : S100000x3.Slices ![0, 2] S100000x1
  concatenates_S100000x32_S100000x32_S100000x16_S100000x80_d1 : Shape.Concatenates [S100000x32, S100000x32, S100000x16] S100000x80 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x80 : S_.BroadcastsInDim S100000x80 (![] : Fin 0 → Fin S100000x80.rank)
  bcast_S100000x1_S100000x80_0_1 : S100000x1.BroadcastsInDim S100000x80 (![0, 1] : Fin 2 → Fin S100000x80.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S5000 : S_.BroadcastsInDim S5000 (![] : Fin 0 → Fin S5000.rank)
  bcast_S_S5000x64 : S_.BroadcastsInDim S5000x64 (![] : Fin 0 → Fin S5000x64.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S10_S1x10_1 : S10.BroadcastsInDim S1x10 (![1] : Fin 1 → Fin S1x10.rank)
  bcast_S1x10_S5000x10_0_1 : S1x10.BroadcastsInDim S5000x10 (![0, 1] : Fin 2 → Fin S5000x10.rank)
  gather_S16x32_S100000x1_S100000x32_1_0_n_n_0_1_132_wf : GatherDims.WF S16x32 S100000x1 S100000x32 [1] [0] [] [0] [] 1 ![1, 32]
  gather_S8x32_S100000x1_S100000x32_1_0_n_n_0_1_132_wf : GatherDims.WF S8x32 S100000x1 S100000x32 [1] [0] [] [0] [] 1 ![1, 32]
  gather_S20x16_S100000x1_S100000x16_1_0_n_n_0_1_116_wf : GatherDims.WF S20x16 S100000x1 S100000x16 [1] [0] [] [0] [] 1 ![1, 16]
  scatter_S100000_S1600000x1_S1600000_n_0_0_1_wf : ScatterDims.WF S100000 S1600000x1 S1600000 [] [0] [0] 1
  gather_S100000x80_S1600000x1_S1600000x80_1_0_n_n_0_1_180_wf : GatherDims.WF S100000x80 S1600000x1 S1600000x80 [1] [0] [] [0] [] 1 ![1, 80]
  scatter_S100000x80_S1600000x1_S1600000x80_1_0_0_1_wf : ScatterDims.WF S100000x80 S1600000x1 S1600000x80 [1] [0] [0] 1
  dot_S100000x80_S80x64_S100000x64_1_0_0_1_n_n_wf : DotDims.WF S100000x80 S80x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S5000_S100000x1_S100000_n_0_0_1_wf : ScatterDims.WF S5000 S100000x1 S100000 [] [0] [0] 1
  scatter_S5000x64_S100000x1_S100000x64_1_0_0_1_wf : ScatterDims.WF S5000x64 S100000x1 S100000x64 [1] [0] [0] 1
  dot_S5000x64_S64x10_S5000x10_1_0_0_1_n_n_wf : DotDims.WF S5000x64 S64x10 S5000x10 [1] [0] [0] [1] [] []

variable [Facts₀]

def gather_S16x32_S100000x1_S100000x32_1_0_n_n_0_1_132 : GatherDims S16x32 S100000x1 S100000x32 where
  offsetDims := [1]
  collapsedSliceDims := [0]
  operandBatchingDims := []
  startIndicesBatchingDims := []
  startIndexMap := [0]
  indexVectorDim := 1
  sliceSizes := ![1, 32]
  wf := gather_S16x32_S100000x1_S100000x32_1_0_n_n_0_1_132_wf
def gather_S8x32_S100000x1_S100000x32_1_0_n_n_0_1_132 : GatherDims S8x32 S100000x1 S100000x32 where
  offsetDims := [1]
  collapsedSliceDims := [0]
  operandBatchingDims := []
  startIndicesBatchingDims := []
  startIndexMap := [0]
  indexVectorDim := 1
  sliceSizes := ![1, 32]
  wf := gather_S8x32_S100000x1_S100000x32_1_0_n_n_0_1_132_wf
def gather_S20x16_S100000x1_S100000x16_1_0_n_n_0_1_116 : GatherDims S20x16 S100000x1 S100000x16 where
  offsetDims := [1]
  collapsedSliceDims := [0]
  operandBatchingDims := []
  startIndicesBatchingDims := []
  startIndexMap := [0]
  indexVectorDim := 1
  sliceSizes := ![1, 16]
  wf := gather_S20x16_S100000x1_S100000x16_1_0_n_n_0_1_116_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x80_S1600000x1_S1600000x80_1_0_n_n_0_1_180 : GatherDims S100000x80 S1600000x1 S1600000x80 where
  offsetDims := [1]
  collapsedSliceDims := [0]
  operandBatchingDims := []
  startIndicesBatchingDims := []
  startIndexMap := [0]
  indexVectorDim := 1
  sliceSizes := ![1, 80]
  wf := gather_S100000x80_S1600000x1_S1600000x80_1_0_n_n_0_1_180_wf
def scatter_S100000x80_S1600000x1_S1600000x80_1_0_0_1 : ScatterDims S100000x80 S1600000x1 S1600000x80 where
  updateWindowDims := [1]
  insertedWindowDims := [0]
  scatterDimsToOperandDims := [0]
  indexVectorDim := 1
  wf := scatter_S100000x80_S1600000x1_S1600000x80_1_0_0_1_wf
def dot_S100000x80_S80x64_S100000x64_1_0_0_1_n_n : DotDims S100000x80 S80x64 S100000x64 where
  lhsContracting := [1]
  rhsContracting := [0]
  lhsNonContracting := [0]
  rhsNonContracting := [1]
  lhsBatch := []
  rhsBatch := []
  wf := dot_S100000x80_S80x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def scatter_S5000x64_S100000x1_S100000x64_1_0_0_1 : ScatterDims S5000x64 S100000x1 S100000x64 where
  updateWindowDims := [1]
  insertedWindowDims := [0]
  scatterDimsToOperandDims := [0]
  indexVectorDim := 1
  wf := scatter_S5000x64_S100000x1_S100000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

class Facts : Prop extends Facts₀ where

variable [Facts]
-- ==== Proof.FoldArgs.lean ====
/-
  Reading the kernel program's buffers back through its host operations, up to each region's entry.

  The program's run folds the buffer contents through @main: a stretch of host operations rewrites the buffers it names and
  keeps the others, a region rewrites its own arrays and keeps the others. Nothing writes an argument, so at every boundary an
  argument holds its launch contents; the edge list's two rows (`src`, `dst`), the three columns of `x` and the three tables
  padded with zero columns are written once, before the first region, and kept afterwards.
-/
import proofs.«400131_j88648124991069_1_alg».proof.Proof.Gen.KernelIdeal.Frame
import Idealize.ShloMosaic.PureOps.Ideal.Laws
import Idealize.ShloMosaic.Lib.StableHlo.Run

set_option maxRecDepth 16384
set_option maxHeartbeats 8000000

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- One buffer after a run of host operations: each operation that writes it rewrites it from its operands, each other one
    keeps it. -/
local macro "through_host" : tactic => `(tactic| (show StableHlo.after _ _ _ = _; after_results))

/-! ## At the first region's entry -/

theorem arg2_at6 (c : Dev nD) : W6 (F := Ideal) m ρ c (Proc.devRef .tc main_arg2) = m ((c.tc : Thread nD τ).loc main_arg2) := by
  through_host <;> rfl
theorem arg6_at6 (c : Dev nD) : W6 (F := Ideal) m ρ c (Proc.devRef .tc main_arg6) = m ((c.tc : Thread nD τ).loc main_arg6) := by
  through_host <;> rfl
theorem arg7_at6 (c : Dev nD) : W6 (F := Ideal) m ρ c (Proc.devRef .tc main_arg7) = m ((c.tc : Thread nD τ).loc main_arg7) := by
  through_host <;> rfl
theorem arg8_at6 (c : Dev nD) : W6 (F := Ideal) m ρ c (Proc.devRef .tc main_arg8) = m ((c.tc : Thread nD τ).loc main_arg8) := by
  through_host <;> rfl
theorem arg9_at6 (c : Dev nD) : W6 (F := Ideal) m ρ c (Proc.devRef .tc main_arg9) = m ((c.tc : Thread nD τ).loc main_arg9) := by
  through_host <;> rfl
theorem arg10_at6 (c : Dev nD) : W6 (F := Ideal) m ρ c (Proc.devRef .tc main_arg10) = m ((c.tc : Thread nD τ).loc main_arg10) := by
  through_host <;> rfl
theorem arg11_at6 (c : Dev nD) : W6 (F := Ideal) m ρ c (Proc.devRef .tc main_arg11) = m ((c.tc : Thread nD τ).loc main_arg11) := by
  through_host <;> rfl
theorem arg12_at6 (c : Dev nD) : W6 (F := Ideal) m ρ c (Proc.devRef .tc main_arg12) = m ((c.tc : Thread nD τ).loc main_arg12) := by
  through_host <;> rfl
theorem arg13_at6 (c : Dev nD) : W6 (F := Ideal) m ρ c (Proc.devRef .tc main_arg13) = m ((c.tc : Thread nD τ).loc main_arg13) := by
  through_host <;> rfl

/-- The edges' source nodes: row 0 of the edge list. -/
theorem src_at6 (c : Dev nD) : W6 (F := Ideal) m ρ c (Proc.devRef .tc main_v1) = shapeCast _ (extractStridedSlice S1x1600000 ![0, 0] (m ((c.tc : Thread nD τ).loc main_arg1)) slices_S2x1600000_S1x1600000_0_0) shapeCasts_S1x1600000_S1600000 := by
  through_host <;> rfl
/-- The edges' target nodes: row 1 of the edge list. -/
theorem dst_at6 (c : Dev nD) : W6 (F := Ideal) m ρ c (Proc.devRef .tc main_v3) = shapeCast _ (extractStridedSlice S1x1600000 ![1, 0] (m ((c.tc : Thread nD τ).loc main_arg1)) slices_S2x1600000_S1x1600000_1_0) shapeCasts_S1x1600000_S1600000 := by
  through_host <;> rfl

/-- The three columns of `x`. -/
theorem xcol0_at6 (c : Dev nD) : W6 (F := Ideal) m ρ c (Proc.devRef .tc main_v4)
    = extractStridedSlice S100000x1 ![0, 0] (m ((c.tc : Thread nD τ).loc main_arg0)) slices_S100000x3_S100000x1_0_0 := by
  through_host <;> rfl
theorem xcol1_at6 (c : Dev nD) : W6 (F := Ideal) m ρ c (Proc.devRef .tc main_v5)
    = extractStridedSlice S100000x1 ![0, 1] (m ((c.tc : Thread nD τ).loc main_arg0)) slices_S100000x3_S100000x1_0_1 := by
  through_host <;> rfl
theorem xcol2_at6 (c : Dev nD) : W6 (F := Ideal) m ρ c (Proc.devRef .tc main_v6)
    = extractStridedSlice S100000x1 ![0, 2] (m ((c.tc : Thread nD τ).loc main_arg0)) slices_S100000x3_S100000x1_0_2 := by
  through_host <;> rfl

/-- The three tables, each padded with zero columns to width 80 in its own band of columns. -/
theorem shapeTable_at6 (c : Dev nD) : W6 (F := Ideal) m ρ c (Proc.devRef .tc main_v7)
    = pad S16x80 ![0, 0] ![0, 48] ![0, 0] (m ((c.tc : Thread nD τ).loc main_arg3)) (sitofp (F := Ideal) .f32 (constantI S_ 32 0#32)) pads_S16x32_S16x80_000_0480 h_S_ := by
  through_host <;> rfl
theorem colourTable_at6 (c : Dev nD) : W6 (F := Ideal) m ρ c (Proc.devRef .tc main_v8)
    = pad S8x80 ![0, 32] ![0, 16] ![0, 0] (m ((c.tc : Thread nD τ).loc main_arg4)) (sitofp (F := Ideal) .f32 (constantI S_ 32 0#32)) pads_S8x32_S8x80_000_32160 h_S_ := by
  through_host <;> rfl
theorem positionTable_at6 (c : Dev nD) : W6 (F := Ideal) m ρ c (Proc.devRef .tc main_v9)
    = pad S20x80 ![0, 64] ![0, 0] ![0, 0] (m ((c.tc : Thread nD τ).loc main_arg5)) (sitofp (F := Ideal) .f32 (constantI S_ 32 0#32)) pads_S20x16_S20x80_000_6400 h_S_ := by
  through_host <;> rfl

/-! ## At the first region's exit: it rewrites only its own arrays -/

theorem arg7_at7 (c : Dev nD) : W7 (F := Ideal) m ρ c (Proc.devRef .tc main_arg7) = m ((c.tc : Thread nD τ).loc main_arg7) := by
  rw [W7_of_ne m ρ c main_arg7 (by decide)]; exact arg7_at6 m ρ c
theorem src_at7 (c : Dev nD) : W7 (F := Ideal) m ρ c (Proc.devRef .tc main_v1) = shapeCast _ (extractStridedSlice S1x1600000 ![0, 0] (m ((c.tc : Thread nD τ).loc main_arg1)) slices_S2x1600000_S1x1600000_0_0) shapeCasts_S1x1600000_S1600000 := by
  rw [W7_of_ne m ρ c main_v1 (by decide)]; exact src_at6 m ρ c
theorem dst_at7 (c : Dev nD) : W7 (F := Ideal) m ρ c (Proc.devRef .tc main_v3) = shapeCast _ (extractStridedSlice S1x1600000 ![1, 0] (m ((c.tc : Thread nD τ).loc main_arg1)) slices_S2x1600000_S1x1600000_1_0) shapeCasts_S1x1600000_S1600000 := by
  rw [W7_of_ne m ρ c main_v3 (by decide)]; exact dst_at6 m ρ c

/-! ## At the second region's entry -/

theorem arg2_at8 (c : Dev nD) : W8 (F := Ideal) m ρ c (Proc.devRef .tc main_arg2) = m ((c.tc : Thread nD τ).loc main_arg2) := by
  through_host
  rw [W7_of_ne m ρ c main_arg2 (by decide)]; exact arg2_at6 m ρ c
theorem arg6_at8 (c : Dev nD) : W8 (F := Ideal) m ρ c (Proc.devRef .tc main_arg6) = m ((c.tc : Thread nD τ).loc main_arg6) := by
  through_host
  rw [W7_of_ne m ρ c main_arg6 (by decide)]; exact arg6_at6 m ρ c
theorem arg8_at8 (c : Dev nD) : W8 (F := Ideal) m ρ c (Proc.devRef .tc main_arg8) = m ((c.tc : Thread nD τ).loc main_arg8) := by
  through_host
  rw [W7_of_ne m ρ c main_arg8 (by decide)]; exact arg8_at6 m ρ c
theorem arg9_at8 (c : Dev nD) : W8 (F := Ideal) m ρ c (Proc.devRef .tc main_arg9) = m ((c.tc : Thread nD τ).loc main_arg9) := by
  through_host
  rw [W7_of_ne m ρ c main_arg9 (by decide)]; exact arg9_at6 m ρ c
theorem arg10_at8 (c : Dev nD) : W8 (F := Ideal) m ρ c (Proc.devRef .tc main_arg10) = m ((c.tc : Thread nD τ).loc main_arg10) := by
  through_host
  rw [W7_of_ne m ρ c main_arg10 (by decide)]; exact arg10_at6 m ρ c
theorem arg11_at8 (c : Dev nD) : W8 (F := Ideal) m ρ c (Proc.devRef .tc main_arg11) = m ((c.tc : Thread nD τ).loc main_arg11) := by
  through_host
  rw [W7_of_ne m ρ c main_arg11 (by decide)]; exact arg11_at6 m ρ c
theorem arg12_at8 (c : Dev nD) : W8 (F := Ideal) m ρ c (Proc.devRef .tc main_arg12) = m ((c.tc : Thread nD τ).loc main_arg12) := by
  through_host
  rw [W7_of_ne m ρ c main_arg12 (by decide)]; exact arg12_at6 m ρ c
theorem arg13_at8 (c : Dev nD) : W8 (F := Ideal) m ρ c (Proc.devRef .tc main_arg13) = m ((c.tc : Thread nD τ).loc main_arg13) := by
  through_host
  rw [W7_of_ne m ρ c main_arg13 (by decide)]; exact arg13_at6 m ρ c
theorem src_at8 (c : Dev nD) : W8 (F := Ideal) m ρ c (Proc.devRef .tc main_v1) = shapeCast _ (extractStridedSlice S1x1600000 ![0, 0] (m ((c.tc : Thread nD τ).loc main_arg1)) slices_S2x1600000_S1x1600000_0_0) shapeCasts_S1x1600000_S1600000 := by
  through_host
  exact src_at7 m ρ c
theorem dst_at8 (c : Dev nD) : W8 (F := Ideal) m ρ c (Proc.devRef .tc main_v3) = shapeCast _ (extractStridedSlice S1x1600000 ![1, 0] (m ((c.tc : Thread nD τ).loc main_arg1)) slices_S2x1600000_S1x1600000_1_0) shapeCasts_S1x1600000_S1600000 := by
  through_host
  exact dst_at7 m ρ c

/-! ## At the second region's exit -/

theorem arg2_at9 (c : Dev nD) : W9 (F := Ideal) m ρ c (Proc.devRef .tc main_arg2) = m ((c.tc : Thread nD τ).loc main_arg2) := by
  rw [W9_of_ne m ρ c main_arg2 (by decide)]; exact arg2_at8 m ρ c
theorem arg9_at9 (c : Dev nD) : W9 (F := Ideal) m ρ c (Proc.devRef .tc main_arg9) = m ((c.tc : Thread nD τ).loc main_arg9) := by
  rw [W9_of_ne m ρ c main_arg9 (by decide)]; exact arg9_at8 m ρ c
theorem arg10_at9 (c : Dev nD) : W9 (F := Ideal) m ρ c (Proc.devRef .tc main_arg10) = m ((c.tc : Thread nD τ).loc main_arg10) := by
  rw [W9_of_ne m ρ c main_arg10 (by decide)]; exact arg10_at8 m ρ c
theorem arg11_at9 (c : Dev nD) : W9 (F := Ideal) m ρ c (Proc.devRef .tc main_arg11) = m ((c.tc : Thread nD τ).loc main_arg11) := by
  rw [W9_of_ne m ρ c main_arg11 (by decide)]; exact arg11_at8 m ρ c
theorem arg12_at9 (c : Dev nD) : W9 (F := Ideal) m ρ c (Proc.devRef .tc main_arg12) = m ((c.tc : Thread nD τ).loc main_arg12) := by
  rw [W9_of_ne m ρ c main_arg12 (by decide)]; exact arg12_at8 m ρ c
theorem arg13_at9 (c : Dev nD) : W9 (F := Ideal) m ρ c (Proc.devRef .tc main_arg13) = m ((c.tc : Thread nD τ).loc main_arg13) := by
  rw [W9_of_ne m ρ c main_arg13 (by decide)]; exact arg13_at8 m ρ c
theorem src_at9 (c : Dev nD) : W9 (F := Ideal) m ρ c (Proc.devRef .tc main_v1) = shapeCast _ (extractStridedSlice S1x1600000 ![0, 0] (m ((c.tc : Thread nD τ).loc main_arg1)) slices_S2x1600000_S1x1600000_0_0) shapeCasts_S1x1600000_S1600000 := by
  rw [W9_of_ne m ρ c main_v1 (by decide)]; exact src_at8 m ρ c
theorem dst_at9 (c : Dev nD) : W9 (F := Ideal) m ρ c (Proc.devRef .tc main_v3) = shapeCast _ (extractStridedSlice S1x1600000 ![1, 0] (m ((c.tc : Thread nD τ).loc main_arg1)) slices_S2x1600000_S1x1600000_1_0) shapeCasts_S1x1600000_S1600000 := by
  rw [W9_of_ne m ρ c main_v3 (by decide)]; exact dst_at8 m ρ c

/-! ## At the third region's entry and exit -/

theorem arg2_at10 (c : Dev nD) : W10 (F := Ideal) m ρ c (Proc.devRef .tc main_arg2) = m ((c.tc : Thread nD τ).loc main_arg2) := by
  through_host
  exact arg2_at9 m ρ c
theorem arg9_at10 (c : Dev nD) : W10 (F := Ideal) m ρ c (Proc.devRef .tc main_arg9) = m ((c.tc : Thread nD τ).loc main_arg9) := by
  through_host
  exact arg9_at9 m ρ c
theorem arg11_at10 (c : Dev nD) : W10 (F := Ideal) m ρ c (Proc.devRef .tc main_arg11) = m ((c.tc : Thread nD τ).loc main_arg11) := by
  through_host
  exact arg11_at9 m ρ c
theorem arg12_at10 (c : Dev nD) : W10 (F := Ideal) m ρ c (Proc.devRef .tc main_arg12) = m ((c.tc : Thread nD τ).loc main_arg12) := by
  through_host
  exact arg12_at9 m ρ c
theorem arg13_at10 (c : Dev nD) : W10 (F := Ideal) m ρ c (Proc.devRef .tc main_arg13) = m ((c.tc : Thread nD τ).loc main_arg13) := by
  through_host
  exact arg13_at9 m ρ c
theorem arg2_at11 (c : Dev nD) : W11 (F := Ideal) m ρ c (Proc.devRef .tc main_arg2) = m ((c.tc : Thread nD τ).loc main_arg2) := by
  rw [W11_of_ne m ρ c main_arg2 (by decide)]; exact arg2_at10 m ρ c
theorem arg12_at11 (c : Dev nD) : W11 (F := Ideal) m ρ c (Proc.devRef .tc main_arg12) = m ((c.tc : Thread nD τ).loc main_arg12) := by
  rw [W11_of_ne m ρ c main_arg12 (by decide)]; exact arg12_at10 m ρ c
theorem arg13_at11 (c : Dev nD) : W11 (F := Ideal) m ρ c (Proc.devRef .tc main_arg13) = m ((c.tc : Thread nD τ).loc main_arg13) := by
  rw [W11_of_ne m ρ c main_arg13 (by decide)]; exact arg13_at10 m ρ c

/-! ## At the last region's entry -/

theorem arg12_at12 (c : Dev nD) : W12 (F := Ideal) m ρ c (Proc.devRef .tc main_arg12) = m ((c.tc : Thread nD τ).loc main_arg12) := by
  through_host
  exact arg12_at11 m ρ c

end Cert.KernelIdeal.Fold

end
-- ==== Proof.Layers.lean ====
/-
  The network's layers as functions of the arrays they read, written with the reference program's own host operations.

  * `embedRows`: node `n`'s feature row is row `x[n,0]` of the shape table, row `x[n,1]` of the colour table and row
    `x[n,2]` of the position table laid side by side (32 + 32 + 16 = 80 columns); a negative index counts from the table's end.
  * `meanNeighbours80` / `meanNeighbours64`: for every node, the sum over the edges arriving at it of the source node's
    row, times one over the larger of its in-degree and one.
  * `sage80` / `sage64`: `max(agg · Wl + b + h · Wr, 0)`, the bias a row `[1, 64]` repeated down the nodes.
  * `graphMean`: per graph, the sum of its nodes' rows over the larger of its node count and one.
  * `classify`: `hg · Wc + bc`, the bias a row `[1, 10]` repeated down the graphs.
  * `liftRow64` / `liftRow10`: a vector as the one row of a `[1, n]` array.
  * `network`: their composition, the whole forward pass as one function of the fourteen argument arrays.
-/
import proofs.«400131_j88648124991069_1_alg».proof.Proof.Gen.ReferenceIdeal

noncomputable section

namespace Cert.Layers

open Cert.ReferenceIdeal Cert.ReferenceIdeal.Gen Idealize.ShloMosaic Idealize.ShloMosaic.TcCoe

variable {F : FTy → Type} [FloatOps F]

/-- The three table look-ups side by side: the node features `[100000, 80]`. -/
def embedRows (x : (⟨S100000x3, .i32⟩ : BufTy).Contents (Elt F)) (se : (⟨S16x32, .f32⟩ : BufTy).Contents (Elt F)) (ce : (⟨S8x32, .f32⟩ : BufTy).Contents (Elt F)) (pe : (⟨S20x16, .f32⟩ : BufTy).Contents (Elt F)) : (⟨S100000x80, .f32⟩ : BufTy).Contents (Elt F) :=
  concatenate S100000x80 1 [⟨S100000x32, (Host.gather gather_S16x32_S100000x1_S100000x32_1_0_n_n_0_1_132 se (broadcastInDim S100000x1 ![0] bcast_S100000_S100000x1_0 (select (cmpi .slt (shapeCast _ (extractStridedSlice S100000x1 ![0, 0] x slices_S100000x3_S100000x1_0_0) shapeCasts_S100000x1_S100000) (broadcastInDim S100000 ![] bcast_S_S100000 (constantI S_ 32 0#32))) (addi (shapeCast _ (extractStridedSlice S100000x1 ![0, 0] x slices_S100000x3_S100000x1_0_0) shapeCasts_S100000x1_S100000) (broadcastInDim S100000 ![] bcast_S_S100000 (constantI S_ 32 16#32))) (shapeCast _ (extractStridedSlice S100000x1 ![0, 0] x slices_S100000x3_S100000x1_0_0) shapeCasts_S100000x1_S100000))))⟩, ⟨S100000x32, (Host.gather gather_S8x32_S100000x1_S100000x32_1_0_n_n_0_1_132 ce (broadcastInDim S100000x1 ![0] bcast_S100000_S100000x1_0 (select (cmpi .slt (shapeCast _ (extractStridedSlice S100000x1 ![0, 1] x slices_S100000x3_S100000x1_0_1) shapeCasts_S100000x1_S100000) (broadcastInDim S100000 ![] bcast_S_S100000 (constantI S_ 32 0#32))) (addi (shapeCast _ (extractStridedSlice S100000x1 ![0, 1] x slices_S100000x3_S100000x1_0_1) shapeCasts_S100000x1_S100000) (broadcastInDim S100000 ![] bcast_S_S100000 (constantI S_ 32 8#32))) (shapeCast _ (extractStridedSlice S100000x1 ![0, 1] x slices_S100000x3_S100000x1_0_1) shapeCasts_S100000x1_S100000))))⟩, ⟨S100000x16, (Host.gather gather_S20x16_S100000x1_S100000x16_1_0_n_n_0_1_116 pe (broadcastInDim S100000x1 ![0] bcast_S100000_S100000x1_0 (select (cmpi .slt (shapeCast _ (extractStridedSlice S100000x1 ![0, 2] x slices_S100000x3_S100000x1_0_2) shapeCasts_S100000x1_S100000) (broadcastInDim S100000 ![] bcast_S_S100000 (constantI S_ 32 0#32))) (addi (shapeCast _ (extractStridedSlice S100000x1 ![0, 2] x slices_S100000x3_S100000x1_0_2) shapeCasts_S100000x1_S100000) (broadcastInDim S100000 ![] bcast_S_S100000 (constantI S_ 32 20#32))) (shapeCast _ (extractStridedSlice S100000x1 ![0, 2] x slices_S100000x3_S100000x1_0_2) shapeCasts_S100000x1_S100000))))⟩] concatenates_S100000x32_S100000x32_S100000x16_S100000x80_d1

/-- Mean over the incoming edges of the source rows, 80 columns. `e` is `edge_index`: row 0 the sources, row 1 the targets. -/
def meanNeighbours80 (e : (⟨S2x1600000, .i32⟩ : BufTy).Contents (Elt F)) (h : (⟨S100000x80, .f32⟩ : BufTy).Contents (Elt F)) : (⟨S100000x80, .f32⟩ : BufTy).Contents (Elt F) :=
  mulf (Host.scatterAdd scatter_S100000x80_S1600000x1_S1600000x80_1_0_0_1 (broadcastInDim S100000x80 ![] bcast_S_S100000x80 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x80_S1600000x1_S1600000x80_1_0_n_n_0_1_180 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x80 ![0, 1] bcast_S100000x1_S100000x80_0_1 (broadcastInDim S100000x1 ![0] bcast_S100000_S100000x1_0 (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32))))))

/-- Mean over the incoming edges of the source rows, 64 columns. -/
def meanNeighbours64 (e : (⟨S2x1600000, .i32⟩ : BufTy).Contents (Elt F)) (h : (⟨S100000x64, .f32⟩ : BufTy).Contents (Elt F)) : (⟨S100000x64, .f32⟩ : BufTy).Contents (Elt F) :=
  mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x64 ![0, 1] bcast_S100000x1_S100000x64_0_1 (broadcastInDim S100000x1 ![0] bcast_S100000_S100000x1_0 (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32))))))

/-- The first layer's dense part: `max(agg · Wl + b + h · Wr, 0)` from 80 to 64 columns. -/
def sage80 (agg h : (⟨S100000x80, .f32⟩ : BufTy).Contents (Elt F)) (Wl : (⟨S80x64, .f32⟩ : BufTy).Contents (Elt F)) (b : (⟨S1x64, .f32⟩ : BufTy).Contents (Elt F)) (Wr : (⟨S80x64, .f32⟩ : BufTy).Contents (Elt F)) : (⟨S100000x64, .f32⟩ : BufTy).Contents (Elt F) :=
  maximumf (addf (addf (Host.dotGeneral dot_S100000x80_S80x64_S100000x64_1_0_0_1_n_n none agg Wl) (broadcastInDim S100000x64 ![0, 1] bcast_S1x64_S100000x64_0_1 b)) (Host.dotGeneral dot_S100000x80_S80x64_S100000x64_1_0_0_1_n_n none h Wr)) (broadcastInDim S100000x64 ![] bcast_S_S100000x64 (constant S_ .f32 0x00000000#32))

/-- The second layer's dense part: `max(agg · Wl + b + h · Wr, 0)` from 64 to 64 columns. -/
def sage64 (agg h : (⟨S100000x64, .f32⟩ : BufTy).Contents (Elt F)) (Wl : (⟨S64x64, .f32⟩ : BufTy).Contents (Elt F)) (b : (⟨S1x64, .f32⟩ : BufTy).Contents (Elt F)) (Wr : (⟨S64x64, .f32⟩ : BufTy).Contents (Elt F)) : (⟨S100000x64, .f32⟩ : BufTy).Contents (Elt F) :=
  maximumf (addf (addf (Host.dotGeneral dot_S100000x64_S64x64_S100000x64_1_0_0_1_n_n none agg Wl) (broadcastInDim S100000x64 ![0, 1] bcast_S1x64_S100000x64_0_1 b)) (Host.dotGeneral dot_S100000x64_S64x64_S100000x64_1_0_0_1_n_n none h Wr)) (broadcastInDim S100000x64 ![] bcast_S_S100000x64 (constant S_ .f32 0x00000000#32))

/-- Per graph, the mean of its nodes' rows (an empty graph's row is zero over one). -/
def graphMean (batch : (⟨S100000, .i32⟩ : BufTy).Contents (Elt F)) (h : (⟨S100000x64, .f32⟩ : BufTy).Contents (Elt F)) : (⟨S5000x64, .f32⟩ : BufTy).Contents (Elt F) :=
  Host.divf (Host.scatterAdd scatter_S5000x64_S100000x1_S100000x64_1_0_0_1 (broadcastInDim S5000x64 ![] bcast_S_S5000x64 (constant S_ .f32 0x00000000#32)) (broadcastInDim S100000x1 ![0] bcast_S100000_S100000x1_0 batch) h) (broadcastInDim S5000x64 ![0, 1] bcast_S5000x1_S5000x64_0_1 (broadcastInDim S5000x1 ![0] bcast_S5000_S5000x1_0 (maximumf (Host.scatterAdd scatter_S5000_S100000x1_S100000_n_0_0_1 (broadcastInDim S5000 ![] bcast_S_S5000 (constant S_ .f32 0x00000000#32)) (broadcastInDim S100000x1 ![0] bcast_S100000_S100000x1_0 batch) (broadcastInDim S100000 ![] bcast_S_S100000 (constant S_ .f32 0x3F800000#32))) (broadcastInDim S5000 ![] bcast_S_S5000 (constant S_ .f32 0x3F800000#32)))))

/-- The classifier head: `hg · Wc + bc`. -/
def classify (hg : (⟨S5000x64, .f32⟩ : BufTy).Contents (Elt F)) (Wc : (⟨S64x10, .f32⟩ : BufTy).Contents (Elt F)) (bc : (⟨S1x10, .f32⟩ : BufTy).Contents (Elt F)) : (⟨S5000x10, .f32⟩ : BufTy).Contents (Elt F) :=
  addf (Host.dotGeneral dot_S5000x64_S64x10_S5000x10_1_0_0_1_n_n none hg Wc) (broadcastInDim S5000x10 ![0, 1] bcast_S1x10_S5000x10_0_1 bc)

/-- A 64-vector as the row of a `[1, 64]` array. -/
def liftRow64 (b : (⟨S64, .f32⟩ : BufTy).Contents (Elt F)) : (⟨S1x64, .f32⟩ : BufTy).Contents (Elt F) := broadcastInDim S1x64 ![1] bcast_S64_S1x64_1 b

/-- A 10-vector as the row of a `[1, 10]` array. -/
def liftRow10 (b : (⟨S10, .f32⟩ : BufTy).Contents (Elt F)) : (⟨S1x10, .f32⟩ : BufTy).Contents (Elt F) := broadcastInDim S1x10 ![1] bcast_S10_S1x10_1 b

/-- The forward pass: features, two mean-aggregate-and-project layers, the per-graph mean, the classifier. -/
def network (x : (⟨S100000x3, .i32⟩ : BufTy).Contents (Elt F)) (e : (⟨S2x1600000, .i32⟩ : BufTy).Contents (Elt F)) (batch : (⟨S100000, .i32⟩ : BufTy).Contents (Elt F))
    (se : (⟨S16x32, .f32⟩ : BufTy).Contents (Elt F)) (ce : (⟨S8x32, .f32⟩ : BufTy).Contents (Elt F)) (pe : (⟨S20x16, .f32⟩ : BufTy).Contents (Elt F))
    (W1l : (⟨S80x64, .f32⟩ : BufTy).Contents (Elt F)) (b1 : (⟨S64, .f32⟩ : BufTy).Contents (Elt F)) (W1r : (⟨S80x64, .f32⟩ : BufTy).Contents (Elt F))
    (W2l : (⟨S64x64, .f32⟩ : BufTy).Contents (Elt F)) (b2 : (⟨S64, .f32⟩ : BufTy).Contents (Elt F)) (W2r : (⟨S64x64, .f32⟩ : BufTy).Contents (Elt F))
    (Wc : (⟨S64x10, .f32⟩ : BufTy).Contents (Elt F)) (bc : (⟨S10, .f32⟩ : BufTy).Contents (Elt F)) : (⟨S5000x10, .f32⟩ : BufTy).Contents (Elt F) :=
  classify (F := F)
    (graphMean (F := F) batch
      (sage64 (F := F)
        (meanNeighbours64 (F := F) e (sage80 (F := F) (meanNeighbours80 (F := F) e (embedRows (F := F) x se ce pe)) (embedRows (F := F) x se ce pe) W1l (liftRow64 (F := F) b1) W1r))
        (sage80 (F := F) (meanNeighbours80 (F := F) e (embedRows (F := F) x se ce pe)) (embedRows (F := F) x se ce pe) W1l (liftRow64 (F := F) b1) W1r)
        W2l (liftRow64 (F := F) b2) W2r))
    Wc (liftRow10 (F := F) bc)

end Cert.Layers

end
-- ==== Proof.EmbedSpec.lean ====
/-
  The node features read entry by entry: entry `(n, j)` of the `[100000, 80]` feature array is
  `se[x[n,0], j]` for `j < 32`, `ce[x[n,1], j - 32]` for `32 ≤ j < 64` and `pe[x[n,2], j - 64]` for `64 ≤ j < 80`.
  Each row index is taken modulo its table's height, so the definition needs no side condition; for an index inside the table
  (the only case used) the remainder is the index itself.
-/
import proofs.«400131_j88648124991069_1_alg».proof.Proof.Layers
import Idealize.ShloMosaic.PureOps.Ideal.Laws
import Idealize.ShloMosaic.Lib.ValueIdx

noncomputable section

namespace Cert.Layers

open Cert.ReferenceIdeal Cert.ReferenceIdeal.Gen Idealize.ShloMosaic Idealize.ShloMosaic.TcCoe

/-- Column `k` of node `n`'s index triple, as a natural number. -/
def xAt (x : (⟨S100000x3, .i32⟩ : BufTy).Contents (Elt Ideal)) (n : Fin 100000) (k : Fin 3) : ℕ := (x (ValueIdx.ix2 n k) : BitVec 32).toNat

/-- The feature array, entry by entry. -/
def tableRows (x : (⟨S100000x3, .i32⟩ : BufTy).Contents (Elt Ideal)) (se : (⟨S16x32, .f32⟩ : BufTy).Contents (Elt Ideal)) (ce : (⟨S8x32, .f32⟩ : BufTy).Contents (Elt Ideal)) (pe : (⟨S20x16, .f32⟩ : BufTy).Contents (Elt Ideal)) :
    (⟨S100000x80, .f32⟩ : BufTy).Contents (Elt Ideal) := fun i =>
  if h : (i 1).val < 32 then
    se (ValueIdx.ix2 (⟨xAt x ⟨(i 0).val, (i 0).isLt⟩ 0 % 16, Nat.mod_lt _ (by decide)⟩ : Fin 16) (⟨(i 1).val, h⟩ : Fin 32))
  else if h' : (i 1).val < 64 then
    ce (ValueIdx.ix2 (⟨xAt x ⟨(i 0).val, (i 0).isLt⟩ 1 % 8, Nat.mod_lt _ (by decide)⟩ : Fin 8) (⟨(i 1).val - 32, by omega⟩ : Fin 32))
  else
    pe (ValueIdx.ix2 (⟨xAt x ⟨(i 0).val, (i 0).isLt⟩ 2 % 20, Nat.mod_lt _ (by decide)⟩ : Fin 20)
      (⟨(i 1).val - 64, by have h80 : (i 1).val < 80 := (i 1).isLt; omega⟩ : Fin 16))

end Cert.Layers

end
-- ==== Proof.EmbedKernelSide.lean ====
/-
  The embedding region's output array, entry by entry, is the table rows its one-hot products select.

  At each of its 50 points the region's body holds 2000 nodes. Per node it compares each of the node's three index words
  with the lane numbers of a table, as 32-bit words, turns the comparison bit into the real 1 or 0 (a one-hot row), and
  multiplies the three one-hot blocks by the three tables, each padded with zero columns to width 80 (the shape table in
  columns 0–31, the colour table in 32–63, the position table in 64–79), adding the three products. Here:
  * a matrix product into zeros, read at an entry, is the sum over the lanes of row times column;
  * a one-hot row against a column leaves the column's entry at the hot lane, since 0·a = 0 and 1·a = a for every
    extended real, provided the word is a row number of the table;
  * a padded table is the table inside its band of columns and the real 0 outside, so of the three entries added exactly
    one is not a padding zero: entry (n, j) is `se[x[n,0], j]`, `ce[x[n,1], j − 32]` or `pe[x[n,2], j − 64]` by the band of j;
  * the block of point t is rows 2000·t … 2000·t + 1999 of every array that moves with the grid, the tables are whole at
    every point, and the 50 blocks cover the 100000 rows, so the array the region leaves is that one function of the
    index array and the three tables.
-/
import proofs.«400131_j88648124991069_1_alg».proof.Proof.Gen.KernelIdeal.Frame
import proofs.«400131_j88648124991069_1_alg».proof.Proof.Layers
import proofs.«400131_j88648124991069_1_alg».proof.Proof.EmbedSpec
import Idealize.ShloMosaic.Lib.Pipeline.Value
import Idealize.ShloMosaic.PureOps.Ideal.Laws
import Idealize.ShloMosaic.Lib.ValueIdx
import Idealize.ShloMosaic.Lib.KernelVsHost
set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat Cfg Window)
open Idealize.ShloMosaic.ValueIdx

-- the TensorCore's buffer contents when the region is entered
variable (V : (c : Dev nD) → (b : Ref sig .tc) → Buf (Elt Ideal) ((c : Thread nD τ).loc b))

/-! ## A one-hot row times a table picks one row of the table -/

/-- One entry of a one-hot row: the comparison bit of a word with a lane number, widened to 32 bits and converted, is the
    real 1 where they agree and the real 0 elsewhere. -/
private theorem hot_entry (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · rw [if_pos h, beq_iff_eq.mpr h]
    show (((1 : ℤ) : ℝ) : EReal) = 1
    simp
  · rw [if_neg h, beq_eq_false_iff_ne.mpr h]
    show (((0 : ℤ) : ℝ) : EReal) = 0
    simp

/-- A sum over the lanes of "1 where the word is the lane number, else 0" times a function of the lane is that function
    at the word's lane, when the word is a lane number. -/
private theorem hot_sum {n : ℕ} (hn : n ≤ 4294967296) (a : BitVec 32) (r : Fin n) (hr : a.toNat = r.val) (f : Fin n → EReal) :
    ∑ k : Fin n, (if a = BitVec.ofNat 32 k.val then (1 : EReal) else 0) * f k = f r := by
  rw [Finset.sum_eq_single r]
  · have e : a = BitVec.ofNat 32 r.val := by
      apply BitVec.eq_of_toNat_eq
      rw [BitVec.toNat_ofNat, ← hr, Nat.mod_eq_of_lt a.isLt]
    rw [if_pos e, one_mul]
  · intro k _ hk
    rw [if_neg, zero_mul]
    intro e
    apply hk
    apply Fin.ext
    have h2 := congrArg BitVec.toNat e
    rw [BitVec.toNat_ofNat, hr, Nat.mod_eq_of_lt (by have := k.isLt; omega)] at h2
    exact h2.symm
  · intro h; exact absurd (Finset.mem_univ r) h

/-! ## The three matrix products read at an entry -/

/-- Axis by axis, where the [2000, 16] × [16, 80] product reads its operands. -/
private theorem lhs16_0 (i : S2000x80.Idx) (q : dot_S2000x16_S16x80_S2000x80_1_0_0_1_n_n.contr.Idx) :
    (dot_S2000x16_S16x80_S2000x80_1_0_0_1_n_n.lhsIdx i q 0).val = (i 0).val := by
  unfold DotDims.lhsIdx
  rw [dif_neg (show ¬(0 : Fin S2000x16.rank) ∈ dot_S2000x16_S16x80_S2000x80_1_0_0_1_n_n.lhsBatch by decide), dif_pos (show (0 : Fin S2000x16.rank) ∈ dot_S2000x16_S16x80_S2000x80_1_0_0_1_n_n.lhsNonContracting by decide)]
  rfl
private theorem lhs16_1 (i : S2000x80.Idx) (q : dot_S2000x16_S16x80_S2000x80_1_0_0_1_n_n.contr.Idx) :
    (dot_S2000x16_S16x80_S2000x80_1_0_0_1_n_n.lhsIdx i q 1).val = (q ⟨0, by decide⟩).val :=
  dot_S2000x16_S16x80_S2000x80_1_0_0_1_n_n.lhsIdx_val_of_single rfl i q
private theorem rhs16_0 (i : S2000x80.Idx) (q : dot_S2000x16_S16x80_S2000x80_1_0_0_1_n_n.contr.Idx) :
    (dot_S2000x16_S16x80_S2000x80_1_0_0_1_n_n.rhsIdx i q 0).val = (q ⟨0, by decide⟩).val :=
  dot_S2000x16_S16x80_S2000x80_1_0_0_1_n_n.rhsIdx_val_of_single rfl i q
private theorem rhs16_1 (i : S2000x80.Idx) (q : dot_S2000x16_S16x80_S2000x80_1_0_0_1_n_n.contr.Idx) :
    (dot_S2000x16_S16x80_S2000x80_1_0_0_1_n_n.rhsIdx i q 1).val = (i 1).val := by
  unfold DotDims.rhsIdx
  rw [dif_neg (show ¬(1 : Fin S16x80.rank) ∈ dot_S2000x16_S16x80_S2000x80_1_0_0_1_n_n.rhsBatch by decide), dif_pos (show (1 : Fin S16x80.rank) ∈ dot_S2000x16_S16x80_S2000x80_1_0_0_1_n_n.rhsNonContracting by decide)]
  rfl

/-- The [2000, 16] × [16, 80] product into zeros, at entry (p, q): the sum over the 16 lanes of row p times column q. -/
private theorem prod16_apply (a : FVec Ideal S2000x16 .bf16) (b : FVec Ideal S16x80 .bf16) (p : Fin 2000) (q : Fin 80) :
    matmul dot_S2000x16_S16x80_S2000x80_1_0_0_1_n_n none a b (constant (F := Ideal) S2000x80 .f32 0x00000000#32) (ix2 p q)
      = ∑ k : Fin 16, a (ix2 p k) * b (ix2 k q) := by
  simp only [matmul]
  rw [Ideal.matmul_constant_zero_apply, ← Equiv.sum_comp (ValueIdx.contrEquiv1 dot_S2000x16_S16x80_S2000x80_1_0_0_1_n_n 16 rfl rfl).symm]
  refine Finset.sum_congr rfl fun k _ => ?_
  have hk := ValueIdx.contrEquiv1_symm_val dot_S2000x16_S16x80_S2000x80_1_0_0_1_n_n 16 rfl rfl k
  have el : dot_S2000x16_S16x80_S2000x80_1_0_0_1_n_n.lhsIdx (ix2 p q) ((ValueIdx.contrEquiv1 dot_S2000x16_S16x80_S2000x80_1_0_0_1_n_n 16 rfl rfl).symm k) = ix2 p k := funext fun a => Fin.ext (by
    match a with
    | ⟨0, _⟩ => exact lhs16_0 _ _
    | ⟨1, _⟩ => exact (lhs16_1 _ _).trans hk)
  have er : dot_S2000x16_S16x80_S2000x80_1_0_0_1_n_n.rhsIdx (ix2 p q) ((ValueIdx.contrEquiv1 dot_S2000x16_S16x80_S2000x80_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-- Axis by axis, where the [2000, 8] × [8, 80] product reads its operands. -/
private theorem lhs8_0 (i : S2000x80.Idx) (q : dot_S2000x8_S8x80_S2000x80_1_0_0_1_n_n.contr.Idx) :
    (dot_S2000x8_S8x80_S2000x80_1_0_0_1_n_n.lhsIdx i q 0).val = (i 0).val := by
  unfold DotDims.lhsIdx
  rw [dif_neg (show ¬(0 : Fin S2000x8.rank) ∈ dot_S2000x8_S8x80_S2000x80_1_0_0_1_n_n.lhsBatch by decide), dif_pos (show (0 : Fin S2000x8.rank) ∈ dot_S2000x8_S8x80_S2000x80_1_0_0_1_n_n.lhsNonContracting by decide)]
  rfl
private theorem lhs8_1 (i : S2000x80.Idx) (q : dot_S2000x8_S8x80_S2000x80_1_0_0_1_n_n.contr.Idx) :
    (dot_S2000x8_S8x80_S2000x80_1_0_0_1_n_n.lhsIdx i q 1).val = (q ⟨0, by decide⟩).val :=
  dot_S2000x8_S8x80_S2000x80_1_0_0_1_n_n.lhsIdx_val_of_single rfl i q
private theorem rhs8_0 (i : S2000x80.Idx) (q : dot_S2000x8_S8x80_S2000x80_1_0_0_1_n_n.contr.Idx) :
    (dot_S2000x8_S8x80_S2000x80_1_0_0_1_n_n.rhsIdx i q 0).val = (q ⟨0, by decide⟩).val :=
  dot_S2000x8_S8x80_S2000x80_1_0_0_1_n_n.rhsIdx_val_of_single rfl i q
private theorem rhs8_1 (i : S2000x80.Idx) (q : dot_S2000x8_S8x80_S2000x80_1_0_0_1_n_n.contr.Idx) :
    (dot_S2000x8_S8x80_S2000x80_1_0_0_1_n_n.rhsIdx i q 1).val = (i 1).val := by
  unfold DotDims.rhsIdx
  rw [dif_neg (show ¬(1 : Fin S8x80.rank) ∈ dot_S2000x8_S8x80_S2000x80_1_0_0_1_n_n.rhsBatch by decide), dif_pos (show (1 : Fin S8x80.rank) ∈ dot_S2000x8_S8x80_S2000x80_1_0_0_1_n_n.rhsNonContracting by decide)]
  rfl

/-- The [2000, 8] × [8, 80] product into zeros, at entry (p, q): the sum over the 8 lanes of row p times column q. -/
private theorem prod8_apply (a : FVec Ideal S2000x8 .bf16) (b : FVec Ideal S8x80 .bf16) (p : Fin 2000) (q : Fin 80) :
    matmul dot_S2000x8_S8x80_S2000x80_1_0_0_1_n_n none a b (constant (F := Ideal) S2000x80 .f32 0x00000000#32) (ix2 p q)
      = ∑ k : Fin 8, a (ix2 p k) * b (ix2 k q) := by
  simp only [matmul]
  rw [Ideal.matmul_constant_zero_apply, ← Equiv.sum_comp (ValueIdx.contrEquiv1 dot_S2000x8_S8x80_S2000x80_1_0_0_1_n_n 8 rfl rfl).symm]
  refine Finset.sum_congr rfl fun k _ => ?_
  have hk := ValueIdx.contrEquiv1_symm_val dot_S2000x8_S8x80_S2000x80_1_0_0_1_n_n 8 rfl rfl k
  have el : dot_S2000x8_S8x80_S2000x80_1_0_0_1_n_n.lhsIdx (ix2 p q) ((ValueIdx.contrEquiv1 dot_S2000x8_S8x80_S2000x80_1_0_0_1_n_n 8 rfl rfl).symm k) = ix2 p k := funext fun a => Fin.ext (by
    match a with
    | ⟨0, _⟩ => exact lhs8_0 _ _
    | ⟨1, _⟩ => exact (lhs8_1 _ _).trans hk)
  have er : dot_S2000x8_S8x80_S2000x80_1_0_0_1_n_n.rhsIdx (ix2 p q) ((ValueIdx.contrEquiv1 dot_S2000x8_S8x80_S2000x80_1_0_0_1_n_n 8 rfl rfl).symm k) = ix2 k q := funext fun a => Fin.ext (by
    match a with
    | ⟨0, _⟩ => exact (rhs8_0 _ _).trans hk
    | ⟨1, _⟩ => exact rhs8_1 _ _)
  rw [el, er]

/-- Axis by axis, where the [2000, 20] × [20, 80] product reads its operands. -/
private theorem lhs20_0 (i : S2000x80.Idx) (q : dot_S2000x20_S20x80_S2000x80_1_0_0_1_n_n.contr.Idx) :
    (dot_S2000x20_S20x80_S2000x80_1_0_0_1_n_n.lhsIdx i q 0).val = (i 0).val := by
  unfold DotDims.lhsIdx
  rw [dif_neg (show ¬(0 : Fin S2000x20.rank) ∈ dot_S2000x20_S20x80_S2000x80_1_0_0_1_n_n.lhsBatch by decide), dif_pos (show (0 : Fin S2000x20.rank) ∈ dot_S2000x20_S20x80_S2000x80_1_0_0_1_n_n.lhsNonContracting by decide)]
  rfl
private theorem lhs20_1 (i : S2000x80.Idx) (q : dot_S2000x20_S20x80_S2000x80_1_0_0_1_n_n.contr.Idx) :
    (dot_S2000x20_S20x80_S2000x80_1_0_0_1_n_n.lhsIdx i q 1).val = (q ⟨0, by decide⟩).val :=
  dot_S2000x20_S20x80_S2000x80_1_0_0_1_n_n.lhsIdx_val_of_single rfl i q
private theorem rhs20_0 (i : S2000x80.Idx) (q : dot_S2000x20_S20x80_S2000x80_1_0_0_1_n_n.contr.Idx) :
    (dot_S2000x20_S20x80_S2000x80_1_0_0_1_n_n.rhsIdx i q 0).val = (q ⟨0, by decide⟩).val :=
  dot_S2000x20_S20x80_S2000x80_1_0_0_1_n_n.rhsIdx_val_of_single rfl i q
private theorem rhs20_1 (i : S2000x80.Idx) (q : dot_S2000x20_S20x80_S2000x80_1_0_0_1_n_n.contr.Idx) :
    (dot_S2000x20_S20x80_S2000x80_1_0_0_1_n_n.rhsIdx i q 1).val = (i 1).val := by
  unfold DotDims.rhsIdx
  rw [dif_neg (show ¬(1 : Fin S20x80.rank) ∈ dot_S2000x20_S20x80_S2000x80_1_0_0_1_n_n.rhsBatch by decide), dif_pos (show (1 : Fin S20x80.rank) ∈ dot_S2000x20_S20x80_S2000x80_1_0_0_1_n_n.rhsNonContracting by decide)]
  rfl

/-- The [2000, 20] × [20, 80] product into zeros, at entry (p, q): the sum over the 20 lanes of row p times column q. -/
private theorem prod20_apply (a : FVec Ideal S2000x20 .bf16) (b : FVec Ideal S20x80 .bf16) (p : Fin 2000) (q : Fin 80) :
    matmul dot_S2000x20_S20x80_S2000x80_1_0_0_1_n_n none a b (constant (F := Ideal) S2000x80 .f32 0x00000000#32) (ix2 p q)
      = ∑ k : Fin 20, a (ix2 p k) * b (ix2 k q) := by
  simp only [matmul]
  rw [Ideal.matmul_constant_zero_apply, ← Equiv.sum_comp (ValueIdx.contrEquiv1 dot_S2000x20_S20x80_S2000x80_1_0_0_1_n_n 20 rfl rfl).symm]
  refine Finset.sum_congr rfl fun k _ => ?_
  have hk := ValueIdx.contrEquiv1_symm_val dot_S2000x20_S20x80_S2000x80_1_0_0_1_n_n 20 rfl rfl k
  have el : dot_S2000x20_S20x80_S2000x80_1_0_0_1_n_n.lhsIdx (ix2 p q) ((ValueIdx.contrEquiv1 dot_S2000x20_S20x80_S2000x80_1_0_0_1_n_n 20 rfl rfl).symm k) = ix2 p k := funext fun a => Fin.ext (by
    match a with
    | ⟨0, _⟩ => exact lhs20_0 _ _
    | ⟨1, _⟩ => exact (lhs20_1 _ _).trans hk)
  have er : dot_S2000x20_S20x80_S2000x80_1_0_0_1_n_n.rhsIdx (ix2 p q) ((ValueIdx.contrEquiv1 dot_S2000x20_S20x80_S2000x80_1_0_0_1_n_n 20 rfl rfl).symm k) = ix2 k q := funext fun a => Fin.ext (by
    match a with
    | ⟨0, _⟩ => exact (rhs20_0 _ _).trans hk
    | ⟨1, _⟩ => exact rhs20_1 _ _)
  rw [el, er]

/-! ## The body's value at an entry -/

/-- Row p of a one-hot block, as the body builds it — the node's word compared as a 32-bit word with every lane number,
    the bit widened and converted — has 1 at lane k iff the node's word is k. -/
private theorem hot_block_apply {n : ℕ} (w : IVec S2000x1 32)
    (hb : S2000x1.Broadcasts ⟨2, ![2000, n]⟩) (hi : (⟨2, ![2000, n]⟩ : Shape).Iotas .tc 32 [1]) (h1 : 1 < 32)
    (p : Fin 2000) (k : Fin n) :
    (sitofp (F := Ideal) .f32 (extui 32 (cmpi .eq (broadcastTo ⟨2, ![2000, n]⟩ w hb)
        (iota .tc ⟨2, ![2000, n]⟩ 32 [1] hi)) h1) : FVec Ideal ⟨2, ![2000, n]⟩ .f32) (ix2 p k)
      = if w (ix2 p 0) = BitVec.ofNat 32 k.val then (1 : EReal) else 0 := by
  rw [sitofp_apply, extui_apply]
  show FloatOps.sitofp (F := Ideal) .f32 ((IntOp.cmpi .eq (broadcastTo ⟨2, ![2000, n]⟩ w hb (ix2 p k))
      (iota .tc ⟨2, ![2000, n]⟩ 32 [1] hi (ix2 p k))).setWidth 32) = _
  rw [iota_single_apply, hot_entry,
    broadcastTo_apply w hb (ix2 p k) (ix2 p 0) (fun a => match a with
      | ⟨0, _⟩ => by show p.val = if (2000 : Nat) = 1 then 0 else p.val; rw [if_neg (by decide)]
      | ⟨1, _⟩ => by show 0 = if (1 : Nat) = 1 then 0 else k.val; rw [if_pos rfl])]
  rfl

/-- The body's value at entry (p, q) of its block: three sums, each of a one-hot row against a column of a table
    (the narrowings to bf16 are the identity on extended reals). -/
private theorem body_apply (x0 x1 x2 : Vec Ideal S2000x1 .i32) (t3 : Vec Ideal S16x80 .f32) (t4 : Vec Ideal S8x80 .f32)
    (t5 : Vec Ideal S20x80 .f32) (p : Fin 2000) (q : Fin 80) :
    k0_pay1 (F := Ideal) x0 x1 x2 t3 t4 t5 (ix2 p q)
      = (∑ k : Fin 16, (if x0 (ix2 p 0) = BitVec.ofNat 32 k.val then (1 : EReal) else 0) * t3 (ix2 k q))
        + (∑ k : Fin 8, (if x1 (ix2 p 0) = BitVec.ofNat 32 k.val then (1 : EReal) else 0) * t4 (ix2 k q))
        + ∑ k : Fin 20, (if x2 (ix2 p 0) = BitVec.ofNat 32 k.val then (1 : EReal) else 0) * t5 (ix2 k q) := by
  unfold k0_pay1
  dsimp only
  rw [addf_apply, addf_apply, prod16_apply, prod8_apply, prod20_apply]
  simp only [truncf_apply, shapeCast_self]
  refine congrArg₂ (· + ·) (congrArg₂ (· + ·) (Finset.sum_congr rfl fun k _ => ?_) (Finset.sum_congr rfl fun k _ => ?_))
    (Finset.sum_congr rfl fun k _ => ?_)
  · exact congrArg (· * t3 (ix2 k q)) (hot_block_apply x0 _ _ _ p k)
  · exact congrArg (· * t4 (ix2 k q)) (hot_block_apply x1 _ _ _ p k)
  · exact congrArg (· * t5 (ix2 k q)) (hot_block_apply x2 _ _ _ p k)

/-! ## The zero-padded tables at an entry -/

/-- The padding value, the integer 0 converted, is the real 0. -/
private theorem pad_value (hu : 0 < S_.numel) :
    (sitofp (F := Ideal) .f32 (constantI S_ 32 0#32) : FVec Ideal S_ .f32) (Shape.Idx.first hu) = 0 := by
  show ((((0#32 : BitVec 32).toInt : ℝ)) : EReal) = 0
  simp

/-- The shape table padded to 80 columns: itself in columns 0–31, zero beyond. -/
private theorem shape_pad_apply (se : (⟨S16x32, .f32⟩ : BufTy).Contents (Elt Ideal)) (k : Fin 16) (q : Fin 80) :
    pad S16x80 ![0, 0] ![0, 48] ![0, 0] se (sitofp (F := Ideal) .f32 (constantI S_ 32 0#32)) pads_S16x32_S16x80_000_0480 h_S_ (ix2 k q)
      = if h : q.val < 32 then se (ix2 k (⟨q.val, h⟩ : Fin 32)) else (0 : EReal) := by
  by_cases h : q.val < 32
  · rw [dif_pos h]
    exact pad_apply_of_inside _ _ _ se _ pads_S16x32_S16x80_000_0480 h_S_ (ix2 k q) (ix2 k (⟨q.val, h⟩ : Fin 32)) (fun a => match a with
      | ⟨0, _⟩ => by show k.val = 0 + k.val * (0 + 1); omega
      | ⟨1, _⟩ => by show q.val = 0 + q.val * (0 + 1); omega)
  · rw [dif_neg h]
    refine (pad_apply_of_not_inside _ _ _ se _ pads_S16x32_S16x80_000_0480 h_S_ (ix2 k q) (1 : Fin 2) ?_).trans (pad_value h_S_)
    show ¬(0 ≤ q.val ∧ (q.val - 0) % (0 + 1) = 0 ∧ (q.val - 0) / (0 + 1) < 32)
    omega

/-- The colour table padded to 80 columns: itself in columns 32–63, zero elsewhere. -/
private theorem colour_pad_apply (ce : (⟨S8x32, .f32⟩ : BufTy).Contents (Elt Ideal)) (k : Fin 8) (q : Fin 80) :
    pad S8x80 ![0, 32] ![0, 16] ![0, 0] ce (sitofp (F := Ideal) .f32 (constantI S_ 32 0#32)) pads_S8x32_S8x80_000_32160 h_S_ (ix2 k q)
      = if h : 32 ≤ q.val ∧ q.val < 64 then ce (ix2 k (⟨q.val - 32, by omega⟩ : Fin 32)) else (0 : EReal) := by
  by_cases h : 32 ≤ q.val ∧ q.val < 64
  · rw [dif_pos h]
    exact pad_apply_of_inside _ _ _ ce _ pads_S8x32_S8x80_000_32160 h_S_ (ix2 k q) (ix2 k (⟨q.val - 32, by omega⟩ : Fin 32)) (fun a => match a with
      | ⟨0, _⟩ => by show k.val = 0 + k.val * (0 + 1); omega
      | ⟨1, _⟩ => by show q.val = 32 + (q.val - 32) * (0 + 1); omega)
  · rw [dif_neg h]
    refine (pad_apply_of_not_inside _ _ _ ce _ pads_S8x32_S8x80_000_32160 h_S_ (ix2 k q) (1 : Fin 2) ?_).trans (pad_value h_S_)
    show ¬(32 ≤ q.val ∧ (q.val - 32) % (0 + 1) = 0 ∧ (q.val - 32) / (0 + 1) < 32)
    omega

/-- The position table padded to 80 columns: itself in columns 64–79, zero before. -/
private theorem position_pad_apply (pe : (⟨S20x16, .f32⟩ : BufTy).Contents (Elt Ideal)) (k : Fin 20) (q : Fin 80) :
    pad S20x80 ![0, 64] ![0, 0] ![0, 0] pe (sitofp (F := Ideal) .f32 (constantI S_ 32 0#32)) pads_S20x16_S20x80_000_6400 h_S_ (ix2 k q)
      = if h : 64 ≤ q.val then pe (ix2 k (⟨q.val - 64, by have := q.isLt; omega⟩ : Fin 16)) else (0 : EReal) := by
  by_cases h : 64 ≤ q.val
  · rw [dif_pos h]
    exact pad_apply_of_inside _ _ _ pe _ pads_S20x16_S20x80_000_6400 h_S_ (ix2 k q) (ix2 k (⟨q.val - 64, by have := q.isLt; omega⟩ : Fin 16)) (fun a => match a with
      | ⟨0, _⟩ => by show k.val = 0 + k.val * (0 + 1); omega
      | ⟨1, _⟩ => by show q.val = 64 + (q.val - 64) * (0 + 1); omega)
  · rw [dif_neg h]
    refine (pad_apply_of_not_inside _ _ _ pe _ pads_S20x16_S20x80_000_6400 h_S_ (ix2 k q) (1 : Fin 2) ?_).trans (pad_value h_S_)
    show ¬(64 ≤ q.val ∧ (q.val - 64) % (0 + 1) = 0 ∧ (q.val - 64) / (0 + 1) < 16)
    omega

/-! ## One row of each table -/

/-- With each of the node's three words a row number of its table, the body's value at (p, q) is one entry of each
    padded table, added: a one-hot row times a table is the table's row at the hot lane (0·a = 0 and 1·a = a for every
    extended real). -/
private theorem body_rows (x0 x1 x2 : Vec Ideal S2000x1 .i32) (t3 : Vec Ideal S16x80 .f32) (t4 : Vec Ideal S8x80 .f32)
    (t5 : Vec Ideal S20x80 .f32) (p : Fin 2000) (q : Fin 80) (r0 : Fin 16) (r1 : Fin 8) (r2 : Fin 20)
    (h0 : (x0 (ix2 p 0) : BitVec 32).toNat = r0.val) (h1 : (x1 (ix2 p 0) : BitVec 32).toNat = r1.val)
    (h2 : (x2 (ix2 p 0) : BitVec 32).toNat = r2.val) :
    k0_pay1 (F := Ideal) x0 x1 x2 t3 t4 t5 (ix2 p q) = t3 (ix2 r0 q) + t4 (ix2 r1 q) + t5 (ix2 r2 q) := by
  rw [body_apply]
  exact congrArg₂ (· + ·)
    (congrArg₂ (· + ·) (hot_sum (by decide) _ r0 h0 fun k => t3 (ix2 k q)) (hot_sum (by decide) _ r1 h1 fun k => t4 (ix2 k q)))
    (hot_sum (by decide) _ r2 h2 fun k => t5 (ix2 k q))

/-- One entry of each padded table, added: outside its own band of columns a padded table holds zero, so the sum is the
    entry of the one table whose band holds column q, which is the feature array's entry. -/
private theorem picked_rows (x : (⟨S100000x3, .i32⟩ : BufTy).Contents (Elt Ideal)) (se : (⟨S16x32, .f32⟩ : BufTy).Contents (Elt Ideal))
    (ce : (⟨S8x32, .f32⟩ : BufTy).Contents (Elt Ideal)) (pe : (⟨S20x16, .f32⟩ : BufTy).Contents (Elt Ideal))
    (n : Fin 100000) (q : Fin 80) (r0 : Fin 16) (r1 : Fin 8) (r2 : Fin 20)
    (h0 : Cert.Layers.xAt x n 0 = r0.val) (h1 : Cert.Layers.xAt x n 1 = r1.val) (h2 : Cert.Layers.xAt x n 2 = r2.val) :
    (if h : q.val < 32 then se (ix2 r0 (⟨q.val, h⟩ : Fin 32)) else (0 : EReal))
      + (if h : 32 ≤ q.val ∧ q.val < 64 then ce (ix2 r1 (⟨q.val - 32, by omega⟩ : Fin 32)) else (0 : EReal))
      + (if h : 64 ≤ q.val then pe (ix2 r2 (⟨q.val - 64, by have := q.isLt; omega⟩ : Fin 16)) else (0 : EReal))
    = Cert.Layers.tableRows x se ce pe (ix2 n q) := by
  have e0 : (⟨Cert.Layers.xAt x n 0 % 16, Nat.mod_lt _ (by decide)⟩ : Fin 16) = r0 :=
    Fin.ext (by show _ % 16 = r0.val; rw [h0]; exact Nat.mod_eq_of_lt r0.isLt)
  have e1 : (⟨Cert.Layers.xAt x n 1 % 8, Nat.mod_lt _ (by decide)⟩ : Fin 8) = r1 :=
    Fin.ext (by show _ % 8 = r1.val; rw [h1]; exact Nat.mod_eq_of_lt r1.isLt)
  have e2 : (⟨Cert.Layers.xAt x n 2 % 20, Nat.mod_lt _ (by decide)⟩ : Fin 20) = r2 :=
    Fin.ext (by show _ % 20 = r2.val; rw [h2]; exact Nat.mod_eq_of_lt r2.isLt)
  have hq : q.val < 80 := q.isLt
  unfold Cert.Layers.tableRows
  show _ = (if h : q.val < 32 then se (ix2 (⟨Cert.Layers.xAt x n 0 % 16, Nat.mod_lt _ (by decide)⟩ : Fin 16) (⟨q.val, h⟩ : Fin 32))
    else if h' : q.val < 64 then ce (ix2 (⟨Cert.Layers.xAt x n 1 % 8, Nat.mod_lt _ (by decide)⟩ : Fin 8) (⟨q.val - 32, by omega⟩ : Fin 32))
    else pe (ix2 (⟨Cert.Layers.xAt x n 2 % 20, Nat.mod_lt _ (by decide)⟩ : Fin 20) (⟨q.val - 64, by omega⟩ : Fin 16)))
  rw [e0, e1, e2]
  by_cases hq1 : q.val < 32
  · rw [dif_pos hq1, dif_neg (by omega), dif_neg (by omega), dif_pos hq1, add_zero, add_zero]
  · by_cases hq2 : q.val < 64
    · rw [dif_neg hq1, dif_pos ⟨by omega, hq2⟩, dif_neg (by omega), dif_neg hq1, dif_pos hq2, zero_add, add_zero]
    · rw [dif_neg hq1, dif_neg (by omega), dif_pos (by omega), dif_neg hq1, dif_neg hq2, zero_add, zero_add]

/-! ## Where the blocks sit -/

private theorem zero_offsets : (![0, 0] : Fin 2 → Nat) = fun _ => 0 := funext fun a => by fin_cases a <;> rfl

/-- The windows' block indices at point t: the three index columns and the output move down one block of 2000 rows
    per point; the three tables are one block each. -/
private theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block of the first index column is row 2000·t + p of column 0 of the index array. -/
private theorem word_block0 (c : Dev nD) (x : (⟨S100000x3, .i32⟩ : BufTy).Contents (Elt Ideal))
    (h4 : V c main_v4 = extractStridedSlice S100000x1 ![0, 0] x slices_S100000x3_S100000x1_0_0)
    (t : Fin cfg0.N) (p : Fin 2000) (n : Fin 100000) (hn : n.val = t.val * 2000 + p.val) :
    iblk0 (F := Ideal) V c 0 t (ix2 p 0) = x (ix2 n 0) := by
  obtain ⟨e0, e1, -⟩ := block_indices t
  show V c main_v4 (((cfg0.win 0).blk t).view.emb (ix2 p 0)) = _
  rw [h4]
  refine extractStridedSlice_apply _ x _ _ (ix2 n 0) (fun a => ?_)
  match a with
  | ⟨0, _⟩ => show n.val = 0 + (win0_0.index t (0 : Fin 2) * 2000 + 1 * p.val); rw [e0, hn]; omega
  | ⟨1, _⟩ => show 0 = 0 + (win0_0.index t (1 : Fin 2) * 1 + 1 * 0); rw [e1]

/-- Row p of point t's block of the second index column is row 2000·t + p of column 1 of the index array. -/
private theorem word_block1 (c : Dev nD) (x : (⟨S100000x3, .i32⟩ : BufTy).Contents (Elt Ideal))
    (h5 : V c main_v5 = extractStridedSlice S100000x1 ![0, 1] x slices_S100000x3_S100000x1_0_1)
    (t : Fin cfg0.N) (p : Fin 2000) (n : Fin 100000) (hn : n.val = t.val * 2000 + p.val) :
    iblk0 (F := Ideal) V c 1 t (ix2 p 0) = x (ix2 n 1) := by
  obtain ⟨-, -, e0, e1, -⟩ := block_indices t
  show V c main_v5 (((cfg0.win 1).blk t).view.emb (ix2 p 0)) = _
  rw [h5]
  refine extractStridedSlice_apply _ x _ _ (ix2 n 1) (fun a => ?_)
  match a with
  | ⟨0, _⟩ => show n.val = 0 + (win0_1.index t (0 : Fin 2) * 2000 + 1 * p.val); rw [e0, hn]; omega
  | ⟨1, _⟩ => show 1 = 1 + (win0_1.index t (1 : Fin 2) * 1 + 1 * 0); rw [e1]

/-- Row p of point t's block of the third index column is row 2000·t + p of column 2 of the index array. -/
private theorem word_block2 (c : Dev nD) (x : (⟨S100000x3, .i32⟩ : BufTy).Contents (Elt Ideal))
    (h6 : V c main_v6 = extractStridedSlice S100000x1 ![0, 2] x slices_S100000x3_S100000x1_0_2)
    (t : Fin cfg0.N) (p : Fin 2000) (n : Fin 100000) (hn : n.val = t.val * 2000 + p.val) :
    iblk0 (F := Ideal) V c 2 t (ix2 p 0) = x (ix2 n 2) := by
  obtain ⟨-, -, -, -, e0, e1, -⟩ := block_indices t
  show V c main_v6 (((cfg0.win 2).blk t).view.emb (ix2 p 0)) = _
  rw [h6]
  refine extractStridedSlice_apply _ x _ _ (ix2 n 2) (fun a => ?_)
  match a with
  | ⟨0, _⟩ => show n.val = 0 + (win0_2.index t (0 : Fin 2) * 2000 + 1 * p.val); rw [e0, hn]; omega
  | ⟨1, _⟩ => show 2 = 2 + (win0_2.index t (1 : Fin 2) * 1 + 1 * 0); rw [e1]

/-- Each table's one block is the whole padded table, at every point. -/
private theorem table_block3 (c : Dev nD) (t : Fin cfg0.N) (k : Fin 16) (q : Fin 80) :
    iblk0 (F := Ideal) V c 3 t (ix2 k q) = V c main_v7 (ix2 k q) := by
  obtain ⟨-, -, -, -, -, -, e0, e1, -⟩ := block_indices t
  show V c main_v7 (((cfg0.win 3).blk t).view.emb (ix2 k q)) = _
  refine congrArg (V c main_v7) (funext fun a => Fin.ext ?_)
  match a with
  | ⟨0, _⟩ => show win0_3.index t (0 : Fin 2) * 16 + 1 * k.val = k.val; rw [e0]; omega
  | ⟨1, _⟩ => show win0_3.index t (1 : Fin 2) * 80 + 1 * q.val = q.val; rw [e1]; omega
private theorem table_block4 (c : Dev nD) (t : Fin cfg0.N) (k : Fin 8) (q : Fin 80) :
    iblk0 (F := Ideal) V c 4 t (ix2 k q) = V c main_v8 (ix2 k q) := by
  obtain ⟨-, -, -, -, -, -, -, -, e0, e1, -⟩ := block_indices t
  show V c main_v8 (((cfg0.win 4).blk t).view.emb (ix2 k q)) = _
  refine congrArg (V c main_v8) (funext fun a => Fin.ext ?_)
  match a with
  | ⟨0, _⟩ => show win0_4.index t (0 : Fin 2) * 8 + 1 * k.val = k.val; rw [e0]; omega
  | ⟨1, _⟩ => show win0_4.index t (1 : Fin 2) * 80 + 1 * q.val = q.val; rw [e1]; omega
private theorem table_block5 (c : Dev nD) (t : Fin cfg0.N) (k : Fin 20) (q : Fin 80) :
    iblk0 (F := Ideal) V c 5 t (ix2 k q) = V c main_v9 (ix2 k q) := by
  obtain ⟨-, -, -, -, -, -, -, -, -, -, e0, e1, -⟩ := block_indices t
  show V c main_v9 (((cfg0.win 5).blk t).view.emb (ix2 k q)) = _
  refine congrArg (V c main_v9) (funext fun a => Fin.ext ?_)
  match a with
  | ⟨0, _⟩ => show win0_5.index t (0 : Fin 2) * 20 + 1 * k.val = k.val; rw [e0]; omega
  | ⟨1, _⟩ => show win0_5.index t (1 : Fin 2) * 80 + 1 * q.val = q.val; rw [e1]; omega

/-- Entry (p, q) of point t's block of a [100000, 80] array is its entry (2000·t + p, q). -/
private theorem out_block (G : (⟨S100000x80, .f32⟩ : BufTy).Contents (Elt Ideal)) (t : Fin cfg0.N) (p : Fin 2000) (q : Fin 80)
    (n : Fin 100000) (hn : n.val = t.val * 2000 + p.val) :
    ((cfg0.win 6).blk t).view.read (Elt Ideal) G (ix2 p q) = G (ix2 n q) := by
  obtain ⟨-, -, -, -, -, -, -, -, -, -, -, -, e0, e1⟩ := block_indices t
  show G (((cfg0.win 6).blk t).view.emb (ix2 p q)) = _
  refine congrArg G (funext fun a => Fin.ext ?_)
  match a with
  | ⟨0, _⟩ => show win0_6.index t (0 : Fin 2) * 2000 + 1 * p.val = n.val; rw [e0, hn]; omega
  | ⟨1, _⟩ => show win0_6.index t (1 : Fin 2) * 80 + 1 * q.val = q.val; rw [e1]; omega

/-! ## From the blocks to the array -/

/-- What point t writes back is block t of the feature array. -/
private theorem flushed_rows (c : Dev nD) (x : (⟨S100000x3, .i32⟩ : BufTy).Contents (Elt Ideal)) (se : (⟨S16x32, .f32⟩ : BufTy).Contents (Elt Ideal)) (ce : (⟨S8x32, .f32⟩ : BufTy).Contents (Elt Ideal)) (pe : (⟨S20x16, .f32⟩ : BufTy).Contents (Elt Ideal))
    (h4 : V c main_v4 = extractStridedSlice S100000x1 ![0, 0] x slices_S100000x3_S100000x1_0_0)
    (h5 : V c main_v5 = extractStridedSlice S100000x1 ![0, 1] x slices_S100000x3_S100000x1_0_1)
    (h6 : V c main_v6 = extractStridedSlice S100000x1 ![0, 2] x slices_S100000x3_S100000x1_0_2)
    (h7 : V c main_v7 = pad S16x80 ![0, 0] ![0, 48] ![0, 0] se (sitofp (F := Ideal) .f32 (constantI S_ 32 0#32)) pads_S16x32_S16x80_000_0480 h_S_)
    (h8 : V c main_v8 = pad S8x80 ![0, 32] ![0, 16] ![0, 0] ce (sitofp (F := Ideal) .f32 (constantI S_ 32 0#32)) pads_S8x32_S8x80_000_32160 h_S_)
    (h9 : V c main_v9 = pad S20x80 ![0, 64] ![0, 0] ![0, 0] pe (sitofp (F := Ideal) .f32 (constantI S_ 32 0#32)) pads_S20x16_S20x80_000_6400 h_S_)
    (hx0 : ∀ i : S100000x3.Idx, (i 1).val = 0 → (x i : BitVec 32).toNat < 16)
    (hx1 : ∀ i : S100000x3.Idx, (i 1).val = 1 → (x i : BitVec 32).toNat < 8)
    (hx2 : ∀ i : S100000x3.Idx, (i 1).val = 2 → (x i : BitVec 32).toNat < 20)
    (t : Fin cfg0.N) :
    (dat0 (F := Ideal) V c).flushed 6 t = ((cfg0.win 6).blk t).view.read (Elt Ideal) (Cert.Layers.tableRows x se ce pe) := by
  show (cfg0.win 6).cut (grid0.coords t) ((dat0 (F := Ideal) V c).after 6 t) = _
  rw [after0_6]
  unfold out0_6
  rw [View.canon_unit_zero zero_offsets]
  simp only [View.ld_unit_zero (S := S2000x1) zero_offsets, View.ld_unit_zero (S := S16x80) zero_offsets,
    View.ld_unit_zero (S := S8x80) zero_offsets, View.ld_unit_zero (S := S20x80) zero_offsets]
  funext j
  obtain ⟨p, q, rfl⟩ : ∃ (p : Fin 2000) (q : Fin 80), j = ix2 p q := ⟨j 0, j 1, eq_ix2 j⟩
  have hN : cfg0.N = 50 := N_0
  have ht : t.val < 50 := hN ▸ t.isLt
  have hp : p.val < 2000 := p.isLt
  obtain ⟨n, hn⟩ : ∃ n : Fin 100000, n.val = t.val * 2000 + p.val := ⟨⟨t.val * 2000 + p.val, by omega⟩, rfl⟩
  have b0 : Cert.Layers.xAt x n 0 < 16 := hx0 (ix2 n 0) rfl
  have b1 : Cert.Layers.xAt x n 1 < 8 := hx1 (ix2 n 1) rfl
  have b2 : Cert.Layers.xAt x n 2 < 20 := hx2 (ix2 n 2) rfl
  refine (body_rows _ _ _ _ _ _ p q ⟨Cert.Layers.xAt x n 0, b0⟩ ⟨Cert.Layers.xAt x n 1, b1⟩ ⟨Cert.Layers.xAt x n 2, b2⟩ ?_ ?_ ?_).trans ?_
  · rw [word_block0 V c x h4 t p n hn]; rfl
  · rw [word_block1 V c x h5 t p n hn]; rfl
  · rw [word_block2 V c x h6 t p n hn]; rfl
  · rw [table_block3, table_block4, table_block5, h7, h8, h9, shape_pad_apply, colour_pad_apply, position_pad_apply,
      out_block _ t p q n hn]
    exact picked_rows x se ce pe n q _ _ _ rfl rfl rfl

/-- Every row of the array is in the block of the point its number divided by 2000 names. -/
private theorem rows_covered (i : S100000x80.Idx) :
    ∃ t : Fin cfg0.N, (cfg0.win 6).flush t = true ∧ i ∈ ((cfg0.win 6).blk t).view.set := by
  have hi0 : (i 0).val < 100000 := (i 0).isLt
  have hi1 : (i 1).val < 80 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, e0, e1⟩ := block_indices t
  refine ⟨t, flush0_6 t, ?_⟩
  show i ∈ ((View.whole main_v10).slice (win0_6.rect t)).set
  rw [View.set_slice_whole, Rect.mem_set_unit]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 80 ≤ (i 1).val ∧ (i 1).val < win0_6.index t (1 : Fin 2) * 80 + 80
    rw [e1]; omega

/-- Region 0's output array is `tableRows`: per node the three one-hot rows times the zero-padded tables, summed, pick one row
    of each table into its own band of columns. -/
theorem embed_array_rows (c : Dev nD) (x : (⟨S100000x3, .i32⟩ : BufTy).Contents (Elt Ideal)) (se : (⟨S16x32, .f32⟩ : BufTy).Contents (Elt Ideal)) (ce : (⟨S8x32, .f32⟩ : BufTy).Contents (Elt Ideal)) (pe : (⟨S20x16, .f32⟩ : BufTy).Contents (Elt Ideal))
    (h4 : V c main_v4 = extractStridedSlice S100000x1 ![0, 0] x slices_S100000x3_S100000x1_0_0)
    (h5 : V c main_v5 = extractStridedSlice S100000x1 ![0, 1] x slices_S100000x3_S100000x1_0_1)
    (h6 : V c main_v6 = extractStridedSlice S100000x1 ![0, 2] x slices_S100000x3_S100000x1_0_2)
    (h7 : V c main_v7 = pad S16x80 ![0, 0] ![0, 48] ![0, 0] se (sitofp (F := Ideal) .f32 (constantI S_ 32 0#32)) pads_S16x32_S16x80_000_0480 h_S_)
    (h8 : V c main_v8 = pad S8x80 ![0, 32] ![0, 16] ![0, 0] ce (sitofp (F := Ideal) .f32 (constantI S_ 32 0#32)) pads_S8x32_S8x80_000_32160 h_S_)
    (h9 : V c main_v9 = pad S20x80 ![0, 64] ![0, 0] ![0, 0] pe (sitofp (F := Ideal) .f32 (constantI S_ 32 0#32)) pads_S20x16_S20x80_000_6400 h_S_)
    (hx0 : ∀ i : S100000x3.Idx, (i 1).val = 0 → (x i : BitVec 32).toNat < 16)
    (hx1 : ∀ i : S100000x3.Idx, (i 1).val = 1 → (x i : BitVec 32).toNat < 8)
    (hx2 : ∀ i : S100000x3.Idx, (i 1).val = 2 → (x i : BitVec 32).toNat < 20) :
    (dat0 (F := Ideal) V c).arrAt 6 cfg0.N = Cert.Layers.tableRows x se ce pe :=
  (dat0 (F := Ideal) V c).arrAt_eq_of_cover 6 (Cert.Layers.tableRows x se ce pe)
    (fun t _ => flushed_rows V c x se ce pe h4 h5 h6 h7 h8 h9 hx0 hx1 hx2 t) rows_covered

end Cert.KernelIdeal.Regions

end
-- ==== Proof.EmbedLookup.lean ====
/-
  The reference's three table look-ups, read entry by entry.

  Entry (n, j) of the node features is, for j < 32, entry (x[n,0], j) of the shape table; for 32 ≤ j < 64, entry
  (x[n,1], j - 32) of the colour table; for 64 ≤ j < 80, entry (x[n,2], j - 64) of the position table. The reference
  first replaces a negative index by the index plus the table's height and the gather then reads its start index
  signed and clamped into the table; for an index that is, as an unsigned word, below the table's height both steps
  leave it unchanged.
-/
import proofs.«400131_j88648124991069_1_alg».proof.Proof.EmbedSpec
import Idealize.ShloMosaic.Lib.Pipeline.Value
import Idealize.ShloMosaic.Lib.StableHlo.Predicate

noncomputable section

namespace Cert.Layers

open Cert.ReferenceIdeal Cert.ReferenceIdeal.Gen Idealize.ShloMosaic Idealize.ShloMosaic.TcCoe
open Idealize.ShloMosaic.ValueIdx

/-! ## A gather of whole rows, read at an entry -/

/-- In a list with one entry every position holds that entry. -/
private theorem getElem_of_eq_singleton {β : Type} (l : List β) (b : β) (hl : l = [b]) (k : Nat) (hk : k < l.length) :
    l[k]'hk = b := by
  subst hl
  have h0 : k = 0 := by simpa using hk
  subst h0
  rfl

/-- A gather that reads, for each row `p` of the result, one whole row of an `[R, C]` table: the row is the start
    index `idx[p, 0]` read signed and clamped into the table, the column is the result's own. -/
private theorem gather_rows_apply {α : Type} {R C n w : Nat} (d : GatherDims ⟨2, ![R, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (T : (⟨2, ![R, C]⟩ : Shape).Idx → α) (idx : IVec ⟨2, ![n, 1]⟩ w) (p : Fin n) (q : Fin C) (hR : 0 < R) :
    Host.gather d T idx (ix2 p q) = T (ix2 ⟨min (idx (ix2 p (0 : Fin 1))).toInt.toNat (R - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ix2 p (0 : Fin 1))).toInt.toNat (R - 1)
    rw [GatherDims.batchCoord_eq_zero _ _ _ (hb 0), GatherDims.offCoord_eq_zero _ _ _ hk]
    simp only [Nat.add_zero]
    unfold GatherDims.start
    rw [dif_pos hm]
    show min (idx _).toInt.toNat (R - d.sliceSizes 0) = min (idx (ix2 p (0 : Fin 1))).toInt.toNat (R - 1)
    rw [hsl]
    congr 3
    congr 1
    funext b
    match b with
    | ⟨0, _⟩ =>
      unfold GatherDims.siIdx
      rw [dif_neg (by rw [hivd]; exact Nat.zero_ne_one)]
      unfold GatherDims.siCoord
      apply Fin.ext
      simp only [Fin.val_cast]
      have hbd : d.batchDims = [0] := by
        show Shape.kept _ d.offsetDims = [0]
        rw [hoff]; rfl
      rw [getElem_of_eq_singleton d.batchDims 0 hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by
      rw [GatherDims.mem_sKept, hcoll]
      exact ⟨by simp, hb 1⟩
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start GatherDims.offCoord
    rw [dif_neg hm, dif_pos hk]
    simp only [Nat.zero_add, Nat.add_zero]
    rw [getElem_of_eq_singleton d.offsetDims 1 hoff]
    rfl

/-! ## The start indices, read at a node -/

/-- Column `k` of the index triples, cut out as a `[100000, 1]` slice and flattened, holds at node `n` the entry `x[n, k]`. -/
private theorem column_apply (x : IVec S100000x3 32) (off : Fin 2 → Nat) (hs : S100000x3.Slices off S100000x1)
    (k : Fin 3) (h0 : off 0 = 0) (h1 : off 1 = k.val) (n : Fin 100000) :
    shapeCast S100000 (extractStridedSlice S100000x1 off x hs) shapeCasts_S100000x1_S100000 (ix1 n) = x (ix2 n k) := by
  refine (shapeCast_apply _ shapeCasts_S100000x1_S100000 (ix1 n) (ix2 n (0 : Fin 1)) ?_).trans ?_
  · rw [Shape.rowMajor_val_two, Shape.rowMajor_val_one]
    show n.val * 1 + 0 = n.val
    omega
  · exact extractStridedSlice_apply off x hs (ix2 n (0 : Fin 1)) (ix2 n k) (fun a => match a with
      | ⟨0, _⟩ => by show n.val = off 0 + n.val; rw [h0]; omega
      | ⟨1, _⟩ => by show k.val = off 1 + 0; rw [h1]; rfl)

/-- The start index the reference hands the gather for node `n` and column `k`: the entry `x[n, k]` with the table's
    height `r` added when it is negative. For an entry whose sign bit is clear it is the entry itself. -/
private theorem startIdx_apply (x : IVec S100000x3 32) (off : Fin 2 → Nat) (hs : S100000x3.Slices off S100000x1)
    (k : Fin 3) (h0 : off 0 = 0) (h1 : off 1 = k.val) (r : BitVec 32) (n : Fin 100000)
    (hx : (x (ix2 n k)).toNat < 2 ^ 31) :
    broadcastInDim S100000x1 ![0] bcast_S100000_S100000x1_0
      (select (cmpi .slt (shapeCast S100000 (extractStridedSlice S100000x1 off x hs) shapeCasts_S100000x1_S100000) (broadcastInDim S100000 ![] bcast_S_S100000 (constantI S_ 32 0#32)))
        (addi (shapeCast S100000 (extractStridedSlice S100000x1 off x hs) shapeCasts_S100000x1_S100000) (broadcastInDim S100000 ![] bcast_S_S100000 (constantI S_ 32 r)))
        (shapeCast S100000 (extractStridedSlice S100000x1 off x hs) shapeCasts_S100000x1_S100000)) (ix2 n (0 : Fin 1))
      = x (ix2 n k) := by
  refine (broadcastInDim_apply _ bcast_S100000_S100000x1_0 _ (ix2 n (0 : Fin 1)) (ix1 n) (fun a => match a with
    | ⟨0, _⟩ => by show n.val = if (100000 : Nat) = 1 then 0 else n.val; rw [if_neg (by decide)])).trans ?_
  have hcn := column_apply x off hs k h0 h1 n
  generalize shapeCast S100000 (extractStridedSlice S100000x1 off x hs) shapeCasts_S100000x1_S100000 = c at hcn ⊢
  show Scalar.select (IntOp.cmpi .slt (c (ix1 n)) 0#32) (IntOp.addi (c (ix1 n)) r) (c (ix1 n)) = x (ix2 n k)
  rw [hcn]
  have hlt : ¬ IntOp.cmpi .slt (x (ix2 n k)) 0#32 = 1#1 := by
    rw [StableHlo.Predicate.slt_iff_toNat hx (by decide)]
    exact Nat.not_lt_zero _
  rw [eq_zero_of_ne_one hlt, select_zero]

/-- The row a gather reads for a start index that lies inside a table of `R` rows: reading it signed and clamping
    it changes nothing, and neither does taking the remainder by `R`. -/
private theorem clamp_row (v : BitVec 32) (R : Nat) (hR : R ≤ 2 ^ 31) (hv : v.toNat < R) :
    min v.toInt.toNat (R - 1) = v.toNat % R := by
  rw [StableHlo.Predicate.toInt_eq_toNat_of_lt (show v.toNat < 2 ^ 31 by omega), Int.toNat_natCast, Nat.mod_eq_of_lt hv]
  omega

/-! ## Three arrays side by side, read at an entry -/

/-- Entry `(n, j)` of three arrays of 32, 32 and 16 columns laid side by side is the entry of the array whose band of
    columns holds `j`. -/
private theorem concat3_apply {α : Type} (A B : S100000x32.Idx → α) (C : S100000x16.Idx → α) (n : Fin 100000) (j : Fin 80) :
    concatenate S100000x80 1 [⟨S100000x32, A⟩, ⟨S100000x32, B⟩, ⟨S100000x16, C⟩] concatenates_S100000x32_S100000x32_S100000x16_S100000x80_d1 (ix2 n j)
      = if h : j.val < 32 then A (ix2 n ⟨j.val, h⟩)
        else if h' : j.val < 64 then B (ix2 n ⟨j.val - 32, by omega⟩)
        else C (ix2 n ⟨j.val - 64, by have := j.isLt; omega⟩) := by
  by_cases h : j.val < 32
  · rw [dif_pos h]
    exact concatenate_apply_piece (1 : Fin 2) _ _ (ix2 n j) 0 (by show 0 < 3; omega) S100000x32 A rfl rfl 0 rfl (ix2 n ⟨j.val, h⟩)
      (fun b hb => match b with
        | ⟨0, _⟩ => rfl
        | ⟨1, _⟩ => absurd rfl hb)
      (by show 0 + j.val = j.val; omega)
  · rw [dif_neg h]
    by_cases h' : j.val < 64
    · rw [dif_pos h']
      exact concatenate_apply_piece (1 : Fin 2) _ _ (ix2 n j) 1 (by show 1 < 3; omega) S100000x32 B rfl rfl 32 rfl (ix2 n ⟨j.val - 32, by omega⟩)
        (fun b hb => match b with
          | ⟨0, _⟩ => rfl
          | ⟨1, _⟩ => absurd rfl hb)
        (by show 32 + (j.val - 32) = j.val; omega)
    · rw [dif_neg h']
      exact concatenate_apply_piece (1 : Fin 2) _ _ (ix2 n j) 2 (by show 2 < 3; omega) S100000x16 C rfl rfl 64 rfl (ix2 n ⟨j.val - 64, by have := j.isLt; omega⟩)
        (fun b hb => match b with
          | ⟨0, _⟩ => rfl
          | ⟨1, _⟩ => absurd rfl hb)
        (by show 64 + (j.val - 64) = j.val; omega)

/-! ## The indexed rows, band by band -/

private theorem tableRows_shape (x : (⟨S100000x3, .i32⟩ : BufTy).Contents (Elt Ideal)) (se : (⟨S16x32, .f32⟩ : BufTy).Contents (Elt Ideal)) (ce : (⟨S8x32, .f32⟩ : BufTy).Contents (Elt Ideal)) (pe : (⟨S20x16, .f32⟩ : BufTy).Contents (Elt Ideal))
    (n : Fin 100000) (j : Fin 80) (h : j.val < 32) :
    tableRows x se ce pe (ix2 n j) = se (ix2 (⟨xAt x n 0 % 16, Nat.mod_lt _ (by decide)⟩ : Fin 16) (⟨j.val, h⟩ : Fin 32)) := by
  unfold tableRows
  exact dif_pos h

private theorem tableRows_colour (x : (⟨S100000x3, .i32⟩ : BufTy).Contents (Elt Ideal)) (se : (⟨S16x32, .f32⟩ : BufTy).Contents (Elt Ideal)) (ce : (⟨S8x32, .f32⟩ : BufTy).Contents (Elt Ideal)) (pe : (⟨S20x16, .f32⟩ : BufTy).Contents (Elt Ideal))
    (n : Fin 100000) (j : Fin 80) (h : ¬ j.val < 32) (h' : j.val < 64) :
    tableRows x se ce pe (ix2 n j) = ce (ix2 (⟨xAt x n 1 % 8, Nat.mod_lt _ (by decide)⟩ : Fin 8) (⟨j.val - 32, by omega⟩ : Fin 32)) := by
  unfold tableRows
  exact (dif_neg h).trans (dif_pos h')

private theorem tableRows_position (x : (⟨S100000x3, .i32⟩ : BufTy).Contents (Elt Ideal)) (se : (⟨S16x32, .f32⟩ : BufTy).Contents (Elt Ideal)) (ce : (⟨S8x32, .f32⟩ : BufTy).Contents (Elt Ideal)) (pe : (⟨S20x16, .f32⟩ : BufTy).Contents (Elt Ideal))
    (n : Fin 100000) (j : Fin 80) (h : ¬ j.val < 32) (h' : ¬ j.val < 64) :
    tableRows x se ce pe (ix2 n j) = pe (ix2 (⟨xAt x n 2 % 20, Nat.mod_lt _ (by decide)⟩ : Fin 20) (⟨j.val - 64, by have := j.isLt; omega⟩ : Fin 16)) := by
  unfold tableRows
  exact (dif_neg h).trans (dif_neg h')

/-! ## The node features -/

/-- With every index inside its table, the wrapped and clamped look-ups read exactly the indexed rows. -/
theorem embedRows_eq_tableRows (x : (⟨S100000x3, .i32⟩ : BufTy).Contents (Elt Ideal)) (se : (⟨S16x32, .f32⟩ : BufTy).Contents (Elt Ideal)) (ce : (⟨S8x32, .f32⟩ : BufTy).Contents (Elt Ideal)) (pe : (⟨S20x16, .f32⟩ : BufTy).Contents (Elt Ideal))
    (hx0 : ∀ i : S100000x3.Idx, (i 1).val = 0 → (x i : BitVec 32).toNat < 16)
    (hx1 : ∀ i : S100000x3.Idx, (i 1).val = 1 → (x i : BitVec 32).toNat < 8)
    (hx2 : ∀ i : S100000x3.Idx, (i 1).val = 2 → (x i : BitVec 32).toNat < 20) :
    embedRows (F := Ideal) x se ce pe = tableRows x se ce pe := by
  funext i
  obtain ⟨n, j, rfl⟩ : ∃ (n : Fin 100000) (j : Fin 80), i = ix2 n j := ⟨i 0, i 1, eq_ix2 i⟩
  have b0 : (x (ix2 n (0 : Fin 3)) : BitVec 32).toNat < 16 := hx0 (ix2 n (0 : Fin 3)) rfl
  have b1 : (x (ix2 n (1 : Fin 3)) : BitVec 32).toNat < 8 := hx1 (ix2 n (1 : Fin 3)) rfl
  have b2 : (x (ix2 n (2 : Fin 3)) : BitVec 32).toNat < 20 := hx2 (ix2 n (2 : Fin 3)) rfl
  unfold embedRows
  refine (concat3_apply _ _ _ n j).trans ?_
  by_cases h : j.val < 32
  · rw [dif_pos h]
    refine Eq.trans ?_ (tableRows_shape x se ce pe n j h).symm
    rw [gather_rows_apply gather_S16x32_S100000x1_S100000x32_1_0_n_n_0_1_132 rfl rfl rfl rfl rfl se _ n ⟨j.val, h⟩ (by decide)]
    refine congrArg se (congrArg (fun r => ix2 r (⟨j.val, h⟩ : Fin 32)) (Fin.ext ?_))
    show min (_ : BitVec 32).toInt.toNat (16 - 1) = xAt x n 0 % 16
    rw [startIdx_apply x ![0, 0] slices_S100000x3_S100000x1_0_0 0 rfl rfl 16#32 n (by omega)]
    exact clamp_row _ 16 (by decide) b0
  · rw [dif_neg h]
    by_cases h' : j.val < 64
    · rw [dif_pos h']
      refine Eq.trans ?_ (tableRows_colour x se ce pe n j h h').symm
      rw [gather_rows_apply gather_S8x32_S100000x1_S100000x32_1_0_n_n_0_1_132 rfl rfl rfl rfl rfl ce _ n ⟨j.val - 32, by omega⟩ (by decide)]
      refine congrArg ce (congrArg (fun r => ix2 r (⟨j.val - 32, by omega⟩ : Fin 32)) (Fin.ext ?_))
      show min (_ : BitVec 32).toInt.toNat (8 - 1) = xAt x n 1 % 8
      rw [startIdx_apply x ![0, 1] slices_S100000x3_S100000x1_0_1 1 rfl rfl 8#32 n (by omega)]
      exact clamp_row _ 8 (by decide) b1
    · rw [dif_neg h']
      have h80 : j.val < 80 := j.isLt
      refine Eq.trans ?_ (tableRows_position x se ce pe n j h h').symm
      rw [gather_rows_apply gather_S20x16_S100000x1_S100000x16_1_0_n_n_0_1_116 rfl rfl rfl rfl rfl pe _ n ⟨j.val - 64, by omega⟩ (by decide)]
      refine congrArg pe (congrArg (fun r => ix2 r (⟨j.val - 64, by omega⟩ : Fin 16)) (Fin.ext ?_))
      show min (_ : BitVec 32).toInt.toNat (20 - 1) = xAt x n 2 % 20
      rw [startIdx_apply x ![0, 2] slices_S100000x3_S100000x1_0_2 2 rfl rfl 20#32 n (by omega)]
      exact clamp_row _ 20 (by decide) b2

end Cert.Layers

end
-- ==== Proof.EmbedRegion.lean ====
/-
  The embedding region's output array is the reference's three table look-ups side by side: both are, entry by entry, the
  indexed table rows (`Cert.Layers.tableRows`) — the region's one-hot products select them, the reference's wrapped and
  clamped gathers read them — once every index lies inside its table.
-/
import proofs.«400131_j88648124991069_1_alg».proof.Proof.Gen.KernelIdeal.Frame
import proofs.«400131_j88648124991069_1_alg».proof.Proof.Layers
import proofs.«400131_j88648124991069_1_alg».proof.Proof.EmbedKernelSide
import proofs.«400131_j88648124991069_1_alg».proof.Proof.EmbedLookup
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

/-- Region 0 leaves, in its output array, the reference's feature rows: entered with the three columns of `x` and the three
    tables padded with zero columns to width 80, each index inside its table. -/
theorem embed_array (c : Dev nD) (x : (⟨S100000x3, .i32⟩ : BufTy).Contents (Elt Ideal)) (se : (⟨S16x32, .f32⟩ : BufTy).Contents (Elt Ideal)) (ce : (⟨S8x32, .f32⟩ : BufTy).Contents (Elt Ideal)) (pe : (⟨S20x16, .f32⟩ : BufTy).Contents (Elt Ideal))
    (h4 : V c main_v4 = extractStridedSlice S100000x1 ![0, 0] x slices_S100000x3_S100000x1_0_0)
    (h5 : V c main_v5 = extractStridedSlice S100000x1 ![0, 1] x slices_S100000x3_S100000x1_0_1)
    (h6 : V c main_v6 = extractStridedSlice S100000x1 ![0, 2] x slices_S100000x3_S100000x1_0_2)
    (h7 : V c main_v7 = pad S16x80 ![0, 0] ![0, 48] ![0, 0] se (sitofp (F := Ideal) .f32 (constantI S_ 32 0#32)) pads_S16x32_S16x80_000_0480 h_S_)
    (h8 : V c main_v8 = pad S8x80 ![0, 32] ![0, 16] ![0, 0] ce (sitofp (F := Ideal) .f32 (constantI S_ 32 0#32)) pads_S8x32_S8x80_000_32160 h_S_)
    (h9 : V c main_v9 = pad S20x80 ![0, 64] ![0, 0] ![0, 0] pe (sitofp (F := Ideal) .f32 (constantI S_ 32 0#32)) pads_S20x16_S20x80_000_6400 h_S_)
    (hx0 : ∀ i : S100000x3.Idx, (i 1).val = 0 → (x i : BitVec 32).toNat < 16)
    (hx1 : ∀ i : S100000x3.Idx, (i 1).val = 1 → (x i : BitVec 32).toNat < 8)
    (hx2 : ∀ i : S100000x3.Idx, (i 1).val = 2 → (x i : BitVec 32).toNat < 20) :
    (dat0 (F := Ideal) V c).arrAt 6 cfg0.N = Cert.Layers.embedRows (F := Ideal) x se ce pe :=
  (embed_array_rows V c x se ce pe h4 h5 h6 h7 h8 h9 hx0 hx1 hx2).trans
    (Cert.Layers.embedRows_eq_tableRows x se ce pe hx0 hx1 hx2).symm

end Cert.KernelIdeal.Regions

end
-- ==== Proof.Sage80Region.lean ====
/-
  The first dense region's output array is max(agg · Wl + b + h · Wr, 0): every grid point writes its 4000-row block of
  that one whole-array function, and the 25 blocks cover the 100000 rows.
-/
import proofs.«400131_j88648124991069_1_alg».proof.Proof.Gen.KernelIdeal.Frame
import proofs.«400131_j88648124991069_1_alg».proof.Proof.Layers
import Idealize.ShloMosaic.PureOps.Ideal.Laws
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2 eq_ix2)

/-! ## The block's matrix product at an entry -/

private theorem blockDot_lhs_0 (i : S4000x64.Idx) (q : dot_S4000x80_S80x64_S4000x64_1_0_0_1_n_n.contr.Idx) :
    (dot_S4000x80_S80x64_S4000x64_1_0_0_1_n_n.lhsIdx i q 0).val = (i 0).val := by
  unfold DotDims.lhsIdx
  rw [dif_neg (show ¬(0 : Fin S4000x80.rank) ∈ dot_S4000x80_S80x64_S4000x64_1_0_0_1_n_n.lhsBatch by decide), dif_pos (show (0 : Fin S4000x80.rank) ∈ dot_S4000x80_S80x64_S4000x64_1_0_0_1_n_n.lhsNonContracting by decide)]
  rfl
private theorem blockDot_lhs_1 (i : S4000x64.Idx) (q : dot_S4000x80_S80x64_S4000x64_1_0_0_1_n_n.contr.Idx) :
    (dot_S4000x80_S80x64_S4000x64_1_0_0_1_n_n.lhsIdx i q 1).val = (q ⟨0, by decide⟩).val :=
  dot_S4000x80_S80x64_S4000x64_1_0_0_1_n_n.lhsIdx_val_of_single rfl i q
private theorem blockDot_rhs_0 (i : S4000x64.Idx) (q : dot_S4000x80_S80x64_S4000x64_1_0_0_1_n_n.contr.Idx) :
    (dot_S4000x80_S80x64_S4000x64_1_0_0_1_n_n.rhsIdx i q 0).val = (q ⟨0, by decide⟩).val :=
  dot_S4000x80_S80x64_S4000x64_1_0_0_1_n_n.rhsIdx_val_of_single rfl i q
private theorem blockDot_rhs_1 (i : S4000x64.Idx) (q : dot_S4000x80_S80x64_S4000x64_1_0_0_1_n_n.contr.Idx) :
    (dot_S4000x80_S80x64_S4000x64_1_0_0_1_n_n.rhsIdx i q 1).val = (i 1).val := by
  unfold DotDims.rhsIdx
  rw [dif_neg (show ¬(1 : Fin S80x64.rank) ∈ dot_S4000x80_S80x64_S4000x64_1_0_0_1_n_n.rhsBatch by decide), dif_pos (show (1 : Fin S80x64.rank) ∈ dot_S4000x80_S80x64_S4000x64_1_0_0_1_n_n.rhsNonContracting by decide)]
  rfl

/-- A block's product into the zero accumulator, at row `n` and column `j`: the sum over the 80 inner coordinates. -/
private theorem blockDot_apply {φ₁ φ₂ : FTy} (l : FVec Ideal S4000x80 φ₁) (r : FVec Ideal S80x64 φ₂) (n : Fin 4000) (j : Fin 64) :
    FloatOps.matmul dot_S4000x80_S80x64_S4000x64_1_0_0_1_n_n none l r (constant (F := Ideal) S4000x64 .f32 0x00000000#32) (ix2 n j)
      = ∑ k : Fin 80, l (ix2 n k) * r (ix2 k j) := by
  rw [Ideal.matmul_constant_zero_apply, ← Equiv.sum_comp (ValueIdx.contrEquiv1 dot_S4000x80_S80x64_S4000x64_1_0_0_1_n_n 80 rfl rfl).symm]
  refine Finset.sum_congr rfl fun k _ => ?_
  have hk := ValueIdx.contrEquiv1_symm_val dot_S4000x80_S80x64_S4000x64_1_0_0_1_n_n 80 rfl rfl k
  have el : dot_S4000x80_S80x64_S4000x64_1_0_0_1_n_n.lhsIdx (ix2 n j) ((ValueIdx.contrEquiv1 dot_S4000x80_S80x64_S4000x64_1_0_0_1_n_n 80 rfl rfl).symm k) = ix2 n k := funext fun a => Fin.ext (by
    match a with
    | ⟨0, _⟩ => exact blockDot_lhs_0 _ _
    | ⟨1, _⟩ => exact (blockDot_lhs_1 _ _).trans hk)
  have er : dot_S4000x80_S80x64_S4000x64_1_0_0_1_n_n.rhsIdx (ix2 n j) ((ValueIdx.contrEquiv1 dot_S4000x80_S80x64_S4000x64_1_0_0_1_n_n 80 rfl rfl).symm k) = ix2 k j := funext fun a => Fin.ext (by
    match a with
    | ⟨0, _⟩ => exact (blockDot_rhs_0 _ _).trans hk
    | ⟨1, _⟩ => exact blockDot_rhs_1 _ _)
  rw [el, er]

/-! ## The body's arithmetic at an entry -/

/-- The bias row repeated down a block's rows, at row `n` and column `j`, is the row's entry `j`. -/
private theorem biasRows_apply (b : Vec Ideal S1x64 .f32) (hc : S1x64.ShapeCasts S1x64) (hb : S1x64.Broadcasts S4000x64) (n : Fin 4000) (j : Fin 64) :
    broadcastTo S4000x64 (shapeCast S1x64 b hc) hb (ix2 n j) = b (ix2 (0 : Fin 1) j) := by
  rw [shapeCast_self]
  exact broadcastTo_apply b hb (ix2 n j) (ix2 (0 : Fin 1) j) (fun a => match a with
    | ⟨0, _⟩ => by show (0 : Nat) = if (1 : Nat) = 1 then 0 else _; rw [if_pos rfl]
    | ⟨1, _⟩ => by show j.val = if (64 : Nat) = 1 then 0 else _; rw [if_neg (by decide)]; rfl)

/-- The body's stored value at row `n` and column `j` of its block: the two products into zero accumulators added,
    the bias row's entry added, the larger of that and zero (the roundings to bf16 are the identity on extended reals). -/
private theorem pay_apply (a h : Vec Ideal S4000x80 .f32) (Wl Wr : Vec Ideal S80x64 .f32) (b : Vec Ideal S1x64 .f32) (n : Fin 4000) (j : Fin 64) :
    k1_pay1 (F := Ideal) a h Wl Wr b (ix2 n j)
      = max ((∑ k : Fin 80, a (ix2 n k) * Wl (ix2 k j) + ∑ k : Fin 80, h (ix2 n k) * Wr (ix2 k j)) + b (ix2 (0 : Fin 1) j)) 0 := by
  unfold k1_pay1
  rw [ValueIdx.maximumf_apply, ValueIdx.addf_apply, ValueIdx.addf_apply, biasRows_apply, ValueIdx.broadcast_apply]
  simp only [matmul]
  rw [blockDot_apply, blockDot_apply]
  simp only [ValueIdx.truncf_apply, shapeCast_self]
  show max _ (Ideal.ofBits .f32 0x00000000#32) = _
  rw [Ideal.ofBits_zero_f32]

/-! ## The layer at an entry -/

private theorem layerDot_lhs_0 (i : S100000x64.Idx) (q : Cert.ReferenceIdeal.dot_S100000x80_S80x64_S100000x64_1_0_0_1_n_n.contr.Idx) :
    (Cert.ReferenceIdeal.dot_S100000x80_S80x64_S100000x64_1_0_0_1_n_n.lhsIdx i q 0).val = (i 0).val := by
  unfold DotDims.lhsIdx
  rw [dif_neg (show ¬(0 : Fin S100000x80.rank) ∈ Cert.ReferenceIdeal.dot_S100000x80_S80x64_S100000x64_1_0_0_1_n_n.lhsBatch by decide), dif_pos (show (0 : Fin S100000x80.rank) ∈ Cert.ReferenceIdeal.dot_S100000x80_S80x64_S100000x64_1_0_0_1_n_n.lhsNonContracting by decide)]
  rfl
private theorem layerDot_lhs_1 (i : S100000x64.Idx) (q : Cert.ReferenceIdeal.dot_S100000x80_S80x64_S100000x64_1_0_0_1_n_n.contr.Idx) :
    (Cert.ReferenceIdeal.dot_S100000x80_S80x64_S100000x64_1_0_0_1_n_n.lhsIdx i q 1).val = (q ⟨0, by decide⟩).val :=
  Cert.ReferenceIdeal.dot_S100000x80_S80x64_S100000x64_1_0_0_1_n_n.lhsIdx_val_of_single rfl i q
private theorem layerDot_rhs_0 (i : S100000x64.Idx) (q : Cert.ReferenceIdeal.dot_S100000x80_S80x64_S100000x64_1_0_0_1_n_n.contr.Idx) :
    (Cert.ReferenceIdeal.dot_S100000x80_S80x64_S100000x64_1_0_0_1_n_n.rhsIdx i q 0).val = (q ⟨0, by decide⟩).val :=
  Cert.ReferenceIdeal.dot_S100000x80_S80x64_S100000x64_1_0_0_1_n_n.rhsIdx_val_of_single rfl i q
private theorem layerDot_rhs_1 (i : S100000x64.Idx) (q : Cert.ReferenceIdeal.dot_S100000x80_S80x64_S100000x64_1_0_0_1_n_n.contr.Idx) :
    (Cert.ReferenceIdeal.dot_S100000x80_S80x64_S100000x64_1_0_0_1_n_n.rhsIdx i q 1).val = (i 1).val := by
  unfold DotDims.rhsIdx
  rw [dif_neg (show ¬(1 : Fin S80x64.rank) ∈ Cert.ReferenceIdeal.dot_S100000x80_S80x64_S100000x64_1_0_0_1_n_n.rhsBatch by decide), dif_pos (show (1 : Fin S80x64.rank) ∈ Cert.ReferenceIdeal.dot_S100000x80_S80x64_S100000x64_1_0_0_1_n_n.rhsNonContracting by decide)]
  rfl

/-- The whole array's product at row `r` and column `j`: the sum over the 80 inner coordinates. -/
private theorem layerDot_apply {φ₁ φ₂ : FTy} (l : FVec Ideal S100000x80 φ₁) (w : FVec Ideal S80x64 φ₂) (r : Fin 100000) (j : Fin 64) :
    Host.dotGeneral (F := Ideal) Cert.ReferenceIdeal.dot_S100000x80_S80x64_S100000x64_1_0_0_1_n_n none l w (ix2 r j)
      = ∑ k : Fin 80, l (ix2 r k) * w (ix2 k j) := by
  simp only [Host.dotGeneral]
  rw [Ideal.dotGeneral_apply, ← Equiv.sum_comp (ValueIdx.contrEquiv1 Cert.ReferenceIdeal.dot_S100000x80_S80x64_S100000x64_1_0_0_1_n_n 80 rfl rfl).symm]
  refine Finset.sum_congr rfl fun k _ => ?_
  have hk := ValueIdx.contrEquiv1_symm_val Cert.ReferenceIdeal.dot_S100000x80_S80x64_S100000x64_1_0_0_1_n_n 80 rfl rfl k
  have el : Cert.ReferenceIdeal.dot_S100000x80_S80x64_S100000x64_1_0_0_1_n_n.lhsIdx (ix2 r j) ((ValueIdx.contrEquiv1 Cert.ReferenceIdeal.dot_S100000x80_S80x64_S100000x64_1_0_0_1_n_n 80 rfl rfl).symm k) = ix2 r k := funext fun a => Fin.ext (by
    match a with
    | ⟨0, _⟩ => exact layerDot_lhs_0 _ _
    | ⟨1, _⟩ => exact (layerDot_lhs_1 _ _).trans hk)
  have er : Cert.ReferenceIdeal.dot_S100000x80_S80x64_S100000x64_1_0_0_1_n_n.rhsIdx (ix2 r j) ((ValueIdx.contrEquiv1 Cert.ReferenceIdeal.dot_S100000x80_S80x64_S100000x64_1_0_0_1_n_n 80 rfl rfl).symm k) = ix2 k j := funext fun a => Fin.ext (by
    match a with
    | ⟨0, _⟩ => exact (layerDot_rhs_0 _ _).trans hk
    | ⟨1, _⟩ => exact layerDot_rhs_1 _ _)
  rw [el, er]

/-- The bias row repeated down the 100000 rows, at row `r` and column `j`, is the row's entry `j`. -/
private theorem biasDown_apply (b : Vec Ideal S1x64 .f32) (hb : S1x64.BroadcastsInDim S100000x64 (![0, 1] : Fin 2 → Fin S100000x64.rank)) (r : Fin 100000) (j : Fin 64) :
    broadcastInDim S100000x64 ![0, 1] hb b (ix2 r j) = b (ix2 (0 : Fin 1) j) :=
  broadcastInDim_apply _ hb b (ix2 r j) (ix2 (0 : Fin 1) j) (fun a => match a with
    | ⟨0, _⟩ => by show (0 : Nat) = if (1 : Nat) = 1 then 0 else _; rw [if_pos rfl]
    | ⟨1, _⟩ => by show j.val = if (64 : Nat) = 1 then 0 else _; rw [if_neg (by decide)]; rfl)

/-- The scalar zero repeated over the array is the extended real zero at every entry. -/
private theorem zeros_apply (hb : Cert.ReferenceIdeal.S_.BroadcastsInDim S100000x64 (![] : Fin 0 → Fin S100000x64.rank)) (i : S100000x64.Idx) :
    broadcastInDim S100000x64 ![] hb (constant (F := Ideal) Cert.ReferenceIdeal.S_ .f32 0x00000000#32) i = (0 : EReal) := by
  rw [broadcastInDim_apply _ hb _ i (fun a => a.elim0) (fun a => a.elim0), ValueIdx.constant_apply, Ideal.ofBits_zero_f32]

/-- The first layer's dense part at row `r` and column `j`. -/
private theorem sage80_apply (agg h : Vec Ideal S100000x80 .f32) (Wl : Vec Ideal S80x64 .f32) (b : Vec Ideal S1x64 .f32) (Wr : Vec Ideal S80x64 .f32) (r : Fin 100000) (j : Fin 64) :
    Cert.Layers.sage80 (F := Ideal) agg h Wl b Wr (ix2 r j)
      = max ((∑ k : Fin 80, agg (ix2 r k) * Wl (ix2 k j) + b (ix2 (0 : Fin 1) j)) + ∑ k : Fin 80, h (ix2 r k) * Wr (ix2 k j)) 0 := by
  unfold Cert.Layers.sage80
  rw [ValueIdx.maximumf_apply, ValueIdx.addf_apply, ValueIdx.addf_apply, layerDot_apply, layerDot_apply, biasDown_apply, zeros_apply]

/-! ## From the blocks to the array -/

-- the TensorCore's buffer contents when the region is entered
variable (V : (c : Dev nD) → (b : Ref sig .tc) → Buf (Elt Ideal) ((c : Thread nD τ).loc b))

private theorem zeroOffsets : (![0, 0] : Fin 2 → Nat) = fun _ => 0 := funext fun a => by
  match a with
  | ⟨0, _⟩ => rfl
  | ⟨1, _⟩ => rfl

/-- Where each window's block sits at grid point `t`: the two row-blocked inputs and the output at block row `t`, the
    weights and the bias row at their one block (decided over the 25 points). -/
private theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated features' block at point `t` is rows `4000 t … 4000 t + 3999` of the array. -/
private theorem aggBlock_apply (c : Dev nD) (t : Fin cfg1.N) (p : S4000x80.Idx) (q : S100000x80.Idx)
    (hq0 : (q 0).val = t.val * 4000 + (p 0).val) (hq1 : (q 1).val = (p 1).val) :
    (iblk1 V c 0 t : Vec Ideal S4000x80 .f32) p = (V c main_v31 : Vec Ideal S100000x80 .f32) q := by
  obtain ⟨e0, e1, -⟩ := blockIndex t
  unfold iblk1
  rw [View.read_apply]
  show V c main_v31 _ = V c main_v31 _
  congr 1
  funext a
  apply Fin.ext
  match a with
  | ⟨0, _⟩ => show win1_0.index t (0 : Fin 2) * 4000 + 1 * (p 0).val = (q 0).val; omega
  | ⟨1, _⟩ => show win1_0.index t (1 : Fin 2) * 80 + 1 * (p 1).val = (q 1).val; omega

/-- The node features' block at point `t` is rows `4000 t … 4000 t + 3999` of the array. -/
private theorem featBlock_apply (c : Dev nD) (t : Fin cfg1.N) (p : S4000x80.Idx) (q : S100000x80.Idx)
    (hq0 : (q 0).val = t.val * 4000 + (p 0).val) (hq1 : (q 1).val = (p 1).val) :
    (iblk1 V c 1 t : Vec Ideal S4000x80 .f32) p = (V c main_v10 : Vec Ideal S100000x80 .f32) q := by
  obtain ⟨-, -, e0, e1, -⟩ := blockIndex t
  unfold iblk1
  rw [View.read_apply]
  show V c main_v10 _ = V c main_v10 _
  congr 1
  funext a
  apply Fin.ext
  match a with
  | ⟨0, _⟩ => show win1_1.index t (0 : Fin 2) * 4000 + 1 * (p 0).val = (q 0).val; omega
  | ⟨1, _⟩ => show win1_1.index t (1 : Fin 2) * 80 + 1 * (p 1).val = (q 1).val; omega

/-- The left weights' block at every point is the whole array. -/
private theorem wlBlock_eq (c : Dev nD) (t : Fin cfg1.N) :
    (iblk1 V c 2 t : Vec Ideal S80x64 .f32) = (V c main_arg6 : Vec Ideal S80x64 .f32) := by
  obtain ⟨-, -, -, -, e0, e1, -⟩ := blockIndex t
  funext p
  unfold iblk1
  rw [View.read_apply]
  show V c main_arg6 _ = V c main_arg6 _
  congr 1
  funext a
  apply Fin.ext
  match a with
  | ⟨0, _⟩ => show win1_2.index t (0 : Fin 2) * 80 + 1 * (p 0).val = (p 0).val; omega
  | ⟨1, _⟩ => show win1_2.index t (1 : Fin 2) * 64 + 1 * (p 1).val = (p 1).val; omega

/-- The bias row's block at every point is the whole row. -/
private theorem biasBlock_eq (c : Dev nD) (t : Fin cfg1.N) :
    (iblk1 V c 3 t : Vec Ideal S1x64 .f32) = (V c main_v32 : Vec Ideal S1x64 .f32) := by
  obtain ⟨-, -, -, -, -, -, e0, e1, -⟩ := blockIndex t
  funext p
  unfold iblk1
  rw [View.read_apply]
  show V c main_v32 _ = V c main_v32 _
  congr 1
  funext a
  apply Fin.ext
  match a with
  | ⟨0, _⟩ => show win1_3.index t (0 : Fin 2) * 1 + 1 * (p 0).val = (p 0).val; omega
  | ⟨1, _⟩ => show win1_3.index t (1 : Fin 2) * 64 + 1 * (p 1).val = (p 1).val; omega

/-- The right weights' block at every point is the whole array. -/
private theorem wrBlock_eq (c : Dev nD) (t : Fin cfg1.N) :
    (iblk1 V c 4 t : Vec Ideal S80x64 .f32) = (V c main_arg8 : Vec Ideal S80x64 .f32) := by
  obtain ⟨-, -, -, -, -, -, -, -, e0, e1, -⟩ := blockIndex t
  funext p
  unfold iblk1
  rw [View.read_apply]
  show V c main_arg8 _ = V c main_arg8 _
  congr 1
  funext a
  apply Fin.ext
  match a with
  | ⟨0, _⟩ => show win1_4.index t (0 : Fin 2) * 80 + 1 * (p 0).val = (p 0).val; omega
  | ⟨1, _⟩ => show win1_4.index t (1 : Fin 2) * 64 + 1 * (p 1).val = (p 1).val; omega

/-- ONE ENTRY: when the two row-blocked inputs are rows `4000 T + ·` of the arrays and the weights and the bias row are
    whole, the body's value at `y` is the layer at row `4000 T + y₀`, column `y₁`. The body adds the two products and
    then the bias, the layer adds the bias between them: addition on the extended reals commutes and associates. -/
private theorem entry_eq (agg h : Vec Ideal S100000x80 .f32) (Wl Wr : Vec Ideal S80x64 .f32) (b : Vec Ideal S1x64 .f32)
    (x0 x1 : Vec Ideal S4000x80 .f32) (T : Nat) (y : S4000x64.Idx) (i : S100000x64.Idx)
    (hi0 : (i 0).val = T * 4000 + (y 0).val) (hi1 : (i 1).val = (y 1).val)
    (h0 : ∀ (p : S4000x80.Idx) (q : S100000x80.Idx), (q 0).val = T * 4000 + (p 0).val → (q 1).val = (p 1).val → x0 p = agg q)
    (h1 : ∀ (p : S4000x80.Idx) (q : S100000x80.Idx), (q 0).val = T * 4000 + (p 0).val → (q 1).val = (p 1).val → x1 p = h q) :
    k1_pay1 (F := Ideal) x0 x1 Wl Wr b y = Cert.Layers.sage80 (F := Ideal) agg h Wl b Wr i := by
  obtain ⟨n, j, rfl⟩ : ∃ (n : Fin 4000) (j : Fin 64), y = ix2 n j := ⟨y 0, y 1, eq_ix2 y⟩
  obtain ⟨r, j', rfl⟩ : ∃ (r : Fin 100000) (j' : Fin 64), i = ix2 r j' := ⟨i 0, i 1, eq_ix2 i⟩
  obtain rfl : j' = j := Fin.ext hi1
  rw [pay_apply, sage80_apply]
  have e0 : ∀ k : Fin 80, x0 (ix2 n k) = agg (ix2 r k) := fun k => h0 _ _ hi0 rfl
  have e1 : ∀ k : Fin 80, x1 (ix2 n k) = h (ix2 r k) := fun k => h1 _ _ hi0 rfl
  simp only [e0, e1]
  rw [add_right_comm]

/-- WHAT POINT `t` WRITES BACK is block `t` of the layer applied to the arrays the region is entered with. -/
private theorem flushed_eq (c : Dev nD) (t : Fin cfg1.N) :
    (dat1 (F := Ideal) V c).flushed 5 t
      = ((cfg1.win 5).blk t).view.read (Elt Ideal) (Cert.Layers.sage80 (F := Ideal) (V c main_v31) (V c main_v10) (V c main_arg6) (V c main_v32) (V c main_arg8)) := by
  show (cfg1.win 5).cut (grid1.coords t) ((dat1 V c).after 5 t) = _
  rw [after1_5]
  unfold out1_5
  rw [View.canon_unit_zero zeroOffsets]
  simp only [View.ld_unit_zero (S := S4000x80) zeroOffsets, View.ld_unit_zero (S := S80x64) zeroOffsets, View.ld_unit_zero (S := S1x64) zeroOffsets]
  rw [wlBlock_eq V c t, biasBlock_eq V c t, wrBlock_eq V c t]
  obtain ⟨-, -, -, -, -, -, -, -, -, -, e0, e1⟩ := blockIndex t
  funext y
  show k1_pay1 (F := Ideal) (iblk1 V c 0 t) (iblk1 V c 1 t) (V c main_arg6) (V c main_arg8) (V c main_v32) y
    = Cert.Layers.sage80 (F := Ideal) (V c main_v31) (V c main_v10) (V c main_arg6) (V c main_v32) (V c main_arg8) (((cfg1.win 5).blk t).view.emb y)
  refine entry_eq (V c main_v31) (V c main_v10) (V c main_arg6) (V c main_arg8) (V c main_v32) (iblk1 V c 0 t) (iblk1 V c 1 t) t.val y (((cfg1.win 5).blk t).view.emb y) ?_ ?_ (aggBlock_apply V c t) (featBlock_apply V c t)
  · show win1_5.index t (0 : Fin 2) * 4000 + 1 * (y 0).val = t.val * 4000 + (y 0).val
    omega
  · show win1_5.index t (1 : Fin 2) * 64 + 1 * (y 1).val = (y 1).val
    omega

/-- An index of the output array is in point `t`'s block iff each coordinate is in the block's range on its axis. -/
private theorem mem_block (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v33).slice (win1_5.rect t)).set ↔ _
  rw [View.set_slice_whole, Rect.mem_set_unit]
  exact Iff.rfl

/-- Row `r` of the output array is in the block of point `r / 4000`: the 25 blocks cover the array. -/
private theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, -, -, e0, e1⟩ := blockIndex t
  refine ⟨t, flush1_5 t, ?_⟩
  rw [mem_block]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- Region 1 leaves, in its output array, the first layer's dense part of the arrays it is entered with. -/
theorem sage80_array (c : Dev nD) :
    (dat1 (F := Ideal) V c).arrAt 5 cfg1.N
      = Cert.Layers.sage80 (F := Ideal) (V c main_v31) (V c main_v10) (V c main_arg6) (V c main_v32) (V c main_arg8) := by
  exact (dat1 (F := Ideal) V c).arrAt_eq_of_cover 5 _ (fun t _ => flushed_eq V c t) covered

end Cert.KernelIdeal.Regions

end
-- ==== Proof.Sage64Region.lean ====
/-
  The second dense region's output array is the second layer's dense part, max(agg · Wl + b + h · Wr, 0), of the arrays
  the region is entered with.

  At entry (r, q) of its 4000-row block the body stores max((Σ_k x0[r,k]·x2[k,q] + Σ_k x1[r,k]·x4[k,q]) + x3[0,q], 0): two
  products into zero accumulators (the narrowing casts are the identity on extended reals), the bias row repeated down
  the rows, the maximum with zero. At grid point t the two row blocks x0, x1 are rows 4000·t … 4000·t + 3999 of agg and h,
  and x2, x3, x4 are Wl, b, Wr whole. The layer at entry (n, q) is max((Σ_k agg[n,k]·Wl[k,q] + b[0,q]) + Σ_k h[n,k]·Wr[k,q], 0).
  With n = 4000·t + r the two agree up to the order of the three summands (addition of extended reals is commutative
  and associative; nothing needs to be finite). So what point t writes back is block t of the layer, the 25 blocks
  cover the 100000 rows, and the array after the region is the layer.
-/
import proofs.«400131_j88648124991069_1_alg».proof.Proof.Gen.KernelIdeal.Frame
import proofs.«400131_j88648124991069_1_alg».proof.Proof.Layers
import Idealize.ShloMosaic.PureOps.Ideal.Laws
import Idealize.ShloMosaic.Lib.ValueIdx
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

section BlockProduct

open Idealize.ShloMosaic.ValueIdx

/-! ## The two matrix products as sums over the 64 contracted columns -/

/-- The block product's dimension numbers: rows of the left operand against columns of the right. -/
private abbrev dK := dot_S4000x64_S64x64_S4000x64_1_0_0_1_n_n
/-- The whole-array product's dimension numbers, the same lists at 100000 rows. -/
private abbrev dR := Cert.ReferenceIdeal.dot_S100000x64_S64x64_S100000x64_1_0_0_1_n_n

private theorem lhsK_0 (i : S4000x64.Idx) (q : dK.contr.Idx) : (dK.lhsIdx i q 0).val = (i 0).val := by
  unfold DotDims.lhsIdx
  rw [dif_neg (show ¬(0 : Fin S4000x64.rank) ∈ dK.lhsBatch by decide), dif_pos (show (0 : Fin S4000x64.rank) ∈ dK.lhsNonContracting by decide)]
  rfl
private theorem lhsK_1 (i : S4000x64.Idx) (q : dK.contr.Idx) : (dK.lhsIdx i q 1).val = (q ⟨0, by decide⟩).val :=
  dK.lhsIdx_val_of_single rfl i q
private theorem rhsK_0 (i : S4000x64.Idx) (q : dK.contr.Idx) : (dK.rhsIdx i q 0).val = (q ⟨0, by decide⟩).val :=
  dK.rhsIdx_val_of_single rfl i q
private theorem rhsK_1 (i : S4000x64.Idx) (q : dK.contr.Idx) : (dK.rhsIdx i q 1).val = (i 1).val := by
  unfold DotDims.rhsIdx
  rw [dif_neg (show ¬(1 : Fin S64x64.rank) ∈ dK.rhsBatch by decide), dif_pos (show (1 : Fin S64x64.rank) ∈ dK.rhsNonContracting by decide)]
  rfl

/-- Entry (r, q) of a 4000-row block product: the sum over k of L[r,k] · R[k,q]. -/
private theorem sumK (L : S4000x64.Idx → EReal) (R : S64x64.Idx → EReal) (r : Fin 4000) (q : Fin 64) :
    ∑ k : dK.contr.Idx, L (dK.lhsIdx (ix2 r q) k) * R (dK.rhsIdx (ix2 r q) k) = ∑ k : Fin 64, L (ix2 r k) * R (ix2 k q) := by
  rw [← Equiv.sum_comp (contrEquiv1 dK 64 rfl rfl).symm]
  refine Finset.sum_congr rfl fun k _ => ?_
  have hk := contrEquiv1_symm_val dK 64 rfl rfl k
  have el : dK.lhsIdx (ix2 r q) ((contrEquiv1 dK 64 rfl rfl).symm k) = ix2 r k := funext fun a => Fin.ext (by
    match a with
    | ⟨0, _⟩ => exact lhsK_0 _ _
    | ⟨1, _⟩ => exact (lhsK_1 _ _).trans hk)
  have er : dK.rhsIdx (ix2 r q) ((contrEquiv1 dK 64 rfl rfl).symm k) = ix2 k q := funext fun a => Fin.ext (by
    match a with
    | ⟨0, _⟩ => exact (rhsK_0 _ _).trans hk
    | ⟨1, _⟩ => exact rhsK_1 _ _)
  rw [el, er]

end BlockProduct

section BodyEntry

open Idealize.ShloMosaic.ValueIdx

private theorem lhsR_0 (i : Cert.ReferenceIdeal.S100000x64.Idx) (q : dR.contr.Idx) : (dR.lhsIdx i q 0).val = (i 0).val := by
  unfold DotDims.lhsIdx
  rw [dif_neg (show ¬(0 : Fin Cert.ReferenceIdeal.S100000x64.rank) ∈ dR.lhsBatch by decide), dif_pos (show (0 : Fin Cert.ReferenceIdeal.S100000x64.rank) ∈ dR.lhsNonContracting by decide)]
  rfl
private theorem lhsR_1 (i : Cert.ReferenceIdeal.S100000x64.Idx) (q : dR.contr.Idx) : (dR.lhsIdx i q 1).val = (q ⟨0, by decide⟩).val :=
  dR.lhsIdx_val_of_single rfl i q
private theorem rhsR_0 (i : Cert.ReferenceIdeal.S100000x64.Idx) (q : dR.contr.Idx) : (dR.rhsIdx i q 0).val = (q ⟨0, by decide⟩).val :=
  dR.rhsIdx_val_of_single rfl i q
private theorem rhsR_1 (i : Cert.ReferenceIdeal.S100000x64.Idx) (q : dR.contr.Idx) : (dR.rhsIdx i q 1).val = (i 1).val := by
  unfold DotDims.rhsIdx
  rw [dif_neg (show ¬(1 : Fin Cert.ReferenceIdeal.S64x64.rank) ∈ dR.rhsBatch by decide), dif_pos (show (1 : Fin Cert.ReferenceIdeal.S64x64.rank) ∈ dR.rhsNonContracting by decide)]
  rfl

/-- Entry (n, q) of the whole-array product: the sum over k of L[n,k] · R[k,q]. -/
private theorem sumR (L : S100000x64.Idx → EReal) (R : S64x64.Idx → EReal) (n : Fin 100000) (q : Fin 64) :
    ∑ k : dR.contr.Idx, L (dR.lhsIdx (ix2 n q) k) * R (dR.rhsIdx (ix2 n q) k) = ∑ k : Fin 64, L (ix2 n k) * R (ix2 k q) := by
  rw [← Equiv.sum_comp (contrEquiv1 dR 64 rfl rfl).symm]
  refine Finset.sum_congr rfl fun k _ => ?_
  have hk := contrEquiv1_symm_val dR 64 rfl rfl k
  have el : dR.lhsIdx (ix2 n q) ((contrEquiv1 dR 64 rfl rfl).symm k) = ix2 n k := funext fun a => Fin.ext (by
    match a with
    | ⟨0, _⟩ => exact lhsR_0 _ _
    | ⟨1, _⟩ => exact (lhsR_1 _ _).trans hk)
  have er : dR.rhsIdx (ix2 n q) ((contrEquiv1 dR 64 rfl rfl).symm k) = ix2 k q := funext fun a => Fin.ext (by
    match a with
    | ⟨0, _⟩ => exact (rhsR_0 _ _).trans hk
    | ⟨1, _⟩ => exact rhsR_1 _ _)
  rw [el, er]

/-! ## The body's arithmetic and the layer, each at one entry -/

/-- What the body stores at entry (r, q) of its block: max((Σ_k x0[r,k]·x2[k,q] + Σ_k x1[r,k]·x4[k,q]) + x3[0,q], 0). -/
private theorem pay_apply (x0 x1 : Vec Ideal S4000x64 .f32) (x2 x4 : Vec Ideal S64x64 .f32) (x3 : Vec Ideal S1x64 .f32)
    (r : Fin 4000) (q : Fin 64) :
    k2_pay1 (F := Ideal) x0 x1 x2 x4 x3 (ix2 r q)
      = max ((∑ k : Fin 64, x0 (ix2 r k) * x2 (ix2 k q) + ∑ k : Fin 64, x1 (ix2 r k) * x4 (ix2 k q)) + x3 (ix2 0 q)) 0 := by
  unfold k2_pay1
  simp only [matmul]
  rw [shapeCast_self, shapeCast_self, shapeCast_self]
  have hA : ∀ (a : Vec Ideal S4000x64 .f32) (w : Vec Ideal S64x64 .f32),
      FloatOps.matmul (F := Ideal) dK none (truncf (F := Ideal) .bf16 a bitsLt_bf16_f32) (truncf (F := Ideal) .bf16 w bitsLt_bf16_f32) (constant (F := Ideal) S4000x64 .f32 0#32) (ix2 r q)
        = ∑ k : Fin 64, a (ix2 r k) * w (ix2 k q) := fun a w =>
    (Ideal.matmul_constant_zero_apply dK none (truncf (F := Ideal) .bf16 a bitsLt_bf16_f32) (truncf (F := Ideal) .bf16 w bitsLt_bf16_f32) (ix2 r q)).trans
      (sumK (truncf (F := Ideal) .bf16 a bitsLt_bf16_f32) (truncf (F := Ideal) .bf16 w bitsLt_bf16_f32) r q)
  have hB : broadcastTo S4000x64 x3 broadcasts_S1x64_S4000x64 (ix2 r q) = x3 (ix2 0 q) :=
    broadcastTo_apply x3 _ (ix2 r q) (ix2 0 q) (fun a => match a with
      | ⟨0, _⟩ => by show (0 : Nat) = if (1 : Nat) = 1 then 0 else _; rw [if_pos rfl]
      | ⟨1, _⟩ => by show q.val = if (64 : Nat) = 1 then 0 else q.val; rw [if_neg (by decide)])
  rw [maximumf_apply, addf_apply, addf_apply, broadcast_apply, hA, hA, hB]
  show max _ (Ideal.ofBits .f32 0x00000000#32) = _
  rw [Ideal.ofBits_zero_f32]

end BodyEntry

section LayerEntry

open Idealize.ShloMosaic.ValueIdx

/-- The layer at entry (n, q): max((Σ_k agg[n,k]·Wl[k,q] + b[0,q]) + Σ_k h[n,k]·Wr[k,q], 0). -/
private theorem sage64_apply (agg h : (⟨Cert.ReferenceIdeal.S100000x64, .f32⟩ : BufTy).Contents (Elt Ideal))
    (Wl : (⟨Cert.ReferenceIdeal.S64x64, .f32⟩ : BufTy).Contents (Elt Ideal)) (b : (⟨Cert.ReferenceIdeal.S1x64, .f32⟩ : BufTy).Contents (Elt Ideal))
    (Wr : (⟨Cert.ReferenceIdeal.S64x64, .f32⟩ : BufTy).Contents (Elt Ideal)) (n : Fin 100000) (q : Fin 64) :
    Cert.Layers.sage64 (F := Ideal) agg h Wl b Wr (ix2 n q)
      = max ((∑ k : Fin 64, agg (ix2 n k) * Wl (ix2 k q) + b (ix2 0 q)) + ∑ k : Fin 64, h (ix2 n k) * Wr (ix2 k q)) 0 := by
  unfold Cert.Layers.sage64
  simp only [Host.dotGeneral]
  have hA : ∀ (a : (⟨Cert.ReferenceIdeal.S100000x64, .f32⟩ : BufTy).Contents (Elt Ideal)) (w : (⟨Cert.ReferenceIdeal.S64x64, .f32⟩ : BufTy).Contents (Elt Ideal)),
      FloatOps.dotGeneral (F := Ideal) (φ₁ := .f32) (φ₂ := .f32) dR none HostSchedule.single a w (ix2 n q) = ∑ k : Fin 64, a (ix2 n k) * w (ix2 k q) := fun a w =>
    (Ideal.dotGeneral_apply (φ₁ := .f32) (φ₂ := .f32) dR none HostSchedule.single a w (ix2 n q)).trans (sumR a w n q)
  have hB : ∀ hb, broadcastInDim Cert.ReferenceIdeal.S100000x64 ![0, 1] hb b (ix2 n q) = b (ix2 0 q) := fun hb =>
    broadcastInDim_apply _ hb b (ix2 n q) (ix2 0 q) (fun a => match a with
      | ⟨0, _⟩ => by show (0 : Nat) = if (1 : Nat) = 1 then 0 else _; rw [if_pos rfl]
      | ⟨1, _⟩ => by show q.val = if (64 : Nat) = 1 then 0 else q.val; rw [if_neg (by decide)])
  rw [maximumf_apply, addf_apply, addf_apply, hA, hA, hB]
  show max _ (Ideal.ofBits .f32 0x00000000#32) = _
  rw [Ideal.ofBits_zero_f32]

end LayerEntry

section Blocks

open Idealize.ShloMosaic.ValueIdx

/-- Entry (r, q) of the block the body stores is entry (n, q) of the layer, when rows r of the two row blocks are rows n
    of agg and h and the other three blocks are Wl, b, Wr themselves: the two sides differ by the order of the three
    summands only. -/
private theorem point_eq (agg h : (⟨Cert.ReferenceIdeal.S100000x64, .f32⟩ : BufTy).Contents (Elt Ideal))
    (Wl : (⟨Cert.ReferenceIdeal.S64x64, .f32⟩ : BufTy).Contents (Elt Ideal)) (b : (⟨Cert.ReferenceIdeal.S1x64, .f32⟩ : BufTy).Contents (Elt Ideal))
    (Wr : (⟨Cert.ReferenceIdeal.S64x64, .f32⟩ : BufTy).Contents (Elt Ideal))
    (x0 x1 : Vec Ideal S4000x64 .f32) (x2 x4 : Vec Ideal S64x64 .f32) (x3 : Vec Ideal S1x64 .f32)
    (r : Fin 4000) (n : Fin 100000) (q : Fin 64)
    (h0 : ∀ k : Fin 64, x0 (ix2 r k) = agg (ix2 n k)) (h1 : ∀ k : Fin 64, x1 (ix2 r k) = h (ix2 n k))
    (h2 : ∀ k : Fin 64, x2 (ix2 k q) = Wl (ix2 k q)) (h4 : ∀ k : Fin 64, x4 (ix2 k q) = Wr (ix2 k q))
    (h3 : x3 (ix2 0 q) = b (ix2 0 q)) :
    k2_pay1 (F := Ideal) x0 x1 x2 x4 x3 (ix2 r q) = Cert.Layers.sage64 (F := Ideal) agg h Wl b Wr (ix2 n q) := by
  have e0 : ∑ k : Fin 64, x0 (ix2 r k) * x2 (ix2 k q) = ∑ k : Fin 64, agg (ix2 n k) * Wl (ix2 k q) :=
    Finset.sum_congr rfl fun k _ => by rw [h0 k, h2 k]
  have e1 : ∑ k : Fin 64, x1 (ix2 r k) * x4 (ix2 k q) = ∑ k : Fin 64, h (ix2 n k) * Wr (ix2 k q) :=
    Finset.sum_congr rfl fun k _ => by rw [h1 k, h4 k]
  rw [pay_apply, sage64_apply, h3, e0, e1, add_right_comm]

/-- The layer of the arrays the region is entered with. -/
private abbrev layer (c : Dev nD) : (⟨Cert.ReferenceIdeal.S100000x64, .f32⟩ : BufTy).Contents (Elt Ideal) :=
  Cert.Layers.sage64 (F := Ideal) (V c main_v45) (V c main_v33) (V c main_arg9) (V c main_v46) (V c main_arg11)

private theorem hz : (![0, 0] : Fin 2 → Nat) = fun _ => 0 := funext fun a => by fin_cases a <;> rfl

/-- The index maps over the 25 grid points: the two row-blocked inputs move with the output, block t at rows
    4000·t onwards and all 64 columns; the weights and the bias row stay whole. -/
private theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 25 :=
  (by decide +kernel : ∀ t : Fin grid2.N, _)

end Blocks

section Array

open Idealize.ShloMosaic.ValueIdx

/-- What point t writes back to the output array is block t of the layer. -/
private theorem flushed5_eq (c : Dev nD) (t : Fin cfg2.N) :
    (dat2 (F := Ideal) V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S4000x64) hz, View.ld_unit_zero (S := S64x64) hz, View.ld_unit_zero (S := S1x64) hz]
  obtain ⟨e00, e01, e10, e11, e20, e21, e30, e31, e40, e41, e50, e51, ht⟩ := idx_facts t
  refine funext fun j => ?_
  obtain ⟨r, q, rfl⟩ : ∃ (r : Fin 4000) (q : Fin 64), j = ix2 r q := ⟨j 0, j 1, eq_ix2 j⟩
  have hr := r.isLt
  have hn : win2_5.index t (0 : Fin 2) * 4000 + r.val < 100000 := by omega
  -- the row blocks at (r, k) are the arrays at (4000·t + r, k); the whole blocks are the arrays
  have m0 : ∀ k : Fin 64, ((cfg2.win 0).blk t).view.emb (ix2 r k) = ix2 (⟨win2_5.index t (0 : Fin 2) * 4000 + r.val, hn⟩ : Fin 100000) k := fun k => by
    funext a; apply Fin.ext
    match a with
    | ⟨0, _⟩ => show win2_0.index t (0 : Fin 2) * 4000 + 1 * r.val = win2_5.index t (0 : Fin 2) * 4000 + r.val; omega
    | ⟨1, _⟩ => show win2_0.index t (1 : Fin 2) * 64 + 1 * k.val = k.val; omega
  have m1 : ∀ k : Fin 64, ((cfg2.win 1).blk t).view.emb (ix2 r k) = ix2 (⟨win2_5.index t (0 : Fin 2) * 4000 + r.val, hn⟩ : Fin 100000) k := fun k => by
    funext a; apply Fin.ext
    match a with
    | ⟨0, _⟩ => show win2_1.index t (0 : Fin 2) * 4000 + 1 * r.val = win2_5.index t (0 : Fin 2) * 4000 + r.val; omega
    | ⟨1, _⟩ => show win2_1.index t (1 : Fin 2) * 64 + 1 * k.val = k.val; omega
  have m2 : ∀ k : Fin 64, ((cfg2.win 2).blk t).view.emb (ix2 k q) = ix2 k q := fun k => by
    funext a; apply Fin.ext
    match a with
    | ⟨0, _⟩ => show win2_2.index t (0 : Fin 2) * 64 + 1 * k.val = k.val; omega
    | ⟨1, _⟩ => show win2_2.index t (1 : Fin 2) * 64 + 1 * q.val = q.val; omega
  have m4 : ∀ k : Fin 64, ((cfg2.win 4).blk t).view.emb (ix2 k q) = ix2 k q := fun k => by
    funext a; apply Fin.ext
    match a with
    | ⟨0, _⟩ => show win2_4.index t (0 : Fin 2) * 64 + 1 * k.val = k.val; omega
    | ⟨1, _⟩ => show win2_4.index t (1 : Fin 2) * 64 + 1 * q.val = q.val; omega
  have m3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 64 + 1 * q.val = q.val; omega
  have m5 : ((cfg2.win 5).blk t).view.emb (ix2 r q) = ix2 (⟨win2_5.index t (0 : Fin 2) * 4000 + r.val, hn⟩ : Fin 100000) q := by
    funext a; apply Fin.ext
    match a with
    | ⟨0, _⟩ => show win2_5.index t (0 : Fin 2) * 4000 + 1 * r.val = win2_5.index t (0 : Fin 2) * 4000 + r.val; omega
    | ⟨1, _⟩ => show win2_5.index t (1 : Fin 2) * 64 + 1 * q.val = q.val; omega
  show k2_pay1 (F := Ideal) (iblk2 V c 0 t) (iblk2 V c 1 t) (iblk2 V c 2 t) (iblk2 V c 4 t) (iblk2 V c 3 t) (ix2 r q)
    = layer V c (((cfg2.win 5).blk t).view.emb (ix2 r q))
  rw [m5]
  exact point_eq (V c main_v45) (V c main_v33) (V c main_arg9) (V c main_v46) (V c main_arg11)
    (iblk2 V c 0 t) (iblk2 V c 1 t) (iblk2 V c 2 t) (iblk2 V c 4 t) (iblk2 V c 3 t) r ⟨_, hn⟩ q
    (fun k => congrArg (V c main_v45) (m0 k)) (fun k => congrArg (V c main_v33) (m1 k))
    (fun k => congrArg (V c main_arg9) (m2 k)) (fun k => congrArg (V c main_arg11) (m4 k))
    (congrArg (V c main_v46) m3)

end Array

section Final

open Idealize.ShloMosaic.ValueIdx

/-- An index of the output array is in point t's block iff each coordinate is in the block's range on its axis. -/
private theorem mem_blk5 (t : Fin cfg2.N) (i : S100000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole main_v47).slice (win2_5.rect t)).set ↔ _
  rw [View.set_slice_whole, Rect.mem_set_unit]
  exact Iff.rfl

/-- The 25 blocks of 4000 rows cover the 100000 rows: row n lies in block n / 4000. -/
private theorem cover5 (i : S100000x64.Idx) :
    ∃ t : Fin cfg2.N, (cfg2.win 5).flush t = true ∧ i ∈ ((cfg2.win 5).blk t).view.set := by
  have hi0 : (i 0).val < 100000 := idx2_lt0 i
  have hi1 : (i 1).val < 64 := idx2_lt1 i
  have hN : cfg2.N = 25 := N_2
  let t : Fin cfg2.N := ⟨(i 0).val / 4000, by rw [hN]; omega⟩
  obtain ⟨-, -, -, -, -, -, -, -, -, -, e50, e51, -⟩ := idx_facts t
  have e50' : win2_5.index t (0 : Fin 2) = (i 0).val / 4000 := e50
  refine ⟨t, flush2_5 t, ?_⟩
  rw [mem_blk5]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 64 ≤ (i 1).val ∧ (i 1).val < win2_5.index t (1 : Fin 2) * 64 + 64; omega

end Final

/-- Region 2 leaves, in its output array, the second layer's dense part of the arrays it is entered with. -/
theorem sage64_array (c : Dev nD) :
    (dat2 (F := Ideal) V c).arrAt 5 cfg2.N
      = Cert.Layers.sage64 (F := Ideal) (V c main_v45) (V c main_v33) (V c main_arg9) (V c main_v46) (V c main_arg11) := by
  exact (dat2 (F := Ideal) V c).arrAt_eq_of_cover 5 (layer V c) (fun t _ => flushed5_eq V c t) cover5

end Cert.KernelIdeal.Regions

end
-- ==== Proof.ClassifierRegion.lean ====
/-
  The classifier region's output array is `hg · Wc + bc`.

  The region's grid has one point, and at it every window's block is its whole array: the pooled graph features
  `hg` [5000, 64], the weights `Wc` [64, 10], the bias as one row `bc` [1, 10], and the output [5000, 10]. At entry
  (g, j) the body stores Σ_k hg[g, k] · Wc[k, j] + bc[0, j]: a matrix product accumulated into zeros, its operands
  passed through a narrower float format (the identity on extended reals), plus the bias row repeated down the rows.
  The reference's classifier head is the host's product of the same two arrays plus the same row broadcast: entry by
  entry the same sum over the 64 hidden columns. So the one block written back is the classifier head of the arrays
  found at entry, and since that block covers the output array, the array ends holding it.
-/
import proofs.«400131_j88648124991069_1_alg».proof.Proof.Gen.KernelIdeal.Frame
import proofs.«400131_j88648124991069_1_alg».proof.Proof.Layers
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat Cfg Window)
open Idealize.ShloMosaic.ValueIdx

-- the TensorCore's buffer contents when the region is entered
variable (V : (c : Dev nD) → (b : Ref sig .tc) → Buf (Elt Ideal) ((c : Thread nD τ).loc b))

/-- Over whole arrays the body's stored value is the classifier head: its product into a zero accumulator is the
    reference's product (the same sum over the 64 hidden columns; the bf16 casts change nothing on extended reals),
    and both add row 0 of the bias at column `j`. -/
private theorem payload_eq_classify (x0 : Vec Ideal S5000x64 .f32) (x1 : Vec Ideal S64x10 .f32) (x2 : Vec Ideal S1x10 .f32) :
    (k3_pay1 (F := Ideal) x0 x1 x2 : S5000x10.Idx → EReal) = Cert.Layers.classify (F := Ideal) x0 x1 x2 := by
  unfold k3_pay1 Cert.Layers.classify
  funext i
  obtain ⟨g, j, rfl⟩ : ∃ (g : Fin 5000) (j : Fin 10), i = ix2 g j := ⟨i 0, i 1, eq_ix2 i⟩
  rw [shapeCast_self, shapeCast_self, addf_apply, addf_apply]
  refine congrArg₂ (fun a b : EReal => a + b) ?_ ?_
  · refine (Ideal.matmul_constant_zero_apply _ none _ _ (ix2 g j)).trans ?_
    refine Eq.trans ?_ (Ideal.dotGeneral_apply Cert.ReferenceIdeal.dot_S5000x64_S64x10_S5000x10_1_0_0_1_n_n none _ x0 x1 (ix2 g j)).symm
    rfl
  · exact (broadcastTo_1b_ab_apply x2 _ g j).trans (broadcastInDim_oneRow_apply _ x2 g j).symm

/-- Every block of the region starts at row 0 and column 0, however the zeros are spelt. -/
private theorem zero_offsets : (![0, 0] : Fin 2 → Nat) = fun _ => 0 := funext fun a => by fin_cases a <;> rfl

/-- The grid has one point, and at it every window's block index is (0, 0): each block is its whole array. -/
private theorem block_indices : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The block of the pooled graph features `hg` is the whole [5000, 64] array. -/
private theorem hg_block (c : Dev nD) (t : Fin cfg3.N) :
    (iblk3 V c 0 t : Vec Ideal S5000x64 .f32) = (V c main_v59 : S5000x64.Idx → EReal) := by
  obtain ⟨e0, e1, -⟩ := block_indices t
  funext y
  unfold iblk3
  rw [View.read_apply]
  show V c main_v59 (((cfg3.win 0).blk t).view.emb y) = V c main_v59 y
  refine congrArg (V c main_v59) (funext fun a => Fin.ext ?_)
  match a with
  | ⟨0, _⟩ => show win3_0.index t (0 : Fin 2) * 5000 + 1 * (y 0).val = (y 0).val; omega
  | ⟨1, _⟩ => show win3_0.index t (1 : Fin 2) * 64 + 1 * (y 1).val = (y 1).val; omega

/-- The block of the classifier weights `Wc` is the whole [64, 10] array. -/
private theorem Wc_block (c : Dev nD) (t : Fin cfg3.N) :
    (iblk3 V c 1 t : Vec Ideal S64x10 .f32) = (V c main_arg12 : S64x10.Idx → EReal) := by
  obtain ⟨-, -, e0, e1, -⟩ := block_indices t
  funext y
  unfold iblk3
  rw [View.read_apply]
  show V c main_arg12 (((cfg3.win 1).blk t).view.emb y) = V c main_arg12 y
  refine congrArg (V c main_arg12) (funext fun a => Fin.ext ?_)
  match a with
  | ⟨0, _⟩ => show win3_1.index t (0 : Fin 2) * 64 + 1 * (y 0).val = (y 0).val; omega
  | ⟨1, _⟩ => show win3_1.index t (1 : Fin 2) * 10 + 1 * (y 1).val = (y 1).val; omega

/-- The block of the bias row `bc` is the whole [1, 10] array. -/
private theorem bc_block (c : Dev nD) (t : Fin cfg3.N) :
    (iblk3 V c 2 t : Vec Ideal S1x10 .f32) = (V c main_v60 : S1x10.Idx → EReal) := by
  obtain ⟨-, -, -, -, e0, e1, -⟩ := block_indices t
  funext y
  unfold iblk3
  rw [View.read_apply]
  show V c main_v60 (((cfg3.win 2).blk t).view.emb y) = V c main_v60 y
  refine congrArg (V c main_v60) (funext fun a => Fin.ext ?_)
  match a with
  | ⟨0, _⟩ => show win3_2.index t (0 : Fin 2) * 1 + 1 * (y 0).val = (y 0).val; omega
  | ⟨1, _⟩ => show win3_2.index t (1 : Fin 2) * 10 + 1 * (y 1).val = (y 1).val; omega

/-- What the one point writes back is the classifier head of the entry arrays, read through the output's block
    (which is the whole [5000, 10] array). -/
private theorem flushed_eq (c : Dev nD) (t : Fin cfg3.N) :
    (dat3 (F := Ideal) V c).flushed 3 t
      = ((cfg3.win 3).blk t).view.read (Elt Ideal)
          (Cert.Layers.classify (F := Ideal) (V c main_v59) (V c main_arg12) (V c main_v60)) := by
  show (cfg3.win 3).cut (grid3.coords t) ((dat3 V c).after 3 t) = _
  rw [after3_3]
  unfold out3_3
  rw [View.canon_unit_zero zero_offsets]
  simp only [View.ld_unit_zero (S := S5000x64) zero_offsets, View.ld_unit_zero (S := S64x10) zero_offsets,
    View.ld_unit_zero (S := S1x10) zero_offsets]
  rw [hg_block V c t, Wc_block V c t, bc_block V c t, payload_eq_classify]
  generalize Cert.Layers.classify (F := Ideal) (V c main_v59) (V c main_arg12) (V c main_v60) = G
  obtain ⟨-, -, -, -, -, -, e0, e1⟩ := block_indices t
  funext y
  show G _ = G (((cfg3.win 3).blk t).view.emb y)
  refine congrArg G (funext fun a => Fin.ext ?_)
  match a with
  | ⟨0, _⟩ => show (y 0).val = win3_3.index t (0 : Fin 2) * 5000 + 1 * (y 0).val; omega
  | ⟨1, _⟩ => show (y 1).val = win3_3.index t (1 : Fin 2) * 10 + 1 * (y 1).val; omega

/-- An entry of the output array lies in the point's block iff each coordinate is in the block's range on its axis. -/
private theorem mem_block (t : Fin cfg3.N) (i : S5000x10.Idx) :
    i ∈ ((cfg3.win 3).blk t).view.set
      ↔ ∀ a : Fin 2, win3_3.index t a * S5000x10.size a ≤ (i a).val
          ∧ (i a).val < win3_3.index t a * S5000x10.size a + S5000x10.size a := by
  show i ∈ ((View.whole main_v61).slice (win3_3.rect t)).set ↔ _
  rw [View.set_slice_whole, Rect.mem_set_unit]
  exact Iff.rfl

/-- Region 3 leaves, in its output array, the classifier head of the arrays it is entered with. -/
theorem classifier_array (c : Dev nD) :
    (dat3 (F := Ideal) V c).arrAt 3 cfg3.N
      = Cert.Layers.classify (F := Ideal) (V c main_v59) (V c main_arg12) (V c main_v60) := by
  refine (dat3 (F := Ideal) V c).arrAt_eq_of_cover 3 _ (fun t _ => flushed_eq V c t) fun i => ?_
  obtain ⟨-, -, -, -, -, -, e0, e1⟩ := block_indices t3_0
  refine ⟨t3_0, flush3_3 t3_0, ?_⟩
  rw [mem_block]
  intro a
  have h0 : (i 0).val < 5000 := (i 0).isLt
  have h1 : (i 1).val < 10 := (i 1).isLt
  match a with
  | ⟨0, _⟩ =>
    show win3_3.index t3_0 (0 : Fin 2) * 5000 ≤ (i 0).val ∧ (i 0).val < win3_3.index t3_0 (0 : Fin 2) * 5000 + 5000
    omega
  | ⟨1, _⟩ =>
    show win3_3.index t3_0 (1 : Fin 2) * 10 ≤ (i 1).val ∧ (i 1).val < win3_3.index t3_0 (1 : Fin 2) * 10 + 10
    omega

end Cert.KernelIdeal.Regions

end
-- ==== Proof.FoldValues.lean ====
/-
  What each region of the kernel program leaves, as the network's layers of the ARGUMENTS, and with it the program's result.

  Going forward through @main: the embedding region leaves the node features; the host operations after it form, per node, the
  mean of its in-neighbours' rows; the first dense region leaves the first hidden layer; the same again for the second; the
  host operations after that form the per-graph mean; the classifier region leaves the result. Each host stretch is the very
  chain of operations the reference applies, so it is carried as that layer's function, never opened. The two programs lift a
  bias vector to a one-row array differently (a reshape here, a broadcast along the new axis there): entry by entry the same.
-/
import proofs.«400131_j88648124991069_1_alg».proof.Proof.FoldArgs
import proofs.«400131_j88648124991069_1_alg».proof.Proof.Layers
import proofs.«400131_j88648124991069_1_alg».proof.Proof.EmbedRegion
import proofs.«400131_j88648124991069_1_alg».proof.Proof.Sage80Region
import proofs.«400131_j88648124991069_1_alg».proof.Proof.Sage64Region
import proofs.«400131_j88648124991069_1_alg».proof.Proof.ClassifierRegion
import Idealize.ShloMosaic.Lib.Pipeline.Value
import Idealize.ShloMosaic.Lib.ValueIdx

set_option maxRecDepth 16384
set_option maxHeartbeats 8000000

noncomputable section

namespace Cert.KernelIdeal.Fold

open Cert.KernelIdeal Cert.KernelIdeal.Gen Idealize.ShloMosaic Idealize.ShloMosaic.TcCoe Idealize.SL.Sem Idealize.ShloMosaic.StableHlo
open Cert.Layers (embedRows meanNeighbours80 meanNeighbours64 sage80 sage64 graphMean classify liftRow64 liftRow10 network)

variable (m : (ℓ : Loc nD τ sig) → Buf (Elt Ideal) ℓ) (ρ : Dev nD → PrngReg)

local macro "through_host" : tactic => `(tactic| (show StableHlo.after _ _ _ = _; after_results))

/-! ## A vector as a one-row array, two spellings -/

/-- A 64-vector reshaped to `[1, 64]` is the vector broadcast along a new leading axis: entry `(0, q)` is entry `q`. -/
theorem reshape_row64 (b : (⟨S64, .f32⟩ : BufTy).Contents (Elt Ideal)) :
    shapeCast S1x64 b shapeCasts_S64_S1x64 = liftRow64 (F := Ideal) b := by
  funext i
  have h0 : (i 0).val = 0 := by have h : (i 0).val < 1 := (i 0).isLt; omega
  have hq : (i 1).val < 64 := (i 1).isLt
  unfold Cert.Layers.liftRow64
  rw [shapeCast_apply b shapeCasts_S64_S1x64 i (ValueIdx.ix1 (⟨(i 1).val, hq⟩ : Fin 64))
        (by rw [Shape.rowMajor_val_two, Shape.rowMajor_val_one]; show (i 1).val = (i 0).val * 64 + (i 1).val; omega),
      broadcastInDim_apply _ _ b i (ValueIdx.ix1 (⟨(i 1).val, hq⟩ : Fin 64))
        (fun a => match a with | ⟨0, _⟩ => by show (i 1).val = if (64 : ℕ) = 1 then 0 else (i 1).val; simp)]

/-- A 10-vector reshaped to `[1, 10]` is the vector broadcast along a new leading axis. -/
theorem reshape_row10 (b : (⟨S10, .f32⟩ : BufTy).Contents (Elt Ideal)) :
    shapeCast S1x10 b shapeCasts_S10_S1x10 = liftRow10 (F := Ideal) b := by
  funext i
  have h0 : (i 0).val = 0 := by have h : (i 0).val < 1 := (i 0).isLt; omega
  have hq : (i 1).val < 10 := (i 1).isLt
  unfold Cert.Layers.liftRow10
  rw [shapeCast_apply b shapeCasts_S10_S1x10 i (ValueIdx.ix1 (⟨(i 1).val, hq⟩ : Fin 10))
        (by rw [Shape.rowMajor_val_two, Shape.rowMajor_val_one]; show (i 1).val = (i 0).val * 10 + (i 1).val; omega),
      broadcastInDim_apply _ _ b i (ValueIdx.ix1 (⟨(i 1).val, hq⟩ : Fin 10))
        (fun a => match a with | ⟨0, _⟩ => by show (i 1).val = if (10 : ℕ) = 1 then 0 else (i 1).val; simp)]

/-! ## The layers of the arguments -/

/-- The node features of the arguments. -/
abbrev feat (c : Dev nD) := embedRows (F := Ideal) (m ((c.tc : Thread nD τ).loc main_arg0)) (m ((c.tc : Thread nD τ).loc main_arg3)) (m ((c.tc : Thread nD τ).loc main_arg4)) (m ((c.tc : Thread nD τ).loc main_arg5))
/-- The first hidden layer of the arguments. -/
abbrev hid1 (c : Dev nD) := sage80 (F := Ideal) (meanNeighbours80 (F := Ideal) (m ((c.tc : Thread nD τ).loc main_arg1)) (feat m c)) (feat m c) (m ((c.tc : Thread nD τ).loc main_arg6)) (liftRow64 (F := Ideal) (m ((c.tc : Thread nD τ).loc main_arg7))) (m ((c.tc : Thread nD τ).loc main_arg8))
/-- The second hidden layer of the arguments. -/
abbrev hid2 (c : Dev nD) := sage64 (F := Ideal) (meanNeighbours64 (F := Ideal) (m ((c.tc : Thread nD τ).loc main_arg1)) (hid1 m c)) (hid1 m c) (m ((c.tc : Thread nD τ).loc main_arg9)) (liftRow64 (F := Ideal) (m ((c.tc : Thread nD τ).loc main_arg10))) (m ((c.tc : Thread nD τ).loc main_arg11))

/-- One over the larger of a node's in-degree and one, as a column `[100000, 1]`: what the second aggregation reuses of the first. -/
def degInvCol (dst : (⟨S1600000, .i32⟩ : BufTy).Contents (Elt Ideal)) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32))
      (maximumf
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-! ## The first layer -/

/-- The embedding region leaves the node features. -/
theorem feat_at7 (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W7 (F := Ideal) m ρ c (Proc.devRef .tc main_v10) = feat m c :=
  (W7_arr m ρ c 6).trans
    (Regions.embed_array (V6 m ρ) c _ _ _ _ (xcol0_at6 m ρ c) (xcol1_at6 m ρ c) (xcol2_at6 m ρ c)
      (shapeTable_at6 m ρ c) (colourTable_at6 m ρ c) (positionTable_at6 m ρ c) hx0 hx1 hx2)

theorem feat_at8 (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W8 (F := Ideal) m ρ c (Proc.devRef .tc main_v10) = feat m c := by
  through_host
  exact feat_at7 m ρ c hx0 hx1 hx2

/-- The host operations after it: the mean of the in-neighbours' feature rows. -/
theorem agg1_at8 (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W8 (F := Ideal) m ρ c (Proc.devRef .tc main_v31) = meanNeighbours80 (F := Ideal) (m ((c.tc : Thread nD τ).loc main_arg1)) (feat m c) := by
  through_host
  rw [src_at7 m ρ c, dst_at7 m ρ c, feat_at7 m ρ c hx0 hx1 hx2]
  unfold Cert.Layers.meanNeighbours80
  rfl

/-- The in-degree column it also leaves, for the second layer. -/
theorem degInv_at8 (c : Dev nD) :
    W8 (F := Ideal) m ρ c (Proc.devRef .tc main_v19) = degInvCol (shapeCast _ (extractStridedSlice S1x1600000 ![1, 0] (m ((c.tc : Thread nD τ).loc main_arg1)) slices_S2x1600000_S1x1600000_1_0) shapeCasts_S1x1600000_S1600000) := by
  through_host
  rw [dst_at7 m ρ c]
  unfold degInvCol
  rfl

theorem bias1_at8 (c : Dev nD) :
    W8 (F := Ideal) m ρ c (Proc.devRef .tc main_v32) = liftRow64 (F := Ideal) (m ((c.tc : Thread nD τ).loc main_arg7)) := by
  through_host
  rw [arg7_at7 m ρ c]
  exact (show _ = shapeCast S1x64 (m ((c.tc : Thread nD τ).loc main_arg7)) shapeCasts_S64_S1x64 from rfl).trans (reshape_row64 _)

/-- The first dense region leaves the first hidden layer. -/
theorem hid1_at9 (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W9 (F := Ideal) m ρ c (Proc.devRef .tc main_v33) = hid1 m c := by
  refine (W9_arr m ρ c 5).trans ((Regions.sage80_array (V8 m ρ) c).trans ?_)
  dsimp only [V8]
  rw [agg1_at8 m ρ c hx0 hx1 hx2, feat_at8 m ρ c hx0 hx1 hx2, arg6_at8 m ρ c, bias1_at8 m ρ c, arg8_at8 m ρ c]

/-! ## The second layer -/

theorem hid1_at10 (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W10 (F := Ideal) m ρ c (Proc.devRef .tc main_v33) = hid1 m c := by
  through_host
  exact hid1_at9 m ρ c hx0 hx1 hx2

theorem agg2_at10 (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W10 (F := Ideal) m ρ c (Proc.devRef .tc main_v45) = meanNeighbours64 (F := Ideal) (m ((c.tc : Thread nD τ).loc main_arg1)) (hid1 m c) := by
  through_host
  rw [src_at9 m ρ c, dst_at9 m ρ c, hid1_at9 m ρ c hx0 hx1 hx2, W9_of_ne m ρ c main_v19 (by decide), degInv_at8 m ρ c]
  unfold Cert.Layers.meanNeighbours64 degInvCol
  rfl

theorem bias2_at10 (c : Dev nD) :
    W10 (F := Ideal) m ρ c (Proc.devRef .tc main_v46) = liftRow64 (F := Ideal) (m ((c.tc : Thread nD τ).loc main_arg10)) := by
  through_host
  rw [arg10_at9 m ρ c]
  exact (show _ = shapeCast S1x64 (m ((c.tc : Thread nD τ).loc main_arg10)) shapeCasts_S64_S1x64 from rfl).trans (reshape_row64 _)

/-- The second dense region leaves the second hidden layer. -/
theorem hid2_at11 (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W11 (F := Ideal) m ρ c (Proc.devRef .tc main_v47) = hid2 m c := by
  refine (W11_arr m ρ c 5).trans ((Regions.sage64_array (V10 m ρ) c).trans ?_)
  dsimp only [V10]
  rw [agg2_at10 m ρ c hx0 hx1 hx2, hid1_at10 m ρ c hx0 hx1 hx2, arg9_at10 m ρ c, bias2_at10 m ρ c, arg11_at10 m ρ c]

/-! ## The per-graph mean and the classifier -/

theorem graphs_at12 (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W12 (F := Ideal) m ρ c (Proc.devRef .tc main_v59) = graphMean (F := Ideal) (m ((c.tc : Thread nD τ).loc main_arg2)) (hid2 m c) := by
  through_host
  rw [arg2_at11 m ρ c, hid2_at11 m ρ c hx0 hx1 hx2]
  unfold Cert.Layers.graphMean
  rfl

theorem biasC_at12 (c : Dev nD) :
    W12 (F := Ideal) m ρ c (Proc.devRef .tc main_v60) = liftRow10 (F := Ideal) (m ((c.tc : Thread nD τ).loc main_arg13)) := by
  through_host
  rw [arg13_at11 m ρ c]
  exact (show _ = shapeCast S1x10 (m ((c.tc : Thread nD τ).loc main_arg13)) shapeCasts_S10_S1x10 from rfl).trans (reshape_row10 _)

/-- The kernel program's result buffer, at the end of the fold through @main, is the forward pass of the arguments. -/
theorem result_eq (c : Dev nD) (hx0 : ∀ i : S100000x3.Idx, (i 1).val = 0 → (m ((c.tc : Thread nD τ).loc main_arg0) i : BitVec 32).toNat < 16)
    (hx1 : ∀ i : S100000x3.Idx, (i 1).val = 1 → (m ((c.tc : Thread nD τ).loc main_arg0) i : BitVec 32).toNat < 8)
    (hx2 : ∀ i : S100000x3.Idx, (i 1).val = 2 → (m ((c.tc : Thread nD τ).loc main_arg0) i : BitVec 32).toNat < 20) :
    W13 (F := Ideal) m ρ c (Proc.devRef .tc main_v61)
      = network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W13_arr m ρ c 3).trans ((Regions.classifier_array (V12 m ρ) c).trans ?_)
  dsimp only [V12]
  rw [graphs_at12 m ρ c hx0 hx1 hx2, arg12_at12 m ρ c, biasC_at12 m ρ c]
  rfl

end Cert.KernelIdeal.Fold

end
-- ==== Proof.RefNetwork.lean ====
/-
  The reference program's result, as the generated run states it, is `Cert.Layers.network` of its fourteen argument arrays:
  the run's composed term is the layers' composition written out.
-/
import proofs.«400131_j88648124991069_1_alg».proof.Proof.Gen.ReferenceIdeal.Run
import proofs.«400131_j88648124991069_1_alg».proof.Proof.Layers

noncomputable section

namespace Cert.ReferenceIdeal.Network

open Cert.ReferenceIdeal Cert.ReferenceIdeal.Gen Idealize.ShloMosaic Idealize.ShloMosaic.TcCoe Idealize.SL.Sem

variable {F : FTy → Type} [FloatOps F]

set_option maxRecDepth 8192 in
/-- The reference's result array is the forward pass of its arguments. -/
theorem res_eq (m : (ℓ : Loc nD τ sig) → Buf (Elt F) ℓ) (c : Dev nD) :
    Cert.ReferenceIdeal.Value.res_main_v94 (F := F) m c
      = Cert.Layers.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.Value.res_main_v94; rfl

end Cert.ReferenceIdeal.Network

end
-- ==== Proof.IndexRange.lean ====
/-
  Under the precondition every entry of x lies inside the table its column indexes: entries of column 0 are below 16,
  of column 1 below 8, of column 2 below 20, read as unsigned words. The precondition's last three conjuncts say, for each
  column k, that every entry w of the column satisfies 0 ≤ w and w < rows_k as SIGNED words; a signed word that is
  at least 0 has its sign bit clear, so its signed and unsigned readings agree, and w < rows_k unsigned follows.
  Each conjunct is an and-reduction over the column (a slice of x reshaped to a vector) of the two comparisons against
  broadcast constants; it is read back at the row of a given entry.
-/
import proofs.«400131_j88648124991069_1_alg».proof.Defs
import proofs.«400131_j88648124991069_1_alg».proof.Proof.Gen.KernelIdeal
import proofs.«400131_j88648124991069_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.IndexRange

open Cert.KernelIdeal Cert.KernelIdeal.Gen Idealize.ShloMosaic Idealize.ShloMosaic.TcCoe Idealize.SL.Sem

section Decode

open Idealize.ShloMosaic.ValueIdx Idealize.ShloMosaic.StableHlo

/-- The scalar shape has exactly one index. -/
private instance scalarIdx_subsingleton : Subsingleton (⟨0, ![]⟩ : Shape).Idx := ⟨fun a b => funext fun d => d.elim0⟩

/-- A 32-bit word that is at least 0 and below n as a signed word (n < 2³¹) is below n as an unsigned word:
    0 ≤ w signed forces the sign bit clear, hence w < 2³¹ unsigned, where the signed and unsigned orders coincide. -/
private theorem toNat_lt_of_signed (w : BitVec 32) (n : Nat) (hn : n < 2 ^ 31)
    (hge : IntOp.cmpi .sge w 0#32 = 1#1) (hlt : IntOp.cmpi .slt w (BitVec.ofNat 32 n) = 1#1) : w.toNat < n := by
  have hw : w.toNat < 2 ^ 31 := by
    have h : (0#32 : BitVec 32).sle w = true := (Predicate.ofBool_eq_one_iff _).1 hge
    rw [BitVec.sle, decide_eq_true_eq] at h
    have h0 : (0#32 : BitVec 32).toInt = 0 := by decide
    rw [h0, BitVec.toInt_eq_msb_cond] at h
    have hlt32 := w.isLt
    by_cases hm : w.msb = true
    · rw [if_pos hm] at h; omega
    · have hm' : w.msb = false := by simpa using hm
      have := BitVec.msb_eq_false_iff_two_mul_lt.mp hm'; omega
  have hnn : (BitVec.ofNat 32 n).toNat = n := by rw [BitVec.toNat_ofNat]; exact Nat.mod_eq_of_lt (by omega)
  have := (Predicate.slt_iff_toNat hw (by rw [hnn]; exact hn)).1 hlt
  rwa [hnn] at this

/-- One column's range conjunct read back. If the and-reduction over all rows of
    (0 ≤ x[:, k] signed) and (x[:, k] < n signed) is 1, then every entry of column k is below n unsigned: the reduction
    being 1 makes the conjunction 1 at every row r; the reshaped [100000, 1] slice at r is the slice at (r, 0), which is
    x at (r, k); the broadcast constants read as the constants. -/
private theorem col_lt (x : IVec ⟨2, ![100000, 3]⟩ 32) (k n : Nat) (hn : n < 2 ^ 31)
    (hs : (⟨2, ![100000, 3]⟩ : Shape).Slices ![0, k] ⟨2, ![100000, 1]⟩)
    (hc : (⟨2, ![100000, 1]⟩ : Shape).ShapeCasts ⟨1, ![100000]⟩)
    (hb : (⟨0, ![]⟩ : Shape).BroadcastsInDim ⟨1, ![100000]⟩ (![] : Fin 0 → Fin 1))
    (hr : (⟨1, ![100000]⟩ : Shape).ReducesTo [0] ⟨0, ![]⟩) (h0 : 0 < (⟨0, ![]⟩ : Shape).numel)
    (e : Host.reduce IntOp.andi
          (andi (cmpi .sge (shapeCast ⟨1, ![100000]⟩ (extractStridedSlice ⟨2, ![100000, 1]⟩ ![0, k] x hs) hc)
                  (broadcastInDim ⟨1, ![100000]⟩ ![] hb (constantI ⟨0, ![]⟩ 32 0#32)))
                (cmpi .slt (shapeCast ⟨1, ![100000]⟩ (extractStridedSlice ⟨2, ![100000, 1]⟩ ![0, k] x hs) hc)
                  (broadcastInDim ⟨1, ![100000]⟩ ![] hb (constantI ⟨0, ![]⟩ 32 (BitVec.ofNat 32 n)))))
          (constantI ⟨0, ![]⟩ 1 1#1) hr h0 ix0 = 1#1)
    (i : (⟨2, ![100000, 3]⟩ : Shape).Idx) (hi : (i 1).val = k) : (x i).toNat < n := by
  have hr0 : (i 0).val < 100000 := idx2_lt0 i
  -- the conjunction at row (i 0)
  have e1 := Host.reduce_andi_all _ _ hr h0 ix0 e (ix1 (⟨(i 0).val, hr0⟩ : Fin 100000))
  obtain ⟨hge, hlt⟩ := IntOp.andi_eq_one.1 e1
  -- the column vector at row (i 0) is x at i
  have hA : shapeCast ⟨1, ![100000]⟩ (extractStridedSlice ⟨2, ![100000, 1]⟩ ![0, k] x hs) hc (ix1 (⟨(i 0).val, hr0⟩ : Fin 100000)) = x i := by
    refine (shapeCast_apply _ hc _ (ix2 (⟨(i 0).val, hr0⟩ : Fin 100000) (0 : Fin 1)) ?_).trans ?_
    · rw [Shape.rowMajor_val_two, Shape.rowMajor_val_one]
      show (i 0).val * 1 + 0 = (i 0).val
      omega
    · refine extractStridedSlice_apply ![0, k] x hs _ i ?_
      intro a
      match a with
      | ⟨0, _⟩ => show (i 0).val = 0 + (i 0).val; omega
      | ⟨1, _⟩ => show (i 1).val = k + 0; omega
  change IntOp.cmpi .sge (shapeCast ⟨1, ![100000]⟩ (extractStridedSlice ⟨2, ![100000, 1]⟩ ![0, k] x hs) hc (ix1 (⟨(i 0).val, hr0⟩ : Fin 100000))) 0#32 = 1#1 at hge
  change IntOp.cmpi .slt (shapeCast ⟨1, ![100000]⟩ (extractStridedSlice ⟨2, ![100000, 1]⟩ ![0, k] x hs) hc (ix1 (⟨(i 0).val, hr0⟩ : Fin 100000))) (BitVec.ofNat 32 n) = 1#1 at hlt
  rw [hA] at hge hlt
  exact toNat_lt_of_signed _ n hn hge hlt

end Decode

/-- The precondition's three added conjuncts, decoded: column 0 of `x` below 16, column 1 below 8, column 2 below 20, as unsigned
    words (which, with the lower bounds `0 ≤ x`, is what the signed comparisons say). -/
theorem x_in_range (m : (ℓ : Loc nD τ sig) → Buf (Elt Ideal) ℓ) (hpre : Cert.Pre_KernelIdeal m) (c : Dev nD) :
    (∀ i : S100000x3.Idx, (i 1).val = 0 → (m ((c.tc : Thread nD τ).loc main_arg0) i : BitVec 32).toNat < 16)
    ∧ (∀ i : S100000x3.Idx, (i 1).val = 1 → (m ((c.tc : Thread nD τ).loc main_arg0) i : BitVec 32).toNat < 8)
    ∧ (∀ i : S100000x3.Idx, (i 1).val = 2 → (m ((c.tc : Thread nD τ).loc main_arg0) i : BitVec 32).toNat < 20) := by
  -- the precondition at the scalar result's one index, its chain of operations opened
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  -- the last three conjuncts are the three columns' range tests; what stands before them is not needed
  obtain ⟨e2, h2⟩ := IntOp.andi_eq_one.1 e
  obtain ⟨e1, h1⟩ := IntOp.andi_eq_one.1 e2
  obtain ⟨-, h0⟩ := IntOp.andi_eq_one.1 e1
  exact ⟨fun i hi => col_lt _ 0 16 (by decide) _ _ _ _ _ h0 i hi,
    fun i hi => col_lt _ 1 8 (by decide) _ _ _ _ _ h1 i hi,
    fun i hi => col_lt _ 2 20 (by decide) _ _ _ _ _ h2 i hi⟩

end Cert.KernelIdeal.IndexRange

end
-- ==== Proof.lean ====
/-
  The kernel — a two-layer mean-aggregating graph network: embedding look-ups as one-hot products, two dense projections
  `max(agg · Wl + b + h · Wr, 0)`, a classifier head, each a Pallas region, with the neighbour means, the per-graph mean and
  the index preparation left to host operations — computes the reference's function over the extended reals.

  Both programs end with `Cert.Layers.network` of their fourteen argument arrays.
  * The reference's generated run states its result as one composed term, which is the layers' composition written out.
  * The kernel program's run leaves its result at the end of a fold of the buffer contents through @main. Read backwards,
    the classifier region's output array is `hg · Wc + bc` of the arrays it is entered with; those come from the host operations
    before it, which are the reference's own per-graph mean applied to the second dense region's output; and so on down to the
    embedding region, whose one-hot products pick, for an index inside its table, exactly the row the reference's gather reads.
    That last step is the only place the precondition is used: every entry of `x` indexes inside its table (outside it the
    reference's look-up is out of range, and the two programs differ: a clamped row against a zero row). The dense regions differ
    from the reference only in the order of a three-term sum.
  * The three frames are the generated ones (the reference's is its run with the result dropped); the idealization's ledger is
    empty, so nothing is owed for it.
-/
import proofs.«400131_j88648124991069_1_alg».proof.Defs
import proofs.«400131_j88648124991069_1_alg».proof.Proof.Gen.Kernel
import proofs.«400131_j88648124991069_1_alg».proof.Proof.Gen.Kernel.Frame
import proofs.«400131_j88648124991069_1_alg».proof.Proof.Gen.KernelIdeal
import proofs.«400131_j88648124991069_1_alg».proof.Proof.Gen.KernelIdeal.Frame
import proofs.«400131_j88648124991069_1_alg».proof.Proof.Gen.ReferenceIdeal
import proofs.«400131_j88648124991069_1_alg».proof.Proof.Gen.ReferenceIdeal.Run
import proofs.«400131_j88648124991069_1_alg».proof.Proof.Gen.Pre_finite_inputs
import proofs.«400131_j88648124991069_1_alg».proof.Proof.KernelRun
import proofs.«400131_j88648124991069_1_alg».proof.Proof.FoldValues
import proofs.«400131_j88648124991069_1_alg».proof.Proof.RefNetwork
import proofs.«400131_j88648124991069_1_alg».proof.Proof.IndexRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the forward pass of those arguments. -/
theorem algebraic : Cert.algebraic_KernelIdeal_ReferenceIdeal := by
  intro m ρ m' ρ' hpre hagree
  refine ⟨fun c => Cert.Layers.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.Run.run_result (F := Ideal) m ρ)
    obtain ⟨hx0, hx1, hx2⟩ := Cert.KernelIdeal.IndexRange.x_in_range m hpre c
    exact Cert.KernelIdeal.Fold.result_eq m ρ c hx0 hx1 hx2
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Network.res_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
